-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1x128 : Shape := ⟨2, ![1, 128]⟩
abbrev S400000 : Shape := ⟨1, ![400000]⟩
abbrev S15000 : Shape := ⟨1, ![15000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S400000 : S_.BroadcastsInDim S400000 (![] : Fin 0 → Fin S400000.rank)
  reducesTo_S400000_S_d0 : S400000.ReducesTo [0] S_

variable [Facts]

def fn_part4 {F : FTy → Type} [FloatOps F] (main_arg2 : IVec S400000 32) (main_v63 : IVec S_ 1) (main_v67 : IVec S_ 1) : IVec S_ 1 :=
  let main_v68 : IVec S_ 1 := andi main_v63 main_v67
  let main_c_26 : IVec S_ 32 := constantI S_ 32 0#32
  let main_v69 : IVec S400000 32 := broadcastInDim S400000 ![] bcast_S_S400000 main_c_26
  let main_v70 : IVec S400000 1 := cmpi .sge main_arg2 main_v69
  let main_c_27 : IVec S_ 32 := constantI S_ 32 50000#32
  let main_v71 : IVec S400000 32 := broadcastInDim S400000 ![] bcast_S_S400000 main_c_27
  let main_v72 : IVec S400000 1 := cmpi .slt main_arg2 main_v71
  let main_v73 : IVec S400000 1 := andi main_v70 main_v72
  let main_c_28 : IVec S_ 1 := constantI S_ 1 1#1
  let main_v74 : IVec S_ 1 := (fun x v => Host.reduce IntOp.andi x v reducesTo_S400000_S_d0 h_S_) main_v73 main_c_28
  let main_v75 : IVec S_ 1 := andi main_v68 main_v74
  main_v75

def fn_part3 {F : FTy → Type} [FloatOps F] (main_arg2 : IVec S400000 32) (main_arg14 : FVec F S512x128 .f32) (main_arg15 : FVec F S512x128 .f32) (main_arg16 : FVec F S128 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x128 .f32 := Host.absf main_arg14
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S512x128 .f32 := Host.absf main_arg15
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_v63 main_v67

def fn_part2 {F : FTy → Type} [FloatOps F] (main_arg2 : IVec S400000 32) (main_arg10 : FVec F S512 .f32) (main_arg11 : FVec F S512x512 .f32) (main_arg12 : FVec F S512x512 .f32) (main_arg13 : FVec F S512 .f32) (main_arg14 : FVec F S512x128 .f32) (main_arg15 : FVec F S512x128 .f32) (main_arg16 : FVec F S128 .f32) (main_v33 : IVec S_ 1) : IVec S_ 1 :=
  let main_v34 : FVec F S512 .f32 := Host.absf main_arg10
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg11
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg12
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg13
  let main_cst_18 : FVec F S_ .f32 := constant S_ .f32 0x7F800000#32
  let main_v50 : FVec F S512 .f32 := broadcastInDim S512 ![] bcast_S_S512 main_cst_18
  fn_part3 (F := F) main_arg2 main_arg14 main_arg15 main_arg16 main_v48 main_v49 main_v50

def fn_part1 {F : FTy → Type} [FloatOps F] (main_arg2 : IVec S400000 32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x128 .f32) (main_arg15 : FVec F S512x128 .f32) (main_arg16 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg8
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg9
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg2 main_arg10 main_arg11 main_arg12 main_arg13 main_arg14 main_arg15 main_arg16 main_v33

def fn {F : FTy → Type} [FloatOps F] (main_arg0 : FVec F S50000x128 .f32) (main_arg1 : FVec F S1x128 .f32) (main_arg2 : IVec S400000 32) (main_arg3 : IVec S400000 32) (main_arg4 : IVec S15000 32) (main_arg5 : FVec F S128x512 .f32) (main_arg6 : FVec F S128x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x128 .f32) (main_arg15 : FVec F S512x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128x512 .f32 := Host.absf main_arg5
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg6
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg2 main_arg7 main_arg8 main_arg9 main_arg10 main_arg11 main_arg12 main_arg13 main_arg14 main_arg15 main_arg16 main_v13 main_v16
-- ==== Kernel.lean ====
abbrev S50000x128 : Shape := ⟨2, ![50000, 128]⟩
abbrev S1x128 : Shape := ⟨2, ![1, 128]⟩
abbrev S400000 : Shape := ⟨1, ![400000]⟩
abbrev S15000 : Shape := ⟨1, ![15000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩
abbrev S15000x1 : Shape := ⟨2, ![15000, 1]⟩
abbrev S15000x128 : Shape := ⟨2, ![15000, 128]⟩
abbrev S50000 : Shape := ⟨1, ![50000]⟩
abbrev S400000x1 : Shape := ⟨2, ![400000, 1]⟩
abbrev S1 : Shape := ⟨1, ![1]⟩
abbrev S1x1 : Shape := ⟨2, ![1, 1]⟩
abbrev S400000x128 : Shape := ⟨2, ![400000, 128]⟩
abbrev S50000x1 : Shape := ⟨2, ![50000, 1]⟩
abbrev S50000x512 : Shape := ⟨2, ![50000, 512]⟩
abbrev S2000x128 : Shape := ⟨2, ![2000, 128]⟩
abbrev S2000x512 : Shape := ⟨2, ![2000, 512]⟩
abbrev S1x512 : Shape := ⟨2, ![1, 512]⟩
abbrev S400000x512 : Shape := ⟨2, ![400000, 512]⟩

abbrev nBuf : Space → Nat
  | .hbm => 204
  | .vmem => 36
  | .smem => 0
  | _ => 0

abbrev hbmTy0_0 (i : Nat) : BufTy := match i % 128 with
  | 0 => ⟨S50000x128, .f32⟩
  | 1 => ⟨S1x128, .f32⟩
  | 2 => ⟨S400000, .i32⟩
  | 3 => ⟨S400000, .i32⟩
  | 4 => ⟨S15000, .i32⟩
  | 5 => ⟨S128x512, .f32⟩
  | 6 => ⟨S128x512, .f32⟩
  | 7 => ⟨S512, .f32⟩
  | 8 => ⟨S512x512, .f32⟩
  | 9 => ⟨S512x512, .f32⟩
  | 10 => ⟨S512, .f32⟩
  | 11 => ⟨S512x512, .f32⟩
  | 12 => ⟨S512x512, .f32⟩
  | 13 => ⟨S512, .f32⟩
  | 14 => ⟨S512x128, .f32⟩
  | 15 => ⟨S512x128, .f32⟩
  | 16 => ⟨S128, .f32⟩
  | 17 => ⟨S128, .f32⟩
  | 18 => ⟨S_, .i32⟩
  | 19 => ⟨S15000, .i32⟩
  | 20 => ⟨S15000, .i1⟩
  | 21 => ⟨S_, .i32⟩
  | 22 => ⟨S15000, .i32⟩
  | 23 => ⟨S15000, .i32⟩
  | 24 => ⟨S15000, .i32⟩
  | 25 => ⟨S15000x1, .i32⟩
  | 26 => ⟨S15000x128, .f32⟩
  | 27 => ⟨S50000x128, .f32⟩
  | 28 => ⟨S_, .f32⟩
  | 29 => ⟨S400000, .f32⟩
  | 30 => ⟨S_, .f32⟩
  | 31 => ⟨S50000, .f32⟩
  | 32 => ⟨S400000x1, .i32⟩
  | 33 => ⟨S50000, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S1, .i32⟩
  | 49 => ⟨S_, .i32⟩
  | 50 => ⟨S400000x1, .i32⟩
  | 51 => ⟨S400000x1, .i1⟩
  | 52 => ⟨S1x1, .i32⟩
  | 53 => ⟨S400000x1, .i32⟩
  | 54 => ⟨S400000x1, .i1⟩
  | 55 => ⟨S400000x1, .i1⟩
  | 56 => ⟨S_, .i1⟩
  | 57 => ⟨S400000, .i1⟩
  | 58 => ⟨S400000x128, .f32⟩
  | 59 => ⟨S400000x128, .i1⟩
  | 60 => ⟨S_, .f32⟩
  | 61 => ⟨S400000x128, .f32⟩
  | 62 => ⟨S400000x128, .f32⟩
  | 63 => ⟨S_, .f32⟩
  | 64 => ⟨S50000x128, .f32⟩
  | 65 => ⟨S400000x1, .i32⟩
  | 66 => ⟨S50000x128, .f32⟩
  | 67 => ⟨S50000x1, .f32⟩
  | 68 => ⟨S50000x128, .f32⟩
  | 69 => ⟨S50000x128, .f32⟩
  | 70 => ⟨S50000x128, .bf16⟩
  | 71 => ⟨S50000x128, .bf16⟩
  | 72 => ⟨S128x512, .bf16⟩
  | 73 => ⟨S128x512, .bf16⟩
  | 74 => ⟨S50000x512, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S1, .i32⟩
  | 84 => ⟨S_, .i32⟩
  | 85 => ⟨S400000x1, .i32⟩
  | 86 => ⟨S400000x1, .i1⟩
  | 87 => ⟨S1x1, .i32⟩
  | 88 => ⟨S400000x1, .i32⟩
  | 89 => ⟨S400000x1, .i1⟩
  | 90 => ⟨S400000x1, .i1⟩
  | 91 => ⟨S_, .i1⟩
  | 92 => ⟨S400000, .i1⟩
  | 93 => ⟨S400000x512, .f32⟩
  | 94 => ⟨S400000x512, .i1⟩
  | 95 => ⟨S_, .f32⟩
  | 96 => ⟨S400000x512, .f32⟩
  | 97 => ⟨S400000x512, .f32⟩
  | 98 => ⟨S_, .f32⟩
  | 99 => ⟨S50000x512, .f32⟩
  | 100 => ⟨S400000x1, .i32⟩
  | 101 => ⟨S50000x512, .f32⟩
  | 102 => ⟨S50000x1, .f32⟩
  | 103 => ⟨S50000x512, .f32⟩
  | 104 => ⟨S50000x512, .f32⟩
  | 105 => ⟨S50000x512, .bf16⟩
  | 106 => ⟨S50000x512, .bf16⟩
  | 107 => ⟨S512x512, .bf16⟩
  | 108 => ⟨S512x512, .bf16⟩
  | 109 => ⟨S50000x512, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S1, .i32⟩
  | 119 => ⟨S_, .i32⟩
  | 120 => ⟨S400000x1, .i32⟩
  | 121 => ⟨S400000x1, .i1⟩
  | 122 => ⟨S1x1, .i32⟩
  | 123 => ⟨S400000x1, .i32⟩
  | 124 => ⟨S400000x1, .i1⟩
  | 125 => ⟨S400000x1, .i1⟩
  | 126 => ⟨S_, .i1⟩
  | 127 => ⟨S400000, .i1⟩
  | _ => ⟨S50000x128, .f32⟩

abbrev hbmTy0_1 (i : Nat) : BufTy := match i % 128 with
  | 0 => ⟨S400000x512, .f32⟩
  | 1 => ⟨S400000x512, .i1⟩
  | 2 => ⟨S_, .f32⟩
  | 3 => ⟨S400000x512, .f32⟩
  | 4 => ⟨S400000x512, .f32⟩
  | 5 => ⟨S_, .f32⟩
  | 6 => ⟨S50000x512, .f32⟩
  | 7 => ⟨S400000x1, .i32⟩
  | 8 => ⟨S50000x512, .f32⟩
  | 9 => ⟨S50000x1, .f32⟩
  | 10 => ⟨S50000x512, .f32⟩
  | 11 => ⟨S50000x512, .f32⟩
  | 12 => ⟨S50000x512, .bf16⟩
  | 13 => ⟨S50000x512, .bf16⟩
  | 14 => ⟨S512x512, .bf16⟩
  | 15 => ⟨S512x512, .bf16⟩
  | 16 => ⟨S50000x512, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S1, .i32⟩
  | 26 => ⟨S_, .i32⟩
  | 27 => ⟨S400000x1, .i32⟩
  | 28 => ⟨S400000x1, .i1⟩
  | 29 => ⟨S1x1, .i32⟩
  | 30 => ⟨S400000x1, .i32⟩
  | 31 => ⟨S400000x1, .i1⟩
  | 32 => ⟨S400000x1, .i1⟩
  | 33 => ⟨S_, .i1⟩
  | 34 => ⟨S400000, .i1⟩
  | 35 => ⟨S400000x512, .f32⟩
  | 36 => ⟨S400000x512, .i1⟩
  | 37 => ⟨S_, .f32⟩
  | 38 => ⟨S400000x512, .f32⟩
  | 39 => ⟨S400000x512, .f32⟩
  | 40 => ⟨S_, .f32⟩
  | 41 => ⟨S50000x512, .f32⟩
  | 42 => ⟨S400000x1, .i32⟩
  | 43 => ⟨S50000x512, .f32⟩
  | 44 => ⟨S50000x1, .f32⟩
  | 45 => ⟨S50000x512, .f32⟩
  | 46 => ⟨S50000x512, .f32⟩
  | 47 => ⟨S50000x512, .bf16⟩
  | 48 => ⟨S50000x512, .bf16⟩
  | 49 => ⟨S512x128, .bf16⟩
  | 50 => ⟨S512x128, .bf16⟩
  | 51 => ⟨S50000x128, .f32⟩
  | 52 => ⟨S_, .i32⟩
  | 53 => ⟨S15000, .i32⟩
  | 54 => ⟨S15000, .i1⟩
  | 55 => ⟨S_, .i32⟩
  | 56 => ⟨S15000, .i32⟩
  | 57 => ⟨S15000, .i32⟩
  | 58 => ⟨S15000, .i32⟩
  | 59 => ⟨S15000x1, .i32⟩
  | 60 => ⟨S15000x128, .f32⟩
  | 61 => ⟨S_, .i32⟩
  | 62 => ⟨S15000, .i32⟩
  | 63 => ⟨S15000, .i1⟩
  | 64 => ⟨S_, .i32⟩
  | 65 => ⟨S15000, .i32⟩
  | 66 => ⟨S15000, .i32⟩
  | 67 => ⟨S15000, .i32⟩
  | 68 => ⟨S15000x1, .i32⟩
  | 69 => ⟨S15000x128, .f32⟩
  | 70 => ⟨S15000x128, .f32⟩
  | 71 => ⟨S15000x128, .f32⟩
  | 72 => ⟨S_, .f32⟩
  | 73 => ⟨S_, .f32⟩
  | 74 => ⟨S_, .f32⟩
  | 75 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x512, .bf16⟩
  | .local _ .vmem, ⟨5, _⟩ => ⟨S128x512, .bf16⟩
  | .local _ .vmem, ⟨6, _⟩ => ⟨S512, .f32⟩
  | .local _ .vmem, ⟨7, _⟩ => ⟨S2000x512, .f32⟩
  | .local _ .vmem, ⟨8, _⟩ => ⟨S2000x512, .f32⟩
  | .local _ .vmem, ⟨9, _⟩ => ⟨S2000x512, .bf16⟩
  | .local _ .vmem, ⟨10, _⟩ => ⟨S2000x512, .bf16⟩
  | .local _ .vmem, ⟨11, _⟩ => ⟨S2000x512, .bf16⟩
  | .local _ .vmem, ⟨12, _⟩ => ⟨S2000x512, .bf16⟩
  | .local _ .vmem, ⟨13, _⟩ => ⟨S512x512, .bf16⟩
  | .local _ .vmem, ⟨14, _⟩ => ⟨S512x512, .bf16⟩
  | .local _ .vmem, ⟨15, _⟩ => ⟨S512, .f32⟩
  | .local _ .vmem, ⟨16, _⟩ => ⟨S2000x512, .f32⟩
  | .local _ .vmem, ⟨17, _⟩ => ⟨S2000x512, .f32⟩
  | .local _ .vmem, ⟨18, _⟩ => ⟨S2000x512, .bf16⟩
  | .local _ .vmem, ⟨19, _⟩ => ⟨S2000x512, .bf16⟩
  | .local _ .vmem, ⟨20, _⟩ => ⟨S2000x512, .bf16⟩
  | .local _ .vmem, ⟨21, _⟩ => ⟨S2000x512, .bf16⟩
  | .local _ .vmem, ⟨22, _⟩ => ⟨S512x512, .bf16⟩
  | .local _ .vmem, ⟨23, _⟩ => ⟨S512x512, .bf16⟩
  | .local _ .vmem, ⟨24, _⟩ => ⟨S512, .f32⟩
  | .local _ .vmem, ⟨25, _⟩ => ⟨S2000x512, .f32⟩
  | .local _ .vmem, ⟨26, _⟩ => ⟨S2000x512, .f32⟩
  | .local _ .vmem, ⟨27, _⟩ => ⟨S2000x512, .bf16⟩
  | .local _ .vmem, ⟨28, _⟩ => ⟨S2000x512, .bf16⟩
  | .local _ .vmem, ⟨29, _⟩ => ⟨S2000x512, .bf16⟩
  | .local _ .vmem, ⟨30, _⟩ => ⟨S2000x512, .bf16⟩
  | .local _ .vmem, ⟨31, _⟩ => ⟨S512x128, .bf16⟩
  | .local _ .vmem, ⟨32, _⟩ => ⟨S512x128, .bf16⟩
  | .local _ .vmem, ⟨33, _⟩ => ⟨S128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v17 : Ref sig .tc := ⟨.hbm, 62, rfl⟩
abbrev main_cst_4 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v29 : Ref sig .tc := ⟨.hbm, 97, rfl⟩
abbrev main_cst_5 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v41 : Ref sig .tc := ⟨.hbm, 132, rfl⟩
abbrev main_cst_6 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_call3_c : Ref sig .tc := ⟨.hbm, 145, rfl⟩
abbrev main_call3_v0 : Ref sig .tc := ⟨.hbm, 146, rfl⟩
abbrev main_call3_v1 : Ref sig .tc := ⟨.hbm, 147, rfl⟩
abbrev main_call3_c_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_c_1 : Ref sig .tc := ⟨.hbm, 153, rfl⟩
abbrev main_call3_c_2 : Ref sig .tc := ⟨.hbm, 154, rfl⟩
abbrev main_call3_v6 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_c_3 : Ref sig .tc := ⟨.hbm, 161, rfl⟩
abbrev main_call3_v12 : Ref sig .tc := ⟨.hbm, 162, rfl⟩
abbrev main_call3_v13 : Ref sig .tc := ⟨.hbm, 163, rfl⟩
abbrev main_call3_v14 : Ref sig .tc := ⟨.hbm, 164, rfl⟩
abbrev main_call3_cst : Ref sig .tc := ⟨.hbm, 165, rfl⟩
abbrev main_call3_v15 : Ref sig .tc := ⟨.hbm, 166, rfl⟩
abbrev main_v53 : Ref sig .tc := ⟨.hbm, 167, rfl⟩
abbrev main_cst_7 : Ref sig .tc := ⟨.hbm, 168, rfl⟩
abbrev main_v54 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_v58 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_c_8 : Ref sig .tc := ⟨.hbm, 180, rfl⟩
abbrev main_v65 : Ref sig .tc := ⟨.hbm, 181, rfl⟩
abbrev main_v66 : Ref sig .tc := ⟨.hbm, 182, rfl⟩
abbrev main_c_9 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_v70 : Ref sig .tc := ⟨.hbm, 187, rfl⟩
abbrev main_v71 : Ref sig .tc := ⟨.hbm, 188, rfl⟩
abbrev main_c_10 : Ref sig .tc := ⟨.hbm, 189, rfl⟩
abbrev main_v72 : Ref sig .tc := ⟨.hbm, 190, rfl⟩
abbrev main_v73 : Ref sig .tc := ⟨.hbm, 191, rfl⟩
abbrev main_c_11 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_cst_12 : Ref sig .tc := ⟨.hbm, 200, rfl⟩
abbrev main_v81 : Ref sig .tc := ⟨.hbm, 201, rfl⟩
abbrev main_cst_13 : Ref sig .tc := ⟨.hbm, 202, rfl⟩
abbrev main_v82 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S1x128_S128 : S1x128.ShapeCasts S128
  bcast_S_S15000 : S_.BroadcastsInDim S15000 (![] : Fin 0 → Fin S15000.rank)
  bcast_S15000_S15000x1_0 : S15000.BroadcastsInDim S15000x1 (![0] : Fin 1 → Fin S15000x1.rank)
  bcast_S128_S15000x128_1 : S128.BroadcastsInDim S15000x128 (![1] : Fin 1 → Fin S15000x128.rank)
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  bcast_S400000_S400000x512_0 : S400000.BroadcastsInDim S400000x512 (![0] : Fin 1 → Fin S400000x512.rank)
  bcast_S_S400000x512 : S_.BroadcastsInDim S400000x512 (![] : Fin 0 → Fin S400000x512.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reducesTo_S15000x128_S_d0_1 : S15000x128.ReducesTo [0, 1] S_
  scatter_S50000x128_S15000x1_S15000x128_1_0_0_1_wf : ScatterDims.WF S50000x128 S15000x1 S15000x128 [1] [0] [0] 1
  scatter_S50000_S400000x1_S400000_n_0_0_1_wf : ScatterDims.WF S50000 S400000x1 S400000 [] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S2000x128_S128x512_S2000x512_1_0_0_1_n_n_wf : DotDims.WF S2000x128 S128x512 S2000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  gather_S50000x128_S15000x1_S15000x128_1_0_n_n_0_1_1128_wf : GatherDims.WF S50000x128 S15000x1 S15000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .bf16 = 32 ∨ (Rect.block (s := S50000x512) S2000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S50000x512.size a
  hwx1_1 : ∀ i : grid1.Coords, EltTy.bits .bf16 = 32 ∨ (Rect.block (s := S50000x512) S2000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .bf16 = 32 ∨ (Rect.block (s := S50000x512) S2000x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S50000x512.size a
  hwx2_1 : ∀ i : grid2.Coords, EltTy.bits .bf16 = 32 ∨ (Rect.block (s := S50000x512) S2000x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x512.size a ≤ S50000x512.size a
  hwx2_5 : ∀ i : grid2.Coords, EltTy.bits .f32 = 32 ∨ (Rect.block (s := S50000x512) S2000x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .bf16 = 32 ∨ (Rect.block (s := S50000x512) S2000x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x512.size a ≤ S50000x512.size a
  hwx3_1 : ∀ i : grid3.Coords, EltTy.bits .bf16 = 32 ∨ (Rect.block (s := S50000x512) S2000x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S512x128.size a
  hwx3_2 : ∀ i : grid3.Coords, EltTy.bits .bf16 = 32 ∨ (Rect.block (s := S512x128) S512x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S512x128.size a
  hwx3_3 : ∀ i : grid3.Coords, EltTy.bits .bf16 = 32 ∨ (Rect.block (s := S512x128) S512x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def scatter_S50000x128_S15000x1_S15000x128_1_0_0_1 : ScatterDims S50000x128 S15000x1 S15000x128 where
  updateWindowDims := [1]
  insertedWindowDims := [0]
  scatterDimsToOperandDims := [0]
  indexVectorDim := 1
  wf := scatter_S50000x128_S15000x1_S15000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S15000x1_S15000x128_1_0_n_n_0_1_1128 : GatherDims S50000x128 S15000x1 S15000x128 where
  offsetDims := [1]
  collapsedSliceDims := [0]
  operandBatchingDims := []
  startIndicesBatchingDims := []
  startIndexMap := [0]
  indexVectorDim := 1
  sliceSizes := ![1, 128]
  wf := gather_S50000x128_S15000x1_S15000x128_1_0_n_n_0_1_1128_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S2000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S512x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S512x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S1x128 : Shape := ⟨2, ![1, 128]⟩
abbrev S400000 : Shape := ⟨1, ![400000]⟩
abbrev S15000 : Shape := ⟨1, ![15000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩
abbrev S15000x1 : Shape := ⟨2, ![15000, 1]⟩
abbrev S15000x128 : Shape := ⟨2, ![15000, 128]⟩
abbrev S400000x1 : Shape := ⟨2, ![400000, 1]⟩
abbrev S400000x128 : Shape := ⟨2, ![400000, 128]⟩
abbrev S50000 : Shape := ⟨1, ![50000]⟩
abbrev S50000x1 : Shape := ⟨2, ![50000, 1]⟩
abbrev S50000x512 : Shape := ⟨2, ![50000, 512]⟩
abbrev S1x512 : Shape := ⟨2, ![1, 512]⟩
abbrev S400000x512 : Shape := ⟨2, ![400000, 512]⟩

abbrev nBuf : Space → Nat
  | .hbm => 182
  | .vmem => 0
  | .smem => 0
  | _ => 0

abbrev hbmTy0_0 (i : Nat) : BufTy := match i % 128 with
  | 0 => ⟨S50000x128, .f32⟩
  | 1 => ⟨S1x128, .f32⟩
  | 2 => ⟨S400000, .i32⟩
  | 3 => ⟨S400000, .i32⟩
  | 4 => ⟨S15000, .i32⟩
  | 5 => ⟨S128x512, .f32⟩
  | 6 => ⟨S128x512, .f32⟩
  | 7 => ⟨S512, .f32⟩
  | 8 => ⟨S512x512, .f32⟩
  | 9 => ⟨S512x512, .f32⟩
  | 10 => ⟨S512, .f32⟩
  | 11 => ⟨S512x512, .f32⟩
  | 12 => ⟨S512x512, .f32⟩
  | 13 => ⟨S512, .f32⟩
  | 14 => ⟨S512x128, .f32⟩
  | 15 => ⟨S512x128, .f32⟩
  | 16 => ⟨S128, .f32⟩
  | 17 => ⟨S128, .f32⟩
  | 18 => ⟨S_, .i32⟩
  | 19 => ⟨S15000, .i32⟩
  | 20 => ⟨S15000, .i1⟩
  | 21 => ⟨S_, .i32⟩
  | 22 => ⟨S15000, .i32⟩
  | 23 => ⟨S15000, .i32⟩
  | 24 => ⟨S15000, .i32⟩
  | 25 => ⟨S15000x1, .i32⟩
  | 26 => ⟨S15000x128, .f32⟩
  | 27 => ⟨S50000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S_, .f32⟩
  | 38 => ⟨S50000x128, .f32⟩
  | 39 => ⟨S400000x1, .i32⟩
  | 40 => ⟨S50000x128, .f32⟩
  | 41 => ⟨S_, .f32⟩
  | 42 => ⟨S400000, .f32⟩
  | 43 => ⟨S_, .f32⟩
  | 44 => ⟨S50000, .f32⟩
  | 45 => ⟨S400000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S50000x512, .f32⟩
  | 54 => ⟨S50000x512, .f32⟩
  | 55 => ⟨S50000x512, .f32⟩
  | 56 => ⟨S1x512, .f32⟩
  | 57 => ⟨S50000x512, .f32⟩
  | 58 => ⟨S50000x512, .f32⟩
  | 59 => ⟨S_, .f32⟩
  | 60 => ⟨S50000x512, .f32⟩
  | 61 => ⟨S50000x512, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x512, .f32⟩
  | 71 => ⟨S_, .f32⟩
  | 72 => ⟨S50000x512, .f32⟩
  | 73 => ⟨S400000x1, .i32⟩
  | 74 => ⟨S50000x512, .f32⟩
  | 75 => ⟨S_, .f32⟩
  | 76 => ⟨S400000, .f32⟩
  | 77 => ⟨S_, .f32⟩
  | 78 => ⟨S50000, .f32⟩
  | 79 => ⟨S400000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x512, .f32⟩
  | 86 => ⟨S50000x512, .f32⟩
  | 87 => ⟨S50000x512, .f32⟩
  | 88 => ⟨S50000x512, .f32⟩
  | 89 => ⟨S50000x512, .f32⟩
  | 90 => ⟨S1x512, .f32⟩
  | 91 => ⟨S50000x512, .f32⟩
  | 92 => ⟨S50000x512, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x512, .f32⟩
  | 102 => ⟨S_, .f32⟩
  | 103 => ⟨S50000x512, .f32⟩
  | 104 => ⟨S400000x1, .i32⟩
  | 105 => ⟨S50000x512, .f32⟩
  | 106 => ⟨S_, .f32⟩
  | 107 => ⟨S400000, .f32⟩
  | 108 => ⟨S_, .f32⟩
  | 109 => ⟨S50000, .f32⟩
  | 110 => ⟨S400000x1, .i32⟩
  | 111 => ⟨S50000, .f32⟩
  | 112 => ⟨S_, .f32⟩
  | 113 => ⟨S50000, .f32⟩
  | 114 => ⟨S50000, .f32⟩
  | 115 => ⟨S50000x1, .f32⟩
  | 116 => ⟨S50000x512, .f32⟩
  | 117 => ⟨S50000x512, .f32⟩
  | 118 => ⟨S50000x512, .f32⟩
  | 119 => ⟨S50000x512, .f32⟩
  | 120 => ⟨S50000x512, .f32⟩
  | 121 => ⟨S1x512, .f32⟩
  | 122 => ⟨S50000x512, .f32⟩
  | 123 => ⟨S50000x512, .f32⟩
  | 124 => ⟨S_, .f32⟩
  | 125 => ⟨S50000x512, .f32⟩
  | 126 => ⟨S50000x512, .f32⟩
  | 127 => ⟨S_, .i32⟩
  | _ => ⟨S50000x128, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x512, .f32⟩
  | 8 => ⟨S_, .f32⟩
  | 9 => ⟨S50000x512, .f32⟩
  | 10 => ⟨S400000x1, .i32⟩
  | 11 => ⟨S50000x512, .f32⟩
  | 12 => ⟨S_, .f32⟩
  | 13 => ⟨S400000, .f32⟩
  | 14 => ⟨S_, .f32⟩
  | 15 => ⟨S50000, .f32⟩
  | 16 => ⟨S400000x1, .i32⟩
  | 17 => ⟨S50000, .f32⟩
  | 18 => ⟨S_, .f32⟩
  | 19 => ⟨S50000, .f32⟩
  | 20 => ⟨S50000, .f32⟩
  | 21 => ⟨S50000x1, .f32⟩
  | 22 => ⟨S50000x512, .f32⟩
  | 23 => ⟨S50000x512, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .i32⟩
  | 31 => ⟨S15000, .i32⟩
  | 32 => ⟨S15000, .i1⟩
  | 33 => ⟨S_, .i32⟩
  | 34 => ⟨S15000, .i32⟩
  | 35 => ⟨S15000, .i32⟩
  | 36 => ⟨S15000, .i32⟩
  | 37 => ⟨S15000x1, .i32⟩
  | 38 => ⟨S15000x128, .f32⟩
  | 39 => ⟨S_, .i32⟩
  | 40 => ⟨S15000, .i32⟩
  | 41 => ⟨S15000, .i1⟩
  | 42 => ⟨S_, .i32⟩
  | 43 => ⟨S15000, .i32⟩
  | 44 => ⟨S15000, .i32⟩
  | 45 => ⟨S15000, .i32⟩
  | 46 => ⟨S15000x1, .i32⟩
  | 47 => ⟨S15000x128, .f32⟩
  | 48 => ⟨S15000x128, .f32⟩
  | 49 => ⟨S15000x128, .f32⟩
  | 50 => ⟨S_, .f32⟩
  | 51 => ⟨S_, .f32⟩
  | 52 => ⟨S_, .f32⟩
  | 53 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call0_cst : Ref sig .tc := ⟨.hbm, 59, rfl⟩
abbrev main_call0_v0 : Ref sig .tc := ⟨.hbm, 60, rfl⟩
abbrev main_v34 : Ref sig .tc := ⟨.hbm, 61, rfl⟩
abbrev main_c_6 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_12 : Ref sig .tc := ⟨.hbm, 93, rfl⟩
abbrev main_v60 : Ref sig .tc := ⟨.hbm, 94, rfl⟩
abbrev main_v61 : Ref sig .tc := ⟨.hbm, 95, rfl⟩
abbrev main_c_13 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_cst_16 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_17 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call1_cst : Ref sig .tc := ⟨.hbm, 124, rfl⟩
abbrev main_call1_v0 : Ref sig .tc := ⟨.hbm, 125, rfl⟩
abbrev main_v85 : Ref sig .tc := ⟨.hbm, 126, rfl⟩
abbrev main_c_18 : Ref sig .tc := ⟨.hbm, 127, rfl⟩
abbrev main_v86 : Ref sig .tc := ⟨.hbm, 128, rfl⟩
abbrev main_v87 : Ref sig .tc := ⟨.hbm, 129, rfl⟩
abbrev main_c_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_21 : Ref sig .tc := ⟨.hbm, 140, rfl⟩
abbrev main_v96 : Ref sig .tc := ⟨.hbm, 141, rfl⟩
abbrev main_cst_22 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_23 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_c_24 : Ref sig .tc := ⟨.hbm, 158, rfl⟩
abbrev main_v111 : Ref sig .tc := ⟨.hbm, 159, rfl⟩
abbrev main_v112 : Ref sig .tc := ⟨.hbm, 160, rfl⟩
abbrev main_c_25 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_26 : Ref sig .tc := ⟨.hbm, 167, rfl⟩
abbrev main_v118 : Ref sig .tc := ⟨.hbm, 168, rfl⟩
abbrev main_v119 : Ref sig .tc := ⟨.hbm, 169, rfl⟩
abbrev main_c_27 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_28 : Ref sig .tc := ⟨.hbm, 178, rfl⟩
abbrev main_v127 : Ref sig .tc := ⟨.hbm, 179, rfl⟩
abbrev main_cst_29 : Ref sig .tc := ⟨.hbm, 180, rfl⟩
abbrev main_v128 : Ref sig .tc := ⟨.hbm, 181, rfl⟩

abbrev nD : Nat := 1
abbrev τ : Topo := Topo.v7x

variable {F : FTy → Type} [FloatOps F]

class Facts₀ : Prop where
  shapeCasts_S1x128_S128 : S1x128.ShapeCasts S128
  bcast_S_S15000 : S_.BroadcastsInDim S15000 (![] : Fin 0 → Fin S15000.rank)
  bcast_S15000_S15000x1_0 : S15000.BroadcastsInDim S15000x1 (![0] : Fin 1 → Fin S15000x1.rank)
  bcast_S128_S15000x128_1 : S128.BroadcastsInDim S15000x128 (![1] : Fin 1 → Fin S15000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S15000x128_S_d0_1 : S15000x128.ReducesTo [0, 1] S_
  h_S_ : 0 < S_.numel
  scatter_S50000x128_S15000x1_S15000x128_1_0_0_1_wf : ScatterDims.WF S50000x128 S15000x1 S15000x128 [1] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  dot_S50000x128_S128x512_S50000x512_1_0_0_1_n_n_wf : DotDims.WF S50000x128 S128x512 S50000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x512_S50000x512_1_0_0_1_n_n_wf : DotDims.WF S50000x512 S512x512 S50000x512 [1] [0] [0] [1] [] []
  dot_S50000x512_S512x128_S50000x128_1_0_0_1_n_n_wf : DotDims.WF S50000x512 S512x128 S50000x128 [1] [0] [0] [1] [] []
  gather_S50000x128_S15000x1_S15000x128_1_0_n_n_0_1_1128_wf : GatherDims.WF S50000x128 S15000x1 S15000x128 [1] [0] [] [0] [] 1 ![1, 128]

variable [Facts₀]

def scatter_S50000x128_S15000x1_S15000x128_1_0_0_1 : ScatterDims S50000x128 S15000x1 S15000x128 where
  updateWindowDims := [1]
  insertedWindowDims := [0]
  scatterDimsToOperandDims := [0]
  indexVectorDim := 1
  wf := scatter_S50000x128_S15000x1_S15000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S15000x1_S15000x128_1_0_n_n_0_1_1128 : GatherDims S50000x128 S15000x1 S15000x128 where
  offsetDims := [1]
  collapsedSliceDims := [0]
  operandBatchingDims := []
  startIndicesBatchingDims := []
  startIndexMap := [0]
  indexVectorDim := 1
  sliceSizes := ![1, 128]
  wf := gather_S50000x128_S15000x1_S15000x128_1_0_n_n_0_1_1128_wf

class Facts : Prop extends Facts₀ where

variable [Facts]
-- ==== Proof.Agg.lean ====
import proofs.«406791_j57157424775339_1_alg».proof.Proof.Gen.KernelIdeal
import proofs.«406791_j57157424775339_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.IdealHost

noncomputable section

namespace Cert.KernelIdeal.Agg

open Cert.KernelIdeal Cert.KernelIdeal.Facts₀ Cert.KernelIdeal.Facts
open Idealize.ShloMosaic Idealize.ShloMosaic.ValueIdx

/-- The gather's start indices as the program computes them from the edge sources: a negative index wrapped by the
    number of nodes, then laid out as a column. -/
abbrev wrapIdx (x2 : IVec S400000 32) : IVec S400000x1 32 :=
  broadcastInDim S400000x1 ![0] bcast_S400000_S400000x1_0
    (select (cmpi .slt x2 (broadcastInDim S400000 ![] bcast_S_S400000 (constantI S_ 32 0#32)))
      (addi x2 (broadcastInDim S400000 ![] bcast_S_S400000 (constantI S_ 32 50000#32))) x2)

/-- The fill-mode take's test "the wrapped index lies in [0, 49999]", one bit per edge. -/
abbrev inRange (x2 : IVec S400000 32) : IVec S400000 1 :=
  Host.reduce IntOp.andi
    (andi (cmpi .sge (wrapIdx x2) (broadcastInDim S400000x1 ![] bcast_S_S400000x1 (constantI S_ 32 0#32)))
      (cmpi .sle (wrapIdx x2) (broadcastInDim S400000x1 ![0, 1] bcast_S1x1_S400000x1_0_1
        (broadcastInDim S1x1 ![1] bcast_S1_S1x1_1 (constantI S1 32 49999#32)))))
    (constantI S_ 1 1#1) reducesTo_S400000x1_S400000_d1 h_S_

/-- A left fold by `and` started at 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- A 32-bit word whose signed value lies in [0, 50000) is not below zero, is at least zero, and is at most 49999. -/
theorem word_facts (v : BitVec 32) (h0 : 0 ≤ v.toInt) (h1 : v.toInt < 50000) :
    IntOp.cmpi .slt v 0#32 = 0#1 ∧ IntOp.cmpi .sge v 0#32 = 1#1 ∧ IntOp.cmpi .sle v 49999#32 = 1#1 := by
  have e0 : (0#32 : BitVec 32).toInt = 0 := by decide
  have e1 : (49999#32 : BitVec 32).toInt = 49999 := by decide
  refine ⟨?_, ?_, ?_⟩
  · simp only [IntOp.cmpi, BitVec.slt, e0]
    rw [decide_eq_false (by omega)]; rfl
  · simp only [IntOp.cmpi, BitVec.sle, e0]
    rw [decide_eq_true (by omega)]; rfl
  · simp only [IntOp.cmpi, BitVec.sle, e1]
    rw [decide_eq_true (by omega)]; rfl

/-- With every source in range the test passes on every edge. -/
theorem inRange_eq_one (x2 : IVec S400000 32) (hx : ∀ e : S400000.Idx, 0 ≤ (x2 e).toInt ∧ (x2 e).toInt < 50000) :
    inRange x2 = fun _ => 1#1 := by
  funext e
  show Host.reduce IntOp.andi _ _ _ _ e = 1#1
  rw [Host.reduce_eq_foldl]
  show List.foldl _ 1#1 _ = 1#1
  apply foldl_andi_one
  intro i _
  have hk : ∃ k, wrapIdx x2 i
      = Scalar.select (IntOp.cmpi .slt (x2 k) 0#32) (IntOp.addi (x2 k) 50000#32) (x2 k) := ⟨_, rfl⟩
  obtain ⟨k, hk⟩ := hk
  obtain ⟨h0, h1⟩ := hx k
  obtain ⟨f1, f2, f3⟩ := word_facts (x2 k) h0 h1
  rw [f1, select_zero] at hk
  show IntOp.andi (IntOp.cmpi .sge (wrapIdx x2 i) 0#32) (IntOp.cmpi .sle (wrapIdx x2 i) 49999#32) = 1#1
  rw [hk, f2, f3]; rfl

/-- So the fill-mode take of width 128 is the plain gather. -/
theorem take128 {α : Type} (x2 : IVec S400000 32) (hx : ∀ e : S400000.Idx, 0 ≤ (x2 e).toInt ∧ (x2 e).toInt < 50000)
    (g nanv : S400000x128.Idx → α) :
    select (broadcastInDim S400000x128 ![0] bcast_S400000_S400000x128_0 (inRange x2)) g nanv = g := by
  rw [inRange_eq_one x2 hx]
  funext i
  exact select_one _ _

/-- And of width 512. -/
theorem take512 {α : Type} (x2 : IVec S400000 32) (hx : ∀ e : S400000.Idx, 0 ≤ (x2 e).toInt ∧ (x2 e).toInt < 50000)
    (g nanv : S400000x512.Idx → α) :
    select (broadcastInDim S400000x512 ![0] bcast_S400000_S400000x512_0 (inRange x2)) g nanv = g := by
  rw [inRange_eq_one x2 hx]
  funext i
  exact select_one _ _

/-- On the extended reals, for a divisor at least one: multiplying by the quotient of one by it is dividing by it. -/
theorem mul_div_one (a d : EReal) (hd : 1 ≤ d) : a * Ideal.div 1 d = Ideal.div a d := by
  have hne : d ≠ 0 := ne_of_gt (lt_of_lt_of_le zero_lt_one hd)
  unfold Ideal.div
  rw [if_neg hne, if_neg hne, one_mul]

/-- Multiplying a row by the reciprocal of max(degree, 1) is dividing it by max(degree, 1), on the extended reals: the
    divisor is at least one, so it is not zero and its reciprocal is its inverse. Width 128. -/
theorem mean128 (A : FVec Ideal S50000x128 .f32) (deg : FVec Ideal S50000 .f32) :
    mulf (F := Ideal) A (broadcastInDim S50000x128 ![0, 1] bcast_S50000x1_S50000x128_0_1 (broadcastInDim S50000x1 ![0] bcast_S50000_S50000x1_0
      (Host.divf (F := Ideal) (broadcastInDim S50000 ![] bcast_S_S50000 (constant (F := Ideal) S_ .f32 0x3F800000#32))
        (maximumf (F := Ideal) deg (broadcastInDim S50000 ![] bcast_S_S50000 (constant (F := Ideal) S_ .f32 0x3F800000#32))))))
    = Host.divf (F := Ideal) A (broadcastInDim S50000x128 ![0, 1] bcast_S50000x1_S50000x128_0_1 (broadcastInDim S50000x1 ![0] bcast_S50000_S50000x1_0
        (maximumf (F := Ideal) deg (broadcastInDim S50000 ![] bcast_S_S50000 (constant (F := Ideal) S_ .f32 0x3F800000#32))))) := by
  funext i
  show A i * Ideal.div (Ideal.ofBits .f32 0x3F800000#32) (max (deg _) (Ideal.ofBits .f32 0x3F800000#32))
    = Ideal.div (A i) (max (deg _) (Ideal.ofBits .f32 0x3F800000#32))
  rw [Ideal.ofBits_one_f32]
  exact mul_div_one _ _ (le_max_right _ _)

/-- Width 512. -/
theorem mean512 (A : FVec Ideal S50000x512 .f32) (deg : FVec Ideal S50000 .f32) :
    mulf (F := Ideal) A (broadcastInDim S50000x512 ![0, 1] bcast_S50000x1_S50000x512_0_1 (broadcastInDim S50000x1 ![0] bcast_S50000_S50000x1_0
      (Host.divf (F := Ideal) (broadcastInDim S50000 ![] bcast_S_S50000 (constant (F := Ideal) S_ .f32 0x3F800000#32))
        (maximumf (F := Ideal) deg (broadcastInDim S50000 ![] bcast_S_S50000 (constant (F := Ideal) S_ .f32 0x3F800000#32))))))
    = Host.divf (F := Ideal) A (broadcastInDim S50000x512 ![0, 1] bcast_S50000x1_S50000x512_0_1 (broadcastInDim S50000x1 ![0] bcast_S50000_S50000x1_0
        (maximumf (F := Ideal) deg (broadcastInDim S50000 ![] bcast_S_S50000 (constant (F := Ideal) S_ .f32 0x3F800000#32))))) := by
  funext i
  show A i * Ideal.div (Ideal.ofBits .f32 0x3F800000#32) (max (deg _) (Ideal.ofBits .f32 0x3F800000#32))
    = Ideal.div (A i) (max (deg _) (Ideal.ofBits .f32 0x3F800000#32))
  rw [Ideal.ofBits_one_f32]
  exact mul_div_one _ _ (le_max_right _ _)

/-- A 32-bit word that compares at least zero and below 50000, signed, has its signed value in [0, 50000). -/
theorem range_of_bits (v : BitVec 32) (hge : IntOp.cmpi .sge v 0#32 = 1#1) (hlt : IntOp.cmpi .slt v 50000#32 = 1#1) :
    0 ≤ v.toInt ∧ v.toInt < 50000 := by
  have e0 : (0#32 : BitVec 32).toInt = 0 := by decide
  have e1 : (50000#32 : BitVec 32).toInt = 50000 := by decide
  simp only [IntOp.cmpi, BitVec.sle, e0, StableHlo.Predicate.ofBool_eq_one_iff, decide_eq_true_eq] at hge
  simp only [IntOp.cmpi, BitVec.slt, e1, StableHlo.Predicate.ofBool_eq_one_iff, decide_eq_true_eq] at hlt
  exact ⟨hge, hlt⟩

/-- The precondition's last conjunct, decoded: every edge source is a node index. -/
theorem src_range (a0 : FVec Ideal Cert.Pre_finite_inputs.S50000x128 .f32) (a1 : FVec Ideal Cert.Pre_finite_inputs.S1x128 .f32) (a2 : IVec Cert.Pre_finite_inputs.S400000 32) (a3 : IVec Cert.Pre_finite_inputs.S400000 32) (a4 : IVec Cert.Pre_finite_inputs.S15000 32) (a5 : FVec Ideal Cert.Pre_finite_inputs.S128x512 .f32) (a6 : FVec Ideal Cert.Pre_finite_inputs.S128x512 .f32) (a7 : FVec Ideal Cert.Pre_finite_inputs.S512 .f32) (a8 : FVec Ideal Cert.Pre_finite_inputs.S512x512 .f32) (a9 : FVec Ideal Cert.Pre_finite_inputs.S512x512 .f32) (a10 : FVec Ideal Cert.Pre_finite_inputs.S512 .f32) (a11 : FVec Ideal Cert.Pre_finite_inputs.S512x512 .f32) (a12 : FVec Ideal Cert.Pre_finite_inputs.S512x512 .f32) (a13 : FVec Ideal Cert.Pre_finite_inputs.S512 .f32) (a14 : FVec Ideal Cert.Pre_finite_inputs.S512x128 .f32) (a15 : FVec Ideal Cert.Pre_finite_inputs.S512x128 .f32) (a16 : FVec Ideal Cert.Pre_finite_inputs.S128 .f32)
    (h : Cert.Pre_finite_inputs.fn (F := Ideal) a0 a1 a2 a3 a4 a5 a6 a7 a8 a9 a10 a11 a12 a13 a14 a15 a16 = fun _ => 1#1) :
    ∀ e : Cert.Pre_finite_inputs.S400000.Idx, 0 ≤ (a2 e).toInt ∧ (a2 e).toInt < 50000 := by
  intro e
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨_, h74⟩ := IntOp.andi_eq_one.1 h0
  haveI : Subsingleton Cert.Pre_finite_inputs.S_.Idx := ⟨fun a b => funext fun d => d.elim0⟩
  have hb := Host.reduce_andi_all _ _ _ _ _ h74 e
  obtain ⟨hge, hlt⟩ := IntOp.andi_eq_one.1 hb
  exact range_of_bits (a2 e) hge hlt

end Cert.KernelIdeal.Agg

end
-- ==== Proof.StepB.lean ====
import proofs.«406791_j57157424775339_1_alg».proof.Proof.Gen.KernelIdeal.Launch
import Idealize.ShloMosaic.Lib.StableHlo.Run
import Idealize.ShloMosaic.PureOps.Ideal
import proofs.«406791_j57157424775339_1_alg».proof.Proof.Gen.ReferenceIdeal.Read

set_option maxRecDepth 16384

noncomputable section

namespace Cert.KernelIdeal.StepB

open Cert.KernelIdeal Cert.KernelIdeal.Facts₀ Cert.KernelIdeal.Facts Cert.KernelIdeal.Gen
open Idealize.ShloMosaic Idealize.ShloMosaic.StableHlo

variable (V : Valuation τ sig (Elt Ideal))

set_option maxHeartbeats 4000000 in
/-- The masked features are the reference's: the same scatter of the mask token's row at the same wrapped indices. -/
theorem h0 : after (hostOps0 (F := Ideal)) V (Proc.devRef .tc main_v8) = Cert.ReferenceIdeal.Read.val_main_v8 (F := Ideal) (V (Proc.devRef .tc main_arg0)) (V (Proc.devRef .tc main_arg1)) (V (Proc.devRef .tc main_arg4)) := by
  dsimp only [hostOps0]
  after_results_simp
  rfl

/-! The first stretch writes no argument. -/

set_option maxHeartbeats 4000000 in
theorem keep_main_arg0 : after (hostOps0 (F := Ideal)) V (Proc.devRef .tc main_arg0) = V (Proc.devRef .tc main_arg0) := by
  dsimp only [hostOps0]
  after_results_simp

set_option maxHeartbeats 4000000 in
theorem keep_main_arg2 : after (hostOps0 (F := Ideal)) V (Proc.devRef .tc main_arg2) = V (Proc.devRef .tc main_arg2) := by
  dsimp only [hostOps0]
  after_results_simp

set_option maxHeartbeats 4000000 in
theorem keep_main_arg3 : after (hostOps0 (F := Ideal)) V (Proc.devRef .tc main_arg3) = V (Proc.devRef .tc main_arg3) := by
  dsimp only [hostOps0]
  after_results_simp

set_option maxHeartbeats 4000000 in
theorem keep_main_arg4 : after (hostOps0 (F := Ideal)) V (Proc.devRef .tc main_arg4) = V (Proc.devRef .tc main_arg4) := by
  dsimp only [hostOps0]
  after_results_simp

set_option maxHeartbeats 4000000 in
theorem keep_main_arg5 : after (hostOps0 (F := Ideal)) V (Proc.devRef .tc main_arg5) = V (Proc.devRef .tc main_arg5) := by
  dsimp only [hostOps0]
  after_results_simp

set_option maxHeartbeats 4000000 in
theorem keep_main_arg6 : after (hostOps0 (F := Ideal)) V (Proc.devRef .tc main_arg6) = V (Proc.devRef .tc main_arg6) := by
  dsimp only [hostOps0]
  after_results_simp

set_option maxHeartbeats 4000000 in
theorem keep_main_arg7 : after (hostOps0 (F := Ideal)) V (Proc.devRef .tc main_arg7) = V (Proc.devRef .tc main_arg7) := by
  dsimp only [hostOps0]
  after_results_simp

set_option maxHeartbeats 4000000 in
theorem keep_main_arg8 : after (hostOps0 (F := Ideal)) V (Proc.devRef .tc main_arg8) = V (Proc.devRef .tc main_arg8) := by
  dsimp only [hostOps0]
  after_results_simp

set_option maxHeartbeats 4000000 in
theorem keep_main_arg9 : after (hostOps0 (F := Ideal)) V (Proc.devRef .tc main_arg9) = V (Proc.devRef .tc main_arg9) := by
  dsimp only [hostOps0]
  after_results_simp

set_option maxHeartbeats 4000000 in
theorem keep_main_arg10 : after (hostOps0 (F := Ideal)) V (Proc.devRef .tc main_arg10) = V (Proc.devRef .tc main_arg10) := by
  dsimp only [hostOps0]
  after_results_simp

set_option maxHeartbeats 4000000 in
theorem keep_main_arg11 : after (hostOps0 (F := Ideal)) V (Proc.devRef .tc main_arg11) = V (Proc.devRef .tc main_arg11) := by
  dsimp only [hostOps0]
  after_results_simp

set_option maxHeartbeats 4000000 in
theorem keep_main_arg12 : after (hostOps0 (F := Ideal)) V (Proc.devRef .tc main_arg12) = V (Proc.devRef .tc main_arg12) := by
  dsimp only [hostOps0]
  after_results_simp

set_option maxHeartbeats 4000000 in
theorem keep_main_arg13 : after (hostOps0 (F := Ideal)) V (Proc.devRef .tc main_arg13) = V (Proc.devRef .tc main_arg13) := by
  dsimp only [hostOps0]
  after_results_simp

set_option maxHeartbeats 4000000 in
theorem keep_main_arg14 : after (hostOps0 (F := Ideal)) V (Proc.devRef .tc main_arg14) = V (Proc.devRef .tc main_arg14) := by
  dsimp only [hostOps0]
  after_results_simp

set_option maxHeartbeats 4000000 in
theorem keep_main_arg15 : after (hostOps0 (F := Ideal)) V (Proc.devRef .tc main_arg15) = V (Proc.devRef .tc main_arg15) := by
  dsimp only [hostOps0]
  after_results_simp

set_option maxHeartbeats 4000000 in
theorem keep_main_arg16 : after (hostOps0 (F := Ideal)) V (Proc.devRef .tc main_arg16) = V (Proc.devRef .tc main_arg16) := by
  dsimp only [hostOps0]
  after_results_simp

end Cert.KernelIdeal.StepB

end
-- ==== Proof.Step0.lean ====
import proofs.«406791_j57157424775339_1_alg».proof.Proof.Gen.KernelIdeal.Launch
import Idealize.ShloMosaic.Lib.StableHlo.Run
import Idealize.ShloMosaic.PureOps.Ideal

set_option maxRecDepth 16384

noncomputable section

namespace Cert.KernelIdeal.Step0

open Cert.KernelIdeal Cert.KernelIdeal.Facts₀ Cert.KernelIdeal.Facts Cert.KernelIdeal.Gen
open Idealize.ShloMosaic Idealize.ShloMosaic.StableHlo

variable (V : Valuation τ sig (Elt Ideal))

set_option maxHeartbeats 4000000 in
/-- The layer's node features reach the kernel unchanged but for the change of format. -/
theorem x : after (hostOps0_2 (F := Ideal)) (after (hostOps0_1 (F := Ideal)) V) (Proc.devRef .tc main_v24) = truncf (F := Ideal) .bf16 (V (Proc.devRef .tc main_v8)) Facts₀.bitsLt_bf16_f32 := by
  dsimp only [hostOps0_2, hostOps0_1]
  after_results_simp

set_option maxHeartbeats 4000000 in
/-- So does the first weight matrix, -/
theorem ws : after (hostOps0_2 (F := Ideal)) (after (hostOps0_1 (F := Ideal)) V) (Proc.devRef .tc main_v26) = truncf (F := Ideal) .bf16 (V (Proc.devRef .tc main_arg5)) Facts₀.bitsLt_bf16_f32 := by
  dsimp only [hostOps0_2, hostOps0_1]
  after_results_simp

set_option maxHeartbeats 4000000 in
/-- and the second. -/
theorem wn : after (hostOps0_2 (F := Ideal)) (after (hostOps0_1 (F := Ideal)) V) (Proc.devRef .tc main_v27) = truncf (F := Ideal) .bf16 (V (Proc.devRef .tc main_arg6)) Facts₀.bitsLt_bf16_f32 := by
  dsimp only [hostOps0_2, hostOps0_1]
  after_results_simp

/-! The two stretches write none of these buffers. -/

set_option maxHeartbeats 4000000 in
theorem keep_main_arg0 : after (hostOps0_2 (F := Ideal)) (after (hostOps0_1 (F := Ideal)) V) (Proc.devRef .tc main_arg0) = V (Proc.devRef .tc main_arg0) := by
  dsimp only [hostOps0_2, hostOps0_1]
  after_results_simp

set_option maxHeartbeats 4000000 in
theorem keep_main_arg2 : after (hostOps0_2 (F := Ideal)) (after (hostOps0_1 (F := Ideal)) V) (Proc.devRef .tc main_arg2) = V (Proc.devRef .tc main_arg2) := by
  dsimp only [hostOps0_2, hostOps0_1]
  after_results_simp

set_option maxHeartbeats 4000000 in
theorem keep_main_arg3 : after (hostOps0_2 (F := Ideal)) (after (hostOps0_1 (F := Ideal)) V) (Proc.devRef .tc main_arg3) = V (Proc.devRef .tc main_arg3) := by
  dsimp only [hostOps0_2, hostOps0_1]
  after_results_simp

set_option maxHeartbeats 4000000 in
theorem keep_main_arg4 : after (hostOps0_2 (F := Ideal)) (after (hostOps0_1 (F := Ideal)) V) (Proc.devRef .tc main_arg4) = V (Proc.devRef .tc main_arg4) := by
  dsimp only [hostOps0_2, hostOps0_1]
  after_results_simp

set_option maxHeartbeats 4000000 in
theorem keep_main_v16 : after (hostOps0_2 (F := Ideal)) (after (hostOps0_1 (F := Ideal)) V) (Proc.devRef .tc main_v16) = V (Proc.devRef .tc main_v16) := by
  dsimp only [hostOps0_2, hostOps0_1]
  after_results_simp

set_option maxHeartbeats 4000000 in
theorem keep_main_arg7 : after (hostOps0_2 (F := Ideal)) (after (hostOps0_1 (F := Ideal)) V) (Proc.devRef .tc main_arg7) = V (Proc.devRef .tc main_arg7) := by
  dsimp only [hostOps0_2, hostOps0_1]
  after_results_simp

set_option maxHeartbeats 4000000 in
theorem keep_main_arg8 : after (hostOps0_2 (F := Ideal)) (after (hostOps0_1 (F := Ideal)) V) (Proc.devRef .tc main_arg8) = V (Proc.devRef .tc main_arg8) := by
  dsimp only [hostOps0_2, hostOps0_1]
  after_results_simp

set_option maxHeartbeats 4000000 in
theorem keep_main_arg9 : after (hostOps0_2 (F := Ideal)) (after (hostOps0_1 (F := Ideal)) V) (Proc.devRef .tc main_arg9) = V (Proc.devRef .tc main_arg9) := by
  dsimp only [hostOps0_2, hostOps0_1]
  after_results_simp

set_option maxHeartbeats 4000000 in
theorem keep_main_arg10 : after (hostOps0_2 (F := Ideal)) (after (hostOps0_1 (F := Ideal)) V) (Proc.devRef .tc main_arg10) = V (Proc.devRef .tc main_arg10) := by
  dsimp only [hostOps0_2, hostOps0_1]
  after_results_simp

set_option maxHeartbeats 4000000 in
theorem keep_main_arg11 : after (hostOps0_2 (F := Ideal)) (after (hostOps0_1 (F := Ideal)) V) (Proc.devRef .tc main_arg11) = V (Proc.devRef .tc main_arg11) := by
  dsimp only [hostOps0_2, hostOps0_1]
  after_results_simp

set_option maxHeartbeats 4000000 in
theorem keep_main_arg12 : after (hostOps0_2 (F := Ideal)) (after (hostOps0_1 (F := Ideal)) V) (Proc.devRef .tc main_arg12) = V (Proc.devRef .tc main_arg12) := by
  dsimp only [hostOps0_2, hostOps0_1]
  after_results_simp

set_option maxHeartbeats 4000000 in
theorem keep_main_arg13 : after (hostOps0_2 (F := Ideal)) (after (hostOps0_1 (F := Ideal)) V) (Proc.devRef .tc main_arg13) = V (Proc.devRef .tc main_arg13) := by
  dsimp only [hostOps0_2, hostOps0_1]
  after_results_simp

set_option maxHeartbeats 4000000 in
theorem keep_main_arg14 : after (hostOps0_2 (F := Ideal)) (after (hostOps0_1 (F := Ideal)) V) (Proc.devRef .tc main_arg14) = V (Proc.devRef .tc main_arg14) := by
  dsimp only [hostOps0_2, hostOps0_1]
  after_results_simp

set_option maxHeartbeats 4000000 in
theorem keep_main_arg15 : after (hostOps0_2 (F := Ideal)) (after (hostOps0_1 (F := Ideal)) V) (Proc.devRef .tc main_arg15) = V (Proc.devRef .tc main_arg15) := by
  dsimp only [hostOps0_2, hostOps0_1]
  after_results_simp

set_option maxHeartbeats 4000000 in
theorem keep_main_arg16 : after (hostOps0_2 (F := Ideal)) (after (hostOps0_1 (F := Ideal)) V) (Proc.devRef .tc main_arg16) = V (Proc.devRef .tc main_arg16) := by
  dsimp only [hostOps0_2, hostOps0_1]
  after_results_simp

end Cert.KernelIdeal.Step0

end
-- ==== Proof.Step1.lean ====
import proofs.«406791_j57157424775339_1_alg».proof.Proof.Gen.KernelIdeal.Launch
import Idealize.ShloMosaic.Lib.StableHlo.Run
import Idealize.ShloMosaic.PureOps.Ideal

set_option maxRecDepth 16384

noncomputable section

namespace Cert.KernelIdeal.Step1

open Cert.KernelIdeal Cert.KernelIdeal.Facts₀ Cert.KernelIdeal.Facts Cert.KernelIdeal.Gen
open Idealize.ShloMosaic Idealize.ShloMosaic.StableHlo

variable (V : Valuation τ sig (Elt Ideal))

set_option maxHeartbeats 4000000 in
/-- The layer's node features reach the kernel unchanged but for the change of format. -/
theorem x : after (hostOps1_1 (F := Ideal)) (after (hostOps1 (F := Ideal)) V) (Proc.devRef .tc main_v36) = truncf (F := Ideal) .bf16 (V (Proc.devRef .tc main_v28)) Facts₀.bitsLt_bf16_f32 := by
  dsimp only [hostOps1_1, hostOps1]
  after_results_simp

set_option maxHeartbeats 4000000 in
/-- So does the first weight matrix, -/
theorem ws : after (hostOps1_1 (F := Ideal)) (after (hostOps1 (F := Ideal)) V) (Proc.devRef .tc main_v38) = truncf (F := Ideal) .bf16 (V (Proc.devRef .tc main_arg8)) Facts₀.bitsLt_bf16_f32 := by
  dsimp only [hostOps1_1, hostOps1]
  after_results_simp

set_option maxHeartbeats 4000000 in
/-- and the second. -/
theorem wn : after (hostOps1_1 (F := Ideal)) (after (hostOps1 (F := Ideal)) V) (Proc.devRef .tc main_v39) = truncf (F := Ideal) .bf16 (V (Proc.devRef .tc main_arg9)) Facts₀.bitsLt_bf16_f32 := by
  dsimp only [hostOps1_1, hostOps1]
  after_results_simp

/-! The two stretches write none of these buffers. -/

set_option maxHeartbeats 4000000 in
theorem keep_main_arg0 : after (hostOps1_1 (F := Ideal)) (after (hostOps1 (F := Ideal)) V) (Proc.devRef .tc main_arg0) = V (Proc.devRef .tc main_arg0) := by
  dsimp only [hostOps1_1, hostOps1]
  after_results_simp

set_option maxHeartbeats 4000000 in
theorem keep_main_arg2 : after (hostOps1_1 (F := Ideal)) (after (hostOps1 (F := Ideal)) V) (Proc.devRef .tc main_arg2) = V (Proc.devRef .tc main_arg2) := by
  dsimp only [hostOps1_1, hostOps1]
  after_results_simp

set_option maxHeartbeats 4000000 in
theorem keep_main_arg3 : after (hostOps1_1 (F := Ideal)) (after (hostOps1 (F := Ideal)) V) (Proc.devRef .tc main_arg3) = V (Proc.devRef .tc main_arg3) := by
  dsimp only [hostOps1_1, hostOps1]
  after_results_simp

set_option maxHeartbeats 4000000 in
theorem keep_main_arg4 : after (hostOps1_1 (F := Ideal)) (after (hostOps1 (F := Ideal)) V) (Proc.devRef .tc main_arg4) = V (Proc.devRef .tc main_arg4) := by
  dsimp only [hostOps1_1, hostOps1]
  after_results_simp

set_option maxHeartbeats 4000000 in
theorem keep_main_v16 : after (hostOps1_1 (F := Ideal)) (after (hostOps1 (F := Ideal)) V) (Proc.devRef .tc main_v16) = V (Proc.devRef .tc main_v16) := by
  dsimp only [hostOps1_1, hostOps1]
  after_results_simp

set_option maxHeartbeats 4000000 in
theorem keep_main_arg10 : after (hostOps1_1 (F := Ideal)) (after (hostOps1 (F := Ideal)) V) (Proc.devRef .tc main_arg10) = V (Proc.devRef .tc main_arg10) := by
  dsimp only [hostOps1_1, hostOps1]
  after_results_simp

set_option maxHeartbeats 4000000 in
theorem keep_main_arg11 : after (hostOps1_1 (F := Ideal)) (after (hostOps1 (F := Ideal)) V) (Proc.devRef .tc main_arg11) = V (Proc.devRef .tc main_arg11) := by
  dsimp only [hostOps1_1, hostOps1]
  after_results_simp

set_option maxHeartbeats 4000000 in
theorem keep_main_arg12 : after (hostOps1_1 (F := Ideal)) (after (hostOps1 (F := Ideal)) V) (Proc.devRef .tc main_arg12) = V (Proc.devRef .tc main_arg12) := by
  dsimp only [hostOps1_1, hostOps1]
  after_results_simp

set_option maxHeartbeats 4000000 in
theorem keep_main_arg13 : after (hostOps1_1 (F := Ideal)) (after (hostOps1 (F := Ideal)) V) (Proc.devRef .tc main_arg13) = V (Proc.devRef .tc main_arg13) := by
  dsimp only [hostOps1_1, hostOps1]
  after_results_simp

set_option maxHeartbeats 4000000 in
theorem keep_main_arg14 : after (hostOps1_1 (F := Ideal)) (after (hostOps1 (F := Ideal)) V) (Proc.devRef .tc main_arg14) = V (Proc.devRef .tc main_arg14) := by
  dsimp only [hostOps1_1, hostOps1]
  after_results_simp

set_option maxHeartbeats 4000000 in
theorem keep_main_arg15 : after (hostOps1_1 (F := Ideal)) (after (hostOps1 (F := Ideal)) V) (Proc.devRef .tc main_arg15) = V (Proc.devRef .tc main_arg15) := by
  dsimp only [hostOps1_1, hostOps1]
  after_results_simp

set_option maxHeartbeats 4000000 in
theorem keep_main_arg16 : after (hostOps1_1 (F := Ideal)) (after (hostOps1 (F := Ideal)) V) (Proc.devRef .tc main_arg16) = V (Proc.devRef .tc main_arg16) := by
  dsimp only [hostOps1_1, hostOps1]
  after_results_simp

end Cert.KernelIdeal.Step1

end
-- ==== Proof.Step2.lean ====
import proofs.«406791_j57157424775339_1_alg».proof.Proof.Gen.KernelIdeal.Launch
import Idealize.ShloMosaic.Lib.StableHlo.Run
import Idealize.ShloMosaic.PureOps.Ideal

set_option maxRecDepth 16384

noncomputable section

namespace Cert.KernelIdeal.Step2

open Cert.KernelIdeal Cert.KernelIdeal.Facts₀ Cert.KernelIdeal.Facts Cert.KernelIdeal.Gen
open Idealize.ShloMosaic Idealize.ShloMosaic.StableHlo

variable (V : Valuation τ sig (Elt Ideal))

set_option maxHeartbeats 4000000 in
/-- The layer's node features reach the kernel unchanged but for the change of format. -/
theorem x : after (hostOps2_1 (F := Ideal)) (after (hostOps2 (F := Ideal)) V) (Proc.devRef .tc main_v48) = truncf (F := Ideal) .bf16 (V (Proc.devRef .tc main_v40)) Facts₀.bitsLt_bf16_f32 := by
  dsimp only [hostOps2_1, hostOps2]
  after_results_simp

set_option maxHeartbeats 4000000 in
/-- So does the first weight matrix, -/
theorem ws : after (hostOps2_1 (F := Ideal)) (after (hostOps2 (F := Ideal)) V) (Proc.devRef .tc main_v50) = truncf (F := Ideal) .bf16 (V (Proc.devRef .tc main_arg11)) Facts₀.bitsLt_bf16_f32 := by
  dsimp only [hostOps2_1, hostOps2]
  after_results_simp

set_option maxHeartbeats 4000000 in
/-- and the second. -/
theorem wn : after (hostOps2_1 (F := Ideal)) (after (hostOps2 (F := Ideal)) V) (Proc.devRef .tc main_v51) = truncf (F := Ideal) .bf16 (V (Proc.devRef .tc main_arg12)) Facts₀.bitsLt_bf16_f32 := by
  dsimp only [hostOps2_1, hostOps2]
  after_results_simp

/-! The two stretches write none of these buffers. -/

set_option maxHeartbeats 4000000 in
theorem keep_main_arg0 : after (hostOps2_1 (F := Ideal)) (after (hostOps2 (F := Ideal)) V) (Proc.devRef .tc main_arg0) = V (Proc.devRef .tc main_arg0) := by
  dsimp only [hostOps2_1, hostOps2]
  after_results_simp

set_option maxHeartbeats 4000000 in
theorem keep_main_arg2 : after (hostOps2_1 (F := Ideal)) (after (hostOps2 (F := Ideal)) V) (Proc.devRef .tc main_arg2) = V (Proc.devRef .tc main_arg2) := by
  dsimp only [hostOps2_1, hostOps2]
  after_results_simp

set_option maxHeartbeats 4000000 in
theorem keep_main_arg3 : after (hostOps2_1 (F := Ideal)) (after (hostOps2 (F := Ideal)) V) (Proc.devRef .tc main_arg3) = V (Proc.devRef .tc main_arg3) := by
  dsimp only [hostOps2_1, hostOps2]
  after_results_simp

set_option maxHeartbeats 4000000 in
theorem keep_main_arg4 : after (hostOps2_1 (F := Ideal)) (after (hostOps2 (F := Ideal)) V) (Proc.devRef .tc main_arg4) = V (Proc.devRef .tc main_arg4) := by
  dsimp only [hostOps2_1, hostOps2]
  after_results_simp

set_option maxHeartbeats 4000000 in
theorem keep_main_v16 : after (hostOps2_1 (F := Ideal)) (after (hostOps2 (F := Ideal)) V) (Proc.devRef .tc main_v16) = V (Proc.devRef .tc main_v16) := by
  dsimp only [hostOps2_1, hostOps2]
  after_results_simp

set_option maxHeartbeats 4000000 in
theorem keep_main_arg13 : after (hostOps2_1 (F := Ideal)) (after (hostOps2 (F := Ideal)) V) (Proc.devRef .tc main_arg13) = V (Proc.devRef .tc main_arg13) := by
  dsimp only [hostOps2_1, hostOps2]
  after_results_simp

set_option maxHeartbeats 4000000 in
theorem keep_main_arg14 : after (hostOps2_1 (F := Ideal)) (after (hostOps2 (F := Ideal)) V) (Proc.devRef .tc main_arg14) = V (Proc.devRef .tc main_arg14) := by
  dsimp only [hostOps2_1, hostOps2]
  after_results_simp

set_option maxHeartbeats 4000000 in
theorem keep_main_arg15 : after (hostOps2_1 (F := Ideal)) (after (hostOps2 (F := Ideal)) V) (Proc.devRef .tc main_arg15) = V (Proc.devRef .tc main_arg15) := by
  dsimp only [hostOps2_1, hostOps2]
  after_results_simp

set_option maxHeartbeats 4000000 in
theorem keep_main_arg16 : after (hostOps2_1 (F := Ideal)) (after (hostOps2 (F := Ideal)) V) (Proc.devRef .tc main_arg16) = V (Proc.devRef .tc main_arg16) := by
  dsimp only [hostOps2_1, hostOps2]
  after_results_simp

end Cert.KernelIdeal.Step2

end
-- ==== Proof.Step3.lean ====
import proofs.«406791_j57157424775339_1_alg».proof.Proof.Gen.KernelIdeal.Launch
import Idealize.ShloMosaic.Lib.StableHlo.Run
import Idealize.ShloMosaic.PureOps.Ideal

set_option maxRecDepth 16384

noncomputable section

namespace Cert.KernelIdeal.Step3

open Cert.KernelIdeal Cert.KernelIdeal.Facts₀ Cert.KernelIdeal.Facts Cert.KernelIdeal.Gen
open Idealize.ShloMosaic Idealize.ShloMosaic.StableHlo

variable (V : Valuation τ sig (Elt Ideal))

set_option maxHeartbeats 4000000 in
/-- The layer's node features reach the kernel unchanged but for the change of format. -/
theorem x : after (hostOps3_1 (F := Ideal)) (after (hostOps3 (F := Ideal)) V) (Proc.devRef .tc main_v60) = truncf (F := Ideal) .bf16 (V (Proc.devRef .tc main_v52)) Facts₀.bitsLt_bf16_f32 := by
  dsimp only [hostOps3_1, hostOps3]
  after_results_simp

set_option maxHeartbeats 4000000 in
/-- So does the first weight matrix, -/
theorem ws : after (hostOps3_1 (F := Ideal)) (after (hostOps3 (F := Ideal)) V) (Proc.devRef .tc main_v62) = truncf (F := Ideal) .bf16 (V (Proc.devRef .tc main_arg14)) Facts₀.bitsLt_bf16_f32 := by
  dsimp only [hostOps3_1, hostOps3]
  after_results_simp

set_option maxHeartbeats 4000000 in
/-- and the second. -/
theorem wn : after (hostOps3_1 (F := Ideal)) (after (hostOps3 (F := Ideal)) V) (Proc.devRef .tc main_v63) = truncf (F := Ideal) .bf16 (V (Proc.devRef .tc main_arg15)) Facts₀.bitsLt_bf16_f32 := by
  dsimp only [hostOps3_1, hostOps3]
  after_results_simp

/-! The two stretches write none of these buffers. -/

set_option maxHeartbeats 4000000 in
theorem keep_main_arg0 : after (hostOps3_1 (F := Ideal)) (after (hostOps3 (F := Ideal)) V) (Proc.devRef .tc main_arg0) = V (Proc.devRef .tc main_arg0) := by
  dsimp only [hostOps3_1, hostOps3]
  after_results_simp

set_option maxHeartbeats 4000000 in
theorem keep_main_arg4 : after (hostOps3_1 (F := Ideal)) (after (hostOps3 (F := Ideal)) V) (Proc.devRef .tc main_arg4) = V (Proc.devRef .tc main_arg4) := by
  dsimp only [hostOps3_1, hostOps3]
  after_results_simp

set_option maxHeartbeats 4000000 in
theorem keep_main_arg16 : after (hostOps3_1 (F := Ideal)) (after (hostOps3 (F := Ideal)) V) (Proc.devRef .tc main_arg16) = V (Proc.devRef .tc main_arg16) := by
  dsimp only [hostOps3_1, hostOps3]
  after_results_simp

end Cert.KernelIdeal.Step3

end
-- ==== Proof.Spec.lean ====
/-
  One GraphSAGE layer as a function of whole arrays, on the extended reals.

  For node features `x` (one row per node), mean-aggregated neighbour features `hn`, the two weight matrices `ws`, `wn` and the
  bias `b`, the layer's value at node `i` and output feature `j` is
      (∑ₖ x[i,k] · ws[k,j]) + (∑ₖ hn[i,k] · wn[k,j]) + b[j],
  and the rectified layer is its maximum with zero. Both the tiled kernel (one block of rows per grid point, two matrix products
  into zero accumulators) and the reference (two whole `dot_general`s, a broadcast bias) are shown to compute exactly this
  function, entry by entry.
-/
import Idealize.ShloMosaic.PureOps.Ideal
import Idealize.ShloMosaic.Lib.ValueIdx

noncomputable section

open scoped BigOperators

namespace Cert.Sage

open Idealize.ShloMosaic Idealize.ShloMosaic.ValueIdx

/-- The affine layer `x · ws + hn · wn + b`, entry by entry, rows `N`, contracted width `K`, output width `M`. -/
def dense {N K M : Nat} (x hn : (⟨2, ![N, K]⟩ : Shape).Idx → EReal) (ws wn : (⟨2, ![K, M]⟩ : Shape).Idx → EReal)
    (b : (⟨1, ![M]⟩ : Shape).Idx → EReal) : (⟨2, ![N, M]⟩ : Shape).Idx → EReal :=
  fun i => ((∑ k : Fin K, x (ix2 (i 0) k) * ws (ix2 k (i 1))) + (∑ k : Fin K, hn (ix2 (i 0) k) * wn (ix2 k (i 1)))) + b (ix1 (i 1))

/-- The rectified layer `max (x · ws + hn · wn + b) 0`. -/
def denseRelu {N K M : Nat} (x hn : (⟨2, ![N, K]⟩ : Shape).Idx → EReal) (ws wn : (⟨2, ![K, M]⟩ : Shape).Idx → EReal)
    (b : (⟨1, ![M]⟩ : Shape).Idx → EReal) : (⟨2, ![N, M]⟩ : Shape).Idx → EReal :=
  fun i => max (dense x hn ws wn b i) 0

theorem dense_apply {N K M : Nat} (x hn : (⟨2, ![N, K]⟩ : Shape).Idx → EReal) (ws wn : (⟨2, ![K, M]⟩ : Shape).Idx → EReal)
    (b : (⟨1, ![M]⟩ : Shape).Idx → EReal) (p : Fin N) (q : Fin M) :
    dense x hn ws wn b (ix2 p q)
      = ((∑ k : Fin K, x (ix2 p k) * ws (ix2 k q)) + (∑ k : Fin K, hn (ix2 p k) * wn (ix2 k q))) + b (ix1 q) := rfl

theorem denseRelu_apply {N K M : Nat} (x hn : (⟨2, ![N, K]⟩ : Shape).Idx → EReal) (ws wn : (⟨2, ![K, M]⟩ : Shape).Idx → EReal)
    (b : (⟨1, ![M]⟩ : Shape).Idx → EReal) (p : Fin N) (q : Fin M) :
    denseRelu x hn ws wn b (ix2 p q)
      = max (((∑ k : Fin K, x (ix2 p k) * ws (ix2 k q)) + (∑ k : Fin K, hn (ix2 p k) * wn (ix2 k q))) + b (ix1 q)) 0 := rfl

end Cert.Sage

end
-- ==== Proof.Region0.lean ====
import proofs.«406791_j57157424775339_1_alg».proof.Proof.Gen.KernelIdeal.Frame
import proofs.«406791_j57157424775339_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The block product at an entry

For a block of 2000 rows, the product of a [2000,128] block with a [128,512] matrix into a zero accumulator is, at
row `p` and column `q`, the sum over the contracted coordinate `k` of the block's entry `(p, k)` times the matrix's entry
`(k, q)`. The four lemmas below name the operand coordinates of the product, axis by axis. -/

theorem lhs_axis0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem lhs_axis1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhs_axis0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhs_axis1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The product of a block of rows with a matrix, into zero, at an entry. -/
theorem product_apply (x : FVec Ideal S2000x128 .bf16) (w : FVec Ideal S128x512 .bf16) (p : Fin 2000) (q : Fin 512) :
    matmul (F := Ideal) dot_S2000x128_S128x512_S2000x512_1_0_0_1_n_n none x w (constant (F := Ideal) S2000x512 .f32 0x00000000#32) (ix2 p q)
      = ∑ k : Fin 128, x (ix2 p k) * w (ix2 k q) := by
  simp only [matmul]
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x512_S2000x512_1_0_0_1_n_n.rhsIdx (ix2 p q) ((contrEquiv1 dot_S2000x128_S128x512_S2000x512_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias, a vector of 512 entries laid as one row and repeated over the 2000 rows, at an entry: its entry at the column. -/
theorem bias_apply (b : FVec Ideal S512 .f32) (p : Fin 2000) (q : Fin 512) :
    broadcastTo S2000x512 (shapeCast S1x512 b shapeCasts_S512_S1x512) broadcasts_S1x512_S2000x512 (ix2 p q) = b (ix1 q) := by
  rw [broadcastTo_1b_ab_apply, shapeCast_a_1a_apply]

/-- The stored value of one grid point at row `p`, column `q` of its block: the two products' sums plus the bias, rectified. -/
theorem payload_apply (x0 x1 : Vec Ideal S2000x128 .bf16) (x2 x3 : Vec Ideal S128x512 .bf16) (x4 : Vec Ideal S512 .f32)
    (p : Fin 2000) (q : Fin 512) :
    k0_pay1 (F := Ideal) x0 x1 x2 x3 x4 (ix2 p q)
      = max (((∑ k : Fin 128, x0 (ix2 p k) * x2 (ix2 k q)) + (∑ k : Fin 128, x1 (ix2 p k) * x3 (ix2 k q))) + x4 (ix1 q)) 0 := by
  unfold k0_pay1
  simp only [shapeCast_self]
  rw [maximumf_apply, addf_apply, addf_apply, product_apply, product_apply, bias_apply, broadcast_apply]
  show max _ (Ideal.ofBits .f32 0x00000000#32) = _
  rw [Ideal.ofBits_zero_f32]

/-! ## One grid point's block, entry by entry, against the layer -/

/-- If a grid point's loaded blocks are the rows `r` (local row `p`) of the two feature arrays, and the whole weight
    matrices and bias, then the value it stores at `(p, q)` is the rectified layer at `(r, q)`. -/
theorem point_apply (x0 x1 : Vec Ideal S2000x128 .bf16) (x2 x3 : Vec Ideal S128x512 .bf16) (x4 : Vec Ideal S512 .f32)
    (a0 a1 : (⟨2, ![50000, 128]⟩ : Shape).Idx → EReal) (a2 a3 : (⟨2, ![128, 512]⟩ : Shape).Idx → EReal)
    (a4 : (⟨1, ![512]⟩ : Shape).Idx → EReal) (r : Fin 50000) (p : Fin 2000) (q : Fin 512)
    (h0 : ∀ k : Fin 128, x0 (ix2 p k) = a0 (ix2 r k)) (h1 : ∀ k : Fin 128, x1 (ix2 p k) = a1 (ix2 r k))
    (h2 : ∀ k : Fin 128, x2 (ix2 k q) = a2 (ix2 k q)) (h3 : ∀ k : Fin 128, x3 (ix2 k q) = a3 (ix2 k q))
    (h4 : x4 (ix1 q) = a4 (ix1 q)) :
    k0_pay1 (F := Ideal) x0 x1 x2 x3 x4 (ix2 p q) = Cert.Sage.denseRelu (N := 50000) (K := 128) (M := 512) a0 a1 a2 a3 a4 (ix2 r q) := by
  rw [payload_apply, Cert.Sage.denseRelu_apply, h4]
  simp only [h0, h1, h2, h3]

/-! ## The windows' index maps over the grid

Point `t` reads rows `2000·t … 2000·t + 1999` of the two feature arrays (block row `t`, block column 0), the whole weight
matrices and the whole bias (block 0), and writes block row `t` of the output. -/

theorem zeros2 : (![0, 0] : Fin 2 → Nat) = fun _ => 0 := funext fun a => by fin_cases a <;> rfl
theorem zeros1 : (![0] : Fin 1 → Nat) = fun _ => 0 := funext fun a => by fin_cases a <;> rfl

theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- What point `t` writes back is block `t` of the rectified layer of the arrays as the region finds them. -/
theorem flushed_eq (c : Dev nD) (t : Fin cfg0.N) :
    (dat0 (F := Ideal) V c).flushed 5 t
      = ((cfg0.win 5).blk t).view.read (Elt Ideal)
          (Cert.Sage.denseRelu (N := 50000) (K := 128) (M := 512) (V c main_v24) (V c main_v25) (V c main_v26) (V c main_v27) (V c main_arg7)) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x512) zeros2, View.ld_unit_zero (S := S512) zeros1]
  obtain ⟨e00, e01, e10, e11, e20, e21, e30, e31, e40, e50, e51⟩ := index_facts t
  funext j
  obtain ⟨p, q, rfl⟩ : ∃ (p : Fin 2000) (q : Fin 512), j = ix2 p q := ⟨j 0, j 1, eq_ix2 j⟩
  have ht : t.val < 25 := t.isLt
  have hp : p.val < 2000 := p.isLt
  have hq : q.val < 512 := q.isLt
  show k0_pay1 (F := Ideal) (iblk0 V c 0 t) (iblk0 V c 1 t) (iblk0 V c 2 t) (iblk0 V c 3 t) (iblk0 V c 4 t) (ix2 p q)
    = Cert.Sage.denseRelu (N := 50000) (K := 128) (M := 512) (V c main_v24) (V c main_v25) (V c main_v26) (V c main_v27) (V c main_arg7)
        (((cfg0.win 5).blk t).view.emb (ix2 p q))
  have hout : ((cfg0.win 5).blk t).view.emb (ix2 p q) = ix2 (⟨t.val * 2000 + p.val, by omega⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 512 + 1 * q.val = q.val; omega
  rw [hout]
  refine point_apply _ _ _ _ _ _ _ _ _ _ _ p q (fun k => ?_) (fun k => ?_) (fun k => ?_) (fun k => ?_) ?_
  · have hk : k.val < 128 := k.isLt
    show V c main_v24 (((cfg0.win 0).blk t).view.emb (ix2 p k)) = V c main_v24 (ix2 (⟨t.val * 2000 + p.val, by omega⟩ : Fin 50000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · have hk : k.val < 128 := k.isLt
    show V c main_v25 (((cfg0.win 1).blk t).view.emb (ix2 p k)) = V c main_v25 (ix2 (⟨t.val * 2000 + p.val, by omega⟩ : Fin 50000) k)
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · have hk : k.val < 128 := k.isLt
    show V c main_v26 (((cfg0.win 2).blk t).view.emb (ix2 k q)) = V c main_v26 (ix2 k q)
    refine congrArg _ (funext fun a => Fin.ext ?_)
    match a with
    | ⟨0, _⟩ => show win0_2.index t (0 : Fin 2) * 128 + 1 * k.val = k.val; omega
    | ⟨1, _⟩ => show win0_2.index t (1 : Fin 2) * 512 + 1 * q.val = q.val; omega
  · have hk : k.val < 128 := k.isLt
    show V c main_v27 (((cfg0.win 3).blk t).view.emb (ix2 k q)) = V c main_v27 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 512 + 1 * q.val = q.val; omega
  · show V c main_arg7 (((cfg0.win 4).blk t).view.emb (ix1 q)) = V c main_arg7 (ix1 q)
    refine congrArg _ (funext fun a => Fin.ext ?_)
    match a with
    | ⟨0, _⟩ => show win0_4.index t (0 : Fin 1) * 512 + 1 * q.val = q.val; omega

/-- An index of the output array is in point `t`'s block iff each coordinate is in the block's range on its axis. -/
theorem mem_blk (t : Fin cfg0.N) (i : S50000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v28).slice (win0_5.rect t)).set ↔ _
  rw [View.set_slice_whole, Rect.mem_set_unit]
  exact Iff.rfl

/-- The 25 blocks of 2000 rows tile the 50000 rows: row `r` is in the block of point `r / 2000`. -/
theorem cover (i : S50000x512.Idx) :
    ∃ t : Fin cfg0.N, (cfg0.win 5).flush t = true ∧ i ∈ ((cfg0.win 5).blk t).view.set := by
  have hi0 : (i 0).val < 50000 := (i 0).isLt
  have hi1 : (i 1).val < 512 := (i 1).isLt
  have hN : (i 0).val / 2000 < cfg0.N := by show (i 0).val / 2000 < 25; omega
  obtain ⟨e00, e01, e10, e11, e20, e21, e30, e31, e40, e50, e51⟩ := index_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hN⟩ (1 : Fin 2) * 512 ≤ (i 1).val ∧ (i 1).val < win0_5.index ⟨(i 0).val / 2000, hN⟩ (1 : Fin 2) * 512 + 512
    rw [e51]; omega

/-- The output array after the region: the rectified layer of the arrays as the region finds them. -/
theorem value (c : Dev nD) :
    (dat0 (F := Ideal) V c).arrAt 5 cfg0.N
      = Cert.Sage.denseRelu (N := 50000) (K := 128) (M := 512) (V c main_v24) (V c main_v25) (V c main_v26) (V c main_v27) (V c main_arg7) :=
  (dat0 (F := Ideal) V c).arrAt_eq_of_cover 5 _ (fun t _ => flushed_eq V c t) cover

end Cert.KernelIdeal.Region0

end
-- ==== Proof.Region1.lean ====
import proofs.«406791_j57157424775339_1_alg».proof.Proof.Gen.KernelIdeal.Frame
import proofs.«406791_j57157424775339_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The block product at an entry

For a block of 2000 rows, the product of a [2000,512] block with a [512,512] matrix into a zero accumulator is, at
row `p` and column `q`, the sum over the contracted coordinate `k` of the block's entry `(p, k)` times the matrix's entry
`(k, q)`. The four lemmas below name the operand coordinates of the product, axis by axis. -/

theorem lhs_axis0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_axis1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_axis0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_axis1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The product of a block of rows with a matrix, into zero, at an entry. -/
theorem product_apply (x : FVec Ideal S2000x512 .bf16) (w : FVec Ideal S512x512 .bf16) (p : Fin 2000) (q : Fin 512) :
    matmul (F := Ideal) dot_S2000x512_S512x512_S2000x512_1_0_0_1_n_n none x w (constant (F := Ideal) S2000x512 .f32 0x00000000#32) (ix2 p q)
      = ∑ k : Fin 512, x (ix2 p k) * w (ix2 k q) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- The bias, a vector of 512 entries laid as one row and repeated over the 2000 rows, at an entry: its entry at the column. -/
theorem bias_apply (b : FVec Ideal S512 .f32) (p : Fin 2000) (q : Fin 512) :
    broadcastTo S2000x512 (shapeCast S1x512 b shapeCasts_S512_S1x512) broadcasts_S1x512_S2000x512 (ix2 p q) = b (ix1 q) := by
  rw [broadcastTo_1b_ab_apply, shapeCast_a_1a_apply]

/-- The stored value of one grid point at row `p`, column `q` of its block: the two products' sums plus the bias. -/
theorem payload_apply (x0 x1 : Vec Ideal S2000x512 .bf16) (x2 x3 : Vec Ideal S512x512 .bf16) (x4 : Vec Ideal S512 .f32)
    (p : Fin 2000) (q : Fin 512) :
    k1_pay1 (F := Ideal) x0 x1 x2 x3 x4 (ix2 p q)
      = ((∑ k : Fin 512, x0 (ix2 p k) * x2 (ix2 k q)) + (∑ k : Fin 512, x1 (ix2 p k) * x3 (ix2 k q))) + x4 (ix1 q) := by
  unfold k1_pay1
  simp only [shapeCast_self]
  rw [addf_apply, addf_apply, product_apply, product_apply, bias_apply]

/-! ## One grid point's block, entry by entry, against the layer -/

/-- If a grid point's loaded blocks are the rows `r` (local row `p`) of the two feature arrays, and the whole weight
    matrices and bias, then the value it stores at `(p, q)` is the layer at `(r, q)`. -/
theorem point_apply (x0 x1 : Vec Ideal S2000x512 .bf16) (x2 x3 : Vec Ideal S512x512 .bf16) (x4 : Vec Ideal S512 .f32)
    (a0 a1 : (⟨2, ![50000, 512]⟩ : Shape).Idx → EReal) (a2 a3 : (⟨2, ![512, 512]⟩ : Shape).Idx → EReal)
    (a4 : (⟨1, ![512]⟩ : Shape).Idx → EReal) (r : Fin 50000) (p : Fin 2000) (q : Fin 512)
    (h0 : ∀ k : Fin 512, x0 (ix2 p k) = a0 (ix2 r k)) (h1 : ∀ k : Fin 512, x1 (ix2 p k) = a1 (ix2 r k))
    (h2 : ∀ k : Fin 512, x2 (ix2 k q) = a2 (ix2 k q)) (h3 : ∀ k : Fin 512, x3 (ix2 k q) = a3 (ix2 k q))
    (h4 : x4 (ix1 q) = a4 (ix1 q)) :
    k1_pay1 (F := Ideal) x0 x1 x2 x3 x4 (ix2 p q) = Cert.Sage.dense (N := 50000) (K := 512) (M := 512) a0 a1 a2 a3 a4 (ix2 r q) := by
  rw [payload_apply, Cert.Sage.dense_apply, h4]
  simp only [h0, h1, h2, h3]

/-! ## The windows' index maps over the grid

Point `t` reads rows `2000·t … 2000·t + 1999` of the two feature arrays (block row `t`, block column 0), the whole weight
matrices and the whole bias (block 0), and writes block row `t` of the output. -/

theorem zeros2 : (![0, 0] : Fin 2 → Nat) = fun _ => 0 := funext fun a => by fin_cases a <;> rfl
theorem zeros1 : (![0] : Fin 1 → Nat) = fun _ => 0 := funext fun a => by fin_cases a <;> rfl

theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back is block `t` of the layer of the arrays as the region finds them. -/
theorem flushed_eq (c : Dev nD) (t : Fin cfg1.N) :
    (dat1 (F := Ideal) V c).flushed 5 t
      = ((cfg1.win 5).blk t).view.read (Elt Ideal)
          (Cert.Sage.dense (N := 50000) (K := 512) (M := 512) (V c main_v36) (V c main_v37) (V c main_v38) (V c main_v39) (V c main_arg10)) := by
  show (cfg1.win 5).cut (grid1.coords t) ((dat1 V c).after 5 t) = _
  rw [after1_5]
  unfold out1_5
  rw [View.canon_unit_zero zeros2]
  simp only [View.ld_unit_zero (S := S2000x512) zeros2, View.ld_unit_zero (S := S512x512) zeros2, View.ld_unit_zero (S := S512) zeros1]
  obtain ⟨e00, e01, e10, e11, e20, e21, e30, e31, e40, e50, e51⟩ := index_facts t
  funext j
  obtain ⟨p, q, rfl⟩ : ∃ (p : Fin 2000) (q : Fin 512), j = ix2 p q := ⟨j 0, j 1, eq_ix2 j⟩
  have ht : t.val < 25 := t.isLt
  have hp : p.val < 2000 := p.isLt
  have hq : q.val < 512 := q.isLt
  show k1_pay1 (F := Ideal) (iblk1 V c 0 t) (iblk1 V c 1 t) (iblk1 V c 2 t) (iblk1 V c 3 t) (iblk1 V c 4 t) (ix2 p q)
    = Cert.Sage.dense (N := 50000) (K := 512) (M := 512) (V c main_v36) (V c main_v37) (V c main_v38) (V c main_v39) (V c main_arg10)
        (((cfg1.win 5).blk t).view.emb (ix2 p q))
  have hout : ((cfg1.win 5).blk t).view.emb (ix2 p q) = ix2 (⟨t.val * 2000 + p.val, by omega⟩ : Fin 50000) q := by
    funext a; apply Fin.ext
    match a with
    | ⟨0, _⟩ => show win1_5.index t (0 : Fin 2) * 2000 + 1 * p.val = t.val * 2000 + p.val; omega
    | ⟨1, _⟩ => show win1_5.index t (1 : Fin 2) * 512 + 1 * q.val = q.val; omega
  rw [hout]
  refine point_apply _ _ _ _ _ _ _ _ _ _ _ p q (fun k => ?_) (fun k => ?_) (fun k => ?_) (fun k => ?_) ?_
  · have hk : k.val < 512 := k.isLt
    show V c main_v36 (((cfg1.win 0).blk t).view.emb (ix2 p k)) = V c main_v36 (ix2 (⟨t.val * 2000 + p.val, by omega⟩ : Fin 50000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 512 + 1 * k.val = k.val; omega
  · have hk : k.val < 512 := k.isLt
    show V c main_v37 (((cfg1.win 1).blk t).view.emb (ix2 p k)) = V c main_v37 (ix2 (⟨t.val * 2000 + p.val, by omega⟩ : Fin 50000) k)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 512 + 1 * k.val = k.val; omega
  · have hk : k.val < 512 := k.isLt
    show V c main_v38 (((cfg1.win 2).blk t).view.emb (ix2 k q)) = V c main_v38 (ix2 k q)
    refine congrArg _ (funext fun a => Fin.ext ?_)
    match a with
    | ⟨0, _⟩ => show win1_2.index t (0 : Fin 2) * 512 + 1 * k.val = k.val; omega
    | ⟨1, _⟩ => show win1_2.index t (1 : Fin 2) * 512 + 1 * q.val = q.val; omega
  · have hk : k.val < 512 := k.isLt
    show V c main_v39 (((cfg1.win 3).blk t).view.emb (ix2 k q)) = V c main_v39 (ix2 k q)
    refine congrArg _ (funext fun a => Fin.ext ?_)
    match a with
    | ⟨0, _⟩ => show win1_3.index t (0 : Fin 2) * 512 + 1 * k.val = k.val; omega
    | ⟨1, _⟩ => show win1_3.index t (1 : Fin 2) * 512 + 1 * q.val = q.val; omega
  · show V c main_arg10 (((cfg1.win 4).blk t).view.emb (ix1 q)) = V c main_arg10 (ix1 q)
    refine congrArg _ (funext fun a => Fin.ext ?_)
    match a with
    | ⟨0, _⟩ => show win1_4.index t (0 : Fin 1) * 512 + 1 * q.val = q.val; omega

/-- An index of the output array is in point `t`'s block iff each coordinate is in the block's range on its axis. -/
theorem mem_blk (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v40).slice (win1_5.rect t)).set ↔ _
  rw [View.set_slice_whole, Rect.mem_set_unit]
  exact Iff.rfl

/-- The 25 blocks of 2000 rows tile the 50000 rows: row `r` is in the block of point `r / 2000`. -/
theorem cover (i : S50000x512.Idx) :
    ∃ t : Fin cfg1.N, (cfg1.win 5).flush t = true ∧ i ∈ ((cfg1.win 5).blk t).view.set := by
  have hi0 : (i 0).val < 50000 := (i 0).isLt
  have hi1 : (i 1).val < 512 := (i 1).isLt
  have hN : (i 0).val / 2000 < cfg1.N := by show (i 0).val / 2000 < 25; omega
  obtain ⟨e00, e01, e10, e11, e20, e21, e30, e31, e40, e50, e51⟩ := index_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hN⟩ (1 : Fin 2) * 512 ≤ (i 1).val ∧ (i 1).val < win1_5.index ⟨(i 0).val / 2000, hN⟩ (1 : Fin 2) * 512 + 512
    rw [e51]; omega

/-- The output array after the region: the layer of the arrays as the region finds them. -/
theorem value (c : Dev nD) :
    (dat1 (F := Ideal) V c).arrAt 5 cfg1.N
      = Cert.Sage.dense (N := 50000) (K := 512) (M := 512) (V c main_v36) (V c main_v37) (V c main_v38) (V c main_v39) (V c main_arg10) :=
  (dat1 (F := Ideal) V c).arrAt_eq_of_cover 5 _ (fun t _ => flushed_eq V c t) cover

end Cert.KernelIdeal.Region1

end
-- ==== Proof.Region2.lean ====
import proofs.«406791_j57157424775339_1_alg».proof.Proof.Gen.KernelIdeal.Frame
import proofs.«406791_j57157424775339_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The block product at an entry

For a block of 2000 rows, the product of a [2000,512] block with a [512,512] matrix into a zero accumulator is, at
row `p` and column `q`, the sum over the contracted coordinate `k` of the block's entry `(p, k)` times the matrix's entry
`(k, q)`. The four lemmas below name the operand coordinates of the product, axis by axis. -/

theorem lhs_axis0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_axis1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_axis0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_axis1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The product of a block of rows with a matrix, into zero, at an entry. -/
theorem product_apply (x : FVec Ideal S2000x512 .bf16) (w : FVec Ideal S512x512 .bf16) (p : Fin 2000) (q : Fin 512) :
    matmul (F := Ideal) dot_S2000x512_S512x512_S2000x512_1_0_0_1_n_n none x w (constant (F := Ideal) S2000x512 .f32 0x00000000#32) (ix2 p q)
      = ∑ k : Fin 512, x (ix2 p k) * w (ix2 k q) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- The bias, a vector of 512 entries laid as one row and repeated over the 2000 rows, at an entry: its entry at the column. -/
theorem bias_apply (b : FVec Ideal S512 .f32) (p : Fin 2000) (q : Fin 512) :
    broadcastTo S2000x512 (shapeCast S1x512 b shapeCasts_S512_S1x512) broadcasts_S1x512_S2000x512 (ix2 p q) = b (ix1 q) := by
  rw [broadcastTo_1b_ab_apply, shapeCast_a_1a_apply]

/-- The stored value of one grid point at row `p`, column `q` of its block: the two products' sums plus the bias, rectified. -/
theorem payload_apply (x0 x1 : Vec Ideal S2000x512 .bf16) (x2 x3 : Vec Ideal S512x512 .bf16) (x4 : Vec Ideal S512 .f32)
    (p : Fin 2000) (q : Fin 512) :
    k2_pay1 (F := Ideal) x0 x1 x2 x3 x4 (ix2 p q)
      = max (((∑ k : Fin 512, x0 (ix2 p k) * x2 (ix2 k q)) + (∑ k : Fin 512, x1 (ix2 p k) * x3 (ix2 k q))) + x4 (ix1 q)) 0 := by
  unfold k2_pay1
  simp only [shapeCast_self]
  rw [maximumf_apply, addf_apply, addf_apply, product_apply, product_apply, bias_apply, broadcast_apply]
  show max _ (Ideal.ofBits .f32 0x00000000#32) = _
  rw [Ideal.ofBits_zero_f32]

/-! ## One grid point's block, entry by entry, against the layer -/

/-- If a grid point's loaded blocks are the rows `r` (local row `p`) of the two feature arrays, and the whole weight
    matrices and bias, then the value it stores at `(p, q)` is the rectified layer at `(r, q)`. -/
theorem point_apply (x0 x1 : Vec Ideal S2000x512 .bf16) (x2 x3 : Vec Ideal S512x512 .bf16) (x4 : Vec Ideal S512 .f32)
    (a0 a1 : (⟨2, ![50000, 512]⟩ : Shape).Idx → EReal) (a2 a3 : (⟨2, ![512, 512]⟩ : Shape).Idx → EReal)
    (a4 : (⟨1, ![512]⟩ : Shape).Idx → EReal) (r : Fin 50000) (p : Fin 2000) (q : Fin 512)
    (h0 : ∀ k : Fin 512, x0 (ix2 p k) = a0 (ix2 r k)) (h1 : ∀ k : Fin 512, x1 (ix2 p k) = a1 (ix2 r k))
    (h2 : ∀ k : Fin 512, x2 (ix2 k q) = a2 (ix2 k q)) (h3 : ∀ k : Fin 512, x3 (ix2 k q) = a3 (ix2 k q))
    (h4 : x4 (ix1 q) = a4 (ix1 q)) :
    k2_pay1 (F := Ideal) x0 x1 x2 x3 x4 (ix2 p q) = Cert.Sage.denseRelu (N := 50000) (K := 512) (M := 512) a0 a1 a2 a3 a4 (ix2 r q) := by
  rw [payload_apply, Cert.Sage.denseRelu_apply, h4]
  simp only [h0, h1, h2, h3]

/-! ## The windows' index maps over the grid

Point `t` reads rows `2000·t … 2000·t + 1999` of the two feature arrays (block row `t`, block column 0), the whole weight
matrices and the whole bias (block 0), and writes block row `t` of the output. -/

theorem zeros2 : (![0, 0] : Fin 2 → Nat) = fun _ => 0 := funext fun a => by fin_cases a <;> rfl
theorem zeros1 : (![0] : Fin 1 → Nat) = fun _ => 0 := funext fun a => by fin_cases a <;> rfl

theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- What point `t` writes back is block `t` of the rectified layer of the arrays as the region finds them. -/
theorem flushed_eq (c : Dev nD) (t : Fin cfg2.N) :
    (dat2 (F := Ideal) V c).flushed 5 t
      = ((cfg2.win 5).blk t).view.read (Elt Ideal)
          (Cert.Sage.denseRelu (N := 50000) (K := 512) (M := 512) (V c main_v48) (V c main_v49) (V c main_v50) (V c main_v51) (V c main_arg13)) := by
  show (cfg2.win 5).cut (grid2.coords t) ((dat2 V c).after 5 t) = _
  rw [after2_5]
  unfold out2_5
  rw [View.canon_unit_zero zeros2]
  simp only [View.ld_unit_zero (S := S2000x512) zeros2, View.ld_unit_zero (S := S512x512) zeros2, View.ld_unit_zero (S := S512) zeros1]
  obtain ⟨e00, e01, e10, e11, e20, e21, e30, e31, e40, e50, e51⟩ := index_facts t
  funext j
  obtain ⟨p, q, rfl⟩ : ∃ (p : Fin 2000) (q : Fin 512), j = ix2 p q := ⟨j 0, j 1, eq_ix2 j⟩
  have ht : t.val < 25 := t.isLt
  have hp : p.val < 2000 := p.isLt
  have hq : q.val < 512 := q.isLt
  show k2_pay1 (F := Ideal) (iblk2 V c 0 t) (iblk2 V c 1 t) (iblk2 V c 2 t) (iblk2 V c 3 t) (iblk2 V c 4 t) (ix2 p q)
    = Cert.Sage.denseRelu (N := 50000) (K := 512) (M := 512) (V c main_v48) (V c main_v49) (V c main_v50) (V c main_v51) (V c main_arg13)
        (((cfg2.win 5).blk t).view.emb (ix2 p q))
  have hout : ((cfg2.win 5).blk t).view.emb (ix2 p q) = ix2 (⟨t.val * 2000 + p.val, by omega⟩ : Fin 50000) q := by
    funext a; apply Fin.ext
    match a with
    | ⟨0, _⟩ => show win2_5.index t (0 : Fin 2) * 2000 + 1 * p.val = t.val * 2000 + p.val; omega
    | ⟨1, _⟩ => show win2_5.index t (1 : Fin 2) * 512 + 1 * q.val = q.val; omega
  rw [hout]
  refine point_apply _ _ _ _ _ _ _ _ _ _ _ p q (fun k => ?_) (fun k => ?_) (fun k => ?_) (fun k => ?_) ?_
  · have hk : k.val < 512 := k.isLt
    show V c main_v48 (((cfg2.win 0).blk t).view.emb (ix2 p k)) = V c main_v48 (ix2 (⟨t.val * 2000 + p.val, by omega⟩ : Fin 50000) k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 512 + 1 * k.val = k.val; omega
  · have hk : k.val < 512 := k.isLt
    show V c main_v49 (((cfg2.win 1).blk t).view.emb (ix2 p k)) = V c main_v49 (ix2 (⟨t.val * 2000 + p.val, by omega⟩ : Fin 50000) k)
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 512 + 1 * k.val = k.val; omega
  · have hk : k.val < 512 := k.isLt
    show V c main_v50 (((cfg2.win 2).blk t).view.emb (ix2 k q)) = V c main_v50 (ix2 k q)
    refine congrArg _ (funext fun a => Fin.ext ?_)
    match a with
    | ⟨0, _⟩ => show win2_2.index t (0 : Fin 2) * 512 + 1 * k.val = k.val; omega
    | ⟨1, _⟩ => show win2_2.index t (1 : Fin 2) * 512 + 1 * q.val = q.val; omega
  · have hk : k.val < 512 := k.isLt
    show V c main_v51 (((cfg2.win 3).blk t).view.emb (ix2 k q)) = V c main_v51 (ix2 k q)
    refine congrArg _ (funext fun a => Fin.ext ?_)
    match a with
    | ⟨0, _⟩ => show win2_3.index t (0 : Fin 2) * 512 + 1 * k.val = k.val; omega
    | ⟨1, _⟩ => show win2_3.index t (1 : Fin 2) * 512 + 1 * q.val = q.val; omega
  · show V c main_arg13 (((cfg2.win 4).blk t).view.emb (ix1 q)) = V c main_arg13 (ix1 q)
    refine congrArg _ (funext fun a => Fin.ext ?_)
    match a with
    | ⟨0, _⟩ => show win2_4.index t (0 : Fin 1) * 512 + 1 * q.val = q.val; omega

/-- An index of the output array is in point `t`'s block iff each coordinate is in the block's range on its axis. -/
theorem mem_blk (t : Fin cfg2.N) (i : S50000x512.Idx) :
    i ∈ ((cfg2.win 5).blk t).view.set ↔ ∀ a : Fin 2, win2_5.index t a * S2000x512.size a ≤ (i a).val ∧ (i a).val < win2_5.index t a * S2000x512.size a + S2000x512.size a := by
  show i ∈ ((View.whole main_v52).slice (win2_5.rect t)).set ↔ _
  rw [View.set_slice_whole, Rect.mem_set_unit]
  exact Iff.rfl

/-- The 25 blocks of 2000 rows tile the 50000 rows: row `r` is in the block of point `r / 2000`. -/
theorem cover (i : S50000x512.Idx) :
    ∃ t : Fin cfg2.N, (cfg2.win 5).flush t = true ∧ i ∈ ((cfg2.win 5).blk t).view.set := by
  have hi0 : (i 0).val < 50000 := (i 0).isLt
  have hi1 : (i 1).val < 512 := (i 1).isLt
  have hN : (i 0).val / 2000 < cfg2.N := by show (i 0).val / 2000 < 25; omega
  obtain ⟨e00, e01, e10, e11, e20, e21, e30, e31, e40, e50, e51⟩ := index_facts ⟨(i 0).val / 2000, hN⟩
  refine ⟨⟨(i 0).val / 2000, hN⟩, flush2_5 _, ?_⟩
  rw [mem_blk]
  intro a
  match a with
  | ⟨0, _⟩ =>
    show win2_5.index ⟨(i 0).val / 2000, hN⟩ (0 : Fin 2) * 2000 ≤ (i 0).val ∧ (i 0).val < win2_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, hN⟩ (1 : Fin 2) * 512 ≤ (i 1).val ∧ (i 1).val < win2_5.index ⟨(i 0).val / 2000, hN⟩ (1 : Fin 2) * 512 + 512
    rw [e51]; omega

/-- The output array after the region: the rectified layer of the arrays as the region finds them. -/
theorem value (c : Dev nD) :
    (dat2 (F := Ideal) V c).arrAt 5 cfg2.N
      = Cert.Sage.denseRelu (N := 50000) (K := 512) (M := 512) (V c main_v48) (V c main_v49) (V c main_v50) (V c main_v51) (V c main_arg13) :=
  (dat2 (F := Ideal) V c).arrAt_eq_of_cover 5 _ (fun t _ => flushed_eq V c t) cover

end Cert.KernelIdeal.Region2

end
-- ==== Proof.Region3.lean ====
import proofs.«406791_j57157424775339_1_alg».proof.Proof.Gen.KernelIdeal.Frame
import proofs.«406791_j57157424775339_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The block product at an entry

For a block of 2000 rows, the product of a [2000,512] block with a [512,128] matrix into a zero accumulator is, at
row `p` and column `q`, the sum over the contracted coordinate `k` of the block's entry `(p, k)` times the matrix's entry
`(k, q)`. The four lemmas below name the operand coordinates of the product, axis by axis. -/

theorem lhs_axis0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_axis1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_axis0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_axis1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The product of a block of rows with a matrix, into zero, at an entry. -/
theorem product_apply (x : FVec Ideal S2000x512 .bf16) (w : FVec Ideal S512x128 .bf16) (p : Fin 2000) (q : Fin 128) :
    matmul (F := Ideal) dot_S2000x512_S512x128_S2000x128_1_0_0_1_n_n none x w (constant (F := Ideal) S2000x128 .f32 0x00000000#32) (ix2 p q)
      = ∑ k : Fin 512, x (ix2 p k) * w (ix2 k q) := by
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- The bias, a vector of 128 entries laid as one row and repeated over the 2000 rows, at an entry: its entry at the column. -/
theorem bias_apply (b : FVec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The stored value of one grid point at row `p`, column `q` of its block: the two products' sums plus the bias. -/
theorem payload_apply (x0 x1 : Vec Ideal S2000x512 .bf16) (x2 x3 : Vec Ideal S512x128 .bf16) (x4 : Vec Ideal S128 .f32)
    (p : Fin 2000) (q : Fin 128) :
    k3_pay1 (F := Ideal) x0 x1 x2 x3 x4 (ix2 p q)
      = ((∑ k : Fin 512, x0 (ix2 p k) * x2 (ix2 k q)) + (∑ k : Fin 512, x1 (ix2 p k) * x3 (ix2 k q))) + x4 (ix1 q) := by
  unfold k3_pay1
  simp only [shapeCast_self]
  rw [addf_apply, addf_apply, product_apply, product_apply, bias_apply]

/-! ## One grid point's block, entry by entry, against the layer -/

/-- If a grid point's loaded blocks are the rows `r` (local row `p`) of the two feature arrays, and the whole weight
    matrices and bias, then the value it stores at `(p, q)` is the layer at `(r, q)`. -/
theorem point_apply (x0 x1 : Vec Ideal S2000x512 .bf16) (x2 x3 : Vec Ideal S512x128 .bf16) (x4 : Vec Ideal S128 .f32)
    (a0 a1 : (⟨2, ![50000, 512]⟩ : Shape).Idx → EReal) (a2 a3 : (⟨2, ![512, 128]⟩ : Shape).Idx → EReal)
    (a4 : (⟨1, ![128]⟩ : Shape).Idx → EReal) (r : Fin 50000) (p : Fin 2000) (q : Fin 128)
    (h0 : ∀ k : Fin 512, x0 (ix2 p k) = a0 (ix2 r k)) (h1 : ∀ k : Fin 512, x1 (ix2 p k) = a1 (ix2 r k))
    (h2 : ∀ k : Fin 512, x2 (ix2 k q) = a2 (ix2 k q)) (h3 : ∀ k : Fin 512, x3 (ix2 k q) = a3 (ix2 k q))
    (h4 : x4 (ix1 q) = a4 (ix1 q)) :
    k3_pay1 (F := Ideal) x0 x1 x2 x3 x4 (ix2 p q) = Cert.Sage.dense (N := 50000) (K := 512) (M := 128) a0 a1 a2 a3 a4 (ix2 r q) := by
  rw [payload_apply, Cert.Sage.dense_apply, h4]
  simp only [h0, h1, h2, h3]

/-! ## The windows' index maps over the grid

Point `t` reads rows `2000·t … 2000·t + 1999` of the two feature arrays (block row `t`, block column 0), the whole weight
matrices and the whole bias (block 0), and writes block row `t` of the output. -/

theorem zeros2 : (![0, 0] : Fin 2 → Nat) = fun _ => 0 := funext fun a => by fin_cases a <;> rfl
theorem zeros1 : (![0] : Fin 1 → Nat) = fun _ => 0 := funext fun a => by fin_cases a <;> rfl

theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- What point `t` writes back is block `t` of the layer of the arrays as the region finds them. -/
theorem flushed_eq (c : Dev nD) (t : Fin cfg3.N) :
    (dat3 (F := Ideal) V c).flushed 5 t
      = ((cfg3.win 5).blk t).view.read (Elt Ideal)
          (Cert.Sage.dense (N := 50000) (K := 512) (M := 128) (V c main_v60) (V c main_v61) (V c main_v62) (V c main_v63) (V c main_arg16)) := by
  show (cfg3.win 5).cut (grid3.coords t) ((dat3 V c).after 5 t) = _
  rw [after3_5]
  unfold out3_5
  rw [View.canon_unit_zero zeros2]
  simp only [View.ld_unit_zero (S := S2000x512) zeros2, View.ld_unit_zero (S := S512x128) zeros2, View.ld_unit_zero (S := S128) zeros1]
  obtain ⟨e00, e01, e10, e11, e20, e21, e30, e31, e40, e50, e51⟩ := index_facts t
  funext j
  obtain ⟨p, q, rfl⟩ : ∃ (p : Fin 2000) (q : Fin 128), j = ix2 p q := ⟨j 0, j 1, eq_ix2 j⟩
  have ht : t.val < 25 := t.isLt
  have hp : p.val < 2000 := p.isLt
  have hq : q.val < 128 := q.isLt
  show k3_pay1 (F := Ideal) (iblk3 V c 0 t) (iblk3 V c 1 t) (iblk3 V c 2 t) (iblk3 V c 3 t) (iblk3 V c 4 t) (ix2 p q)
    = Cert.Sage.dense (N := 50000) (K := 512) (M := 128) (V c main_v60) (V c main_v61) (V c main_v62) (V c main_v63) (V c main_arg16)
        (((cfg3.win 5).blk t).view.emb (ix2 p q))
  have hout : ((cfg3.win 5).blk t).view.emb (ix2 p q) = ix2 (⟨t.val * 2000 + p.val, by omega⟩ : Fin 50000) q := by
    funext a; apply Fin.ext
    match a with
    | ⟨0, _⟩ => show win3_5.index t (0 : Fin 2) * 2000 + 1 * p.val = t.val * 2000 + p.val; omega
    | ⟨1, _⟩ => show win3_5.index t (1 : Fin 2) * 128 + 1 * q.val = q.val; omega
  rw [hout]
  refine point_apply _ _ _ _ _ _ _ _ _ _ _ p q (fun k => ?_) (fun k => ?_) (fun k => ?_) (fun k => ?_) ?_
  · have hk : k.val < 512 := k.isLt
    show V c main_v60 (((cfg3.win 0).blk t).view.emb (ix2 p k)) = V c main_v60 (ix2 (⟨t.val * 2000 + p.val, by omega⟩ : Fin 50000) k)
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 512 + 1 * k.val = k.val; omega
  · have hk : k.val < 512 := k.isLt
    show V c main_v61 (((cfg3.win 1).blk t).view.emb (ix2 p k)) = V c main_v61 (ix2 (⟨t.val * 2000 + p.val, by omega⟩ : Fin 50000) k)
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 512 + 1 * k.val = k.val; omega
  · have hk : k.val < 512 := k.isLt
    show V c main_v62 (((cfg3.win 2).blk t).view.emb (ix2 k q)) = V c main_v62 (ix2 k q)
    refine congrArg _ (funext fun a => Fin.ext ?_)
    match a with
    | ⟨0, _⟩ => show win3_2.index t (0 : Fin 2) * 512 + 1 * k.val = k.val; omega
    | ⟨1, _⟩ => show win3_2.index t (1 : Fin 2) * 128 + 1 * q.val = q.val; omega
  · have hk : k.val < 512 := k.isLt
    show V c main_v63 (((cfg3.win 3).blk t).view.emb (ix2 k q)) = V c main_v63 (ix2 k q)
    refine congrArg _ (funext fun a => Fin.ext ?_)
    match a with
    | ⟨0, _⟩ => show win3_3.index t (0 : Fin 2) * 512 + 1 * k.val = k.val; omega
    | ⟨1, _⟩ => show win3_3.index t (1 : Fin 2) * 128 + 1 * q.val = q.val; omega
  · show V c main_arg16 (((cfg3.win 4).blk t).view.emb (ix1 q)) = V c main_arg16 (ix1 q)
    refine congrArg _ (funext fun a => Fin.ext ?_)
    match a with
    | ⟨0, _⟩ => show win3_4.index t (0 : Fin 1) * 128 + 1 * q.val = q.val; omega

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v64).slice (win3_5.rect t)).set ↔ _
  rw [View.set_slice_whole, Rect.mem_set_unit]
  exact Iff.rfl

/-- The 25 blocks of 2000 rows tile the 50000 rows: row `r` is in the block of point `r / 2000`. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : (i 0).val / 2000 < cfg3.N := by show (i 0).val / 2000 < 25; omega
  obtain ⟨e00, e01, e10, e11, e20, e21, e30, e31, e40, e50, e51⟩ := index_facts ⟨(i 0).val / 2000, hN⟩
  refine ⟨⟨(i 0).val / 2000, hN⟩, flush3_5 _, ?_⟩
  rw [mem_blk]
  intro a
  match a with
  | ⟨0, _⟩ =>
    show win3_5.index ⟨(i 0).val / 2000, hN⟩ (0 : Fin 2) * 2000 ≤ (i 0).val ∧ (i 0).val < win3_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win3_5.index ⟨(i 0).val / 2000, hN⟩ (1 : Fin 2) * 128 ≤ (i 1).val ∧ (i 1).val < win3_5.index ⟨(i 0).val / 2000, hN⟩ (1 : Fin 2) * 128 + 128
    rw [e51]; omega

/-- The output array after the region: the layer of the arrays as the region finds them. -/
theorem value (c : Dev nD) :
    (dat3 (F := Ideal) V c).arrAt 5 cfg3.N
      = Cert.Sage.dense (N := 50000) (K := 512) (M := 128) (V c main_v60) (V c main_v61) (V c main_v62) (V c main_v63) (V c main_arg16) :=
  (dat3 (F := Ideal) V c).arrAt_eq_of_cover 5 _ (fun t _ => flushed_eq V c t) cover

end Cert.KernelIdeal.Region3

end
-- ==== Proof.RefLayers.lean ====
import proofs.«406791_j57157424775339_1_alg».proof.Proof.Gen.ReferenceIdeal.Read
import proofs.«406791_j57157424775339_1_alg».proof.Proof.Spec

/-
  Each of the reference's four layers is the specification's layer function of its two inputs.

  At a node p and output feature q, a layer is two matrix products read as sums over the contracted width, their sum, the
  bias row broadcast over all nodes and added, and (for layers one and three) the maximum with a zero array. Reading each
  operation at the index (p, q) and identifying the composed index maps with (p, k), (k, q) and (q) gives exactly
      (∑ₖ x[p,k] · ws[k,q]) + (∑ₖ hn[p,k] · wn[k,q]) + b[q],
  respectively its maximum with 0. The two inputs of each layer are left as they are.
-/

noncomputable section

namespace Cert.ReferenceIdeal.Layers

open Cert.ReferenceIdeal Cert.ReferenceIdeal.Read
open Idealize.ShloMosaic Idealize.ShloMosaic.ValueIdx

theorem layer1 (x0 : (⟨S50000x128, .f32⟩ : BufTy).Contents (Elt Ideal)) (x1 : (⟨S1x128, .f32⟩ : BufTy).Contents (Elt Ideal)) (x2 : (⟨S400000, .i32⟩ : BufTy).Contents (Elt Ideal)) (x3 : (⟨S400000, .i32⟩ : BufTy).Contents (Elt Ideal)) (x4 : (⟨S15000, .i32⟩ : BufTy).Contents (Elt Ideal)) (x5 : (⟨S128x512, .f32⟩ : BufTy).Contents (Elt Ideal)) (x6 : (⟨S128x512, .f32⟩ : BufTy).Contents (Elt Ideal)) (x7 : (⟨S512, .f32⟩ : BufTy).Contents (Elt Ideal)) :
    val_main_v34 (F := Ideal) x0 x1 x2 x3 x4 x5 x6 x7 = Cert.Sage.denseRelu (N := 50000) (K := 128) (M := 512) (val_main_v8 (F := Ideal) x0 x1 x4) (val_main_v27 (F := Ideal) x0 x1 x2 x3 x4) x5 x6 x7 := by
  funext i
  obtain ⟨p, q, rfl⟩ : ∃ (p : Fin 50000) (q : Fin 512), i = ix2 p q := ⟨i 0, i 1, eq_ix2 i⟩
  rw [val_main_v34_apply, val_main_v33_apply, val_main_v30_apply, val_main_v28_apply, val_main_v29_apply,
    val_main_v32_apply, val_main_v31_apply, val_main_call0_v0_apply, val_main_call0_cst_apply]
  have e1 : ∀ k : Fin 128, lidx_main_v28 (ix2 p q) k = ix2 p k := fun k => by
    funext a; match a with | ⟨0, _⟩ => rfl | ⟨1, _⟩ => rfl
  have e2 : ∀ k : Fin 128, ridx_main_v28 (ix2 p q) k = ix2 k q := fun k => by
    funext a; match a with | ⟨0, _⟩ => rfl | ⟨1, _⟩ => rfl
  have e3 : ∀ k : Fin 128, lidx_main_v29 (ix2 p q) k = ix2 p k := fun k => by
    funext a; match a with | ⟨0, _⟩ => rfl | ⟨1, _⟩ => rfl
  have e4 : ∀ k : Fin 128, ridx_main_v29 (ix2 p q) k = ix2 k q := fun k => by
    funext a; match a with | ⟨0, _⟩ => rfl | ⟨1, _⟩ => rfl
  have e5 : idx_main_v31 (idx_main_v32 (ix2 p q)) = ix1 q := by
    funext a; match a with | ⟨0, _⟩ => rfl
  simp only [e1, e2, e3, e4, e5, Cert.Sage.denseRelu_apply, Ideal.addf_def, Ideal.maximumf_def, Ideal.ofBits_def,
    Ideal.ofBits_zero_f32]

theorem layer2 (x0 : (⟨S50000x128, .f32⟩ : BufTy).Contents (Elt Ideal)) (x1 : (⟨S1x128, .f32⟩ : BufTy).Contents (Elt Ideal)) (x2 : (⟨S400000, .i32⟩ : BufTy).Contents (Elt Ideal)) (x3 : (⟨S400000, .i32⟩ : BufTy).Contents (Elt Ideal)) (x4 : (⟨S15000, .i32⟩ : BufTy).Contents (Elt Ideal)) (x5 : (⟨S128x512, .f32⟩ : BufTy).Contents (Elt Ideal)) (x6 : (⟨S128x512, .f32⟩ : BufTy).Contents (Elt Ideal)) (x7 : (⟨S512, .f32⟩ : BufTy).Contents (Elt Ideal)) (x8 : (⟨S512x512, .f32⟩ : BufTy).Contents (Elt Ideal)) (x9 : (⟨S512x512, .f32⟩ : BufTy).Contents (Elt Ideal)) (x10 : (⟨S512, .f32⟩ : BufTy).Contents (Elt Ideal)) :
    val_main_v59 (F := Ideal) x0 x1 x2 x3 x4 x5 x6 x7 x8 x9 x10 = Cert.Sage.dense (N := 50000) (K := 512) (M := 512) (val_main_v34 (F := Ideal) x0 x1 x2 x3 x4 x5 x6 x7) (val_main_v53 (F := Ideal) x0 x1 x2 x3 x4 x5 x6 x7) x8 x9 x10 := by
  funext i
  obtain ⟨p, q, rfl⟩ : ∃ (p : Fin 50000) (q : Fin 512), i = ix2 p q := ⟨i 0, i 1, eq_ix2 i⟩
  rw [val_main_v59_apply, val_main_v56_apply, val_main_v54_apply, val_main_v55_apply,
    val_main_v58_apply, val_main_v57_apply]
  have e1 : ∀ k : Fin 512, lidx_main_v54 (ix2 p q) k = ix2 p k := fun k => by
    funext a; match a with | ⟨0, _⟩ => rfl | ⟨1, _⟩ => rfl
  have e2 : ∀ k : Fin 512, ridx_main_v54 (ix2 p q) k = ix2 k q := fun k => by
    funext a; match a with | ⟨0, _⟩ => rfl | ⟨1, _⟩ => rfl
  have e3 : ∀ k : Fin 512, lidx_main_v55 (ix2 p q) k = ix2 p k := fun k => by
    funext a; match a with | ⟨0, _⟩ => rfl | ⟨1, _⟩ => rfl
  have e4 : ∀ k : Fin 512, ridx_main_v55 (ix2 p q) k = ix2 k q := fun k => by
    funext a; match a with | ⟨0, _⟩ => rfl | ⟨1, _⟩ => rfl
  have e5 : idx_main_v57 (idx_main_v58 (ix2 p q)) = ix1 q := by
    funext a; match a with | ⟨0, _⟩ => rfl
  simp only [e1, e2, e3, e4, e5, Cert.Sage.dense_apply, Ideal.addf_def]

theorem layer3 (x0 : (⟨S50000x128, .f32⟩ : BufTy).Contents (Elt Ideal)) (x1 : (⟨S1x128, .f32⟩ : BufTy).Contents (Elt Ideal)) (x2 : (⟨S400000, .i32⟩ : BufTy).Contents (Elt Ideal)) (x3 : (⟨S400000, .i32⟩ : BufTy).Contents (Elt Ideal)) (x4 : (⟨S15000, .i32⟩ : BufTy).Contents (Elt Ideal)) (x5 : (⟨S128x512, .f32⟩ : BufTy).Contents (Elt Ideal)) (x6 : (⟨S128x512, .f32⟩ : BufTy).Contents (Elt Ideal)) (x7 : (⟨S512, .f32⟩ : BufTy).Contents (Elt Ideal)) (x8 : (⟨S512x512, .f32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512x512, .f32⟩ : BufTy).Contents (Elt Ideal)) (x13 : (⟨S512, .f32⟩ : BufTy).Contents (Elt Ideal)) :
    val_main_v85 (F := Ideal) x0 x1 x2 x3 x4 x5 x6 x7 x8 x9 x10 x11 x12 x13 = Cert.Sage.denseRelu (N := 50000) (K := 512) (M := 512) (val_main_v59 (F := Ideal) x0 x1 x2 x3 x4 x5 x6 x7 x8 x9 x10) (val_main_v78 (F := Ideal) x0 x1 x2 x3 x4 x5 x6 x7 x8 x9 x10) x11 x12 x13 := by
  funext i
  obtain ⟨p, q, rfl⟩ : ∃ (p : Fin 50000) (q : Fin 512), i = ix2 p q := ⟨i 0, i 1, eq_ix2 i⟩
  rw [val_main_v85_apply, val_main_v84_apply, val_main_v81_apply, val_main_v79_apply, val_main_v80_apply,
    val_main_v83_apply, val_main_v82_apply, val_main_call1_v0_apply, val_main_call1_cst_apply]
  have e1 : ∀ k : Fin 512, lidx_main_v79 (ix2 p q) k = ix2 p k := fun k => by
    funext a; match a with | ⟨0, _⟩ => rfl | ⟨1, _⟩ => rfl
  have e2 : ∀ k : Fin 512, ridx_main_v79 (ix2 p q) k = ix2 k q := fun k => by
    funext a; match a with | ⟨0, _⟩ => rfl | ⟨1, _⟩ => rfl
  have e3 : ∀ k : Fin 512, lidx_main_v80 (ix2 p q) k = ix2 p k := fun k => by
    funext a; match a with | ⟨0, _⟩ => rfl | ⟨1, _⟩ => rfl
  have e4 : ∀ k : Fin 512, ridx_main_v80 (ix2 p q) k = ix2 k q := fun k => by
    funext a; match a with | ⟨0, _⟩ => rfl | ⟨1, _⟩ => rfl
  have e5 : idx_main_v82 (idx_main_v83 (ix2 p q)) = ix1 q := by
    funext a; match a with | ⟨0, _⟩ => rfl
  simp only [e1, e2, e3, e4, e5, Cert.Sage.denseRelu_apply, Ideal.addf_def, Ideal.maximumf_def, Ideal.ofBits_def,
    Ideal.ofBits_zero_f32]

theorem layer4 (x0 : (⟨S50000x128, .f32⟩ : BufTy).Contents (Elt Ideal)) (x1 : (⟨S1x128, .f32⟩ : BufTy).Contents (Elt Ideal)) (x2 : (⟨S400000, .i32⟩ : BufTy).Contents (Elt Ideal)) (x3 : (⟨S400000, .i32⟩ : BufTy).Contents (Elt Ideal)) (x4 : (⟨S15000, .i32⟩ : BufTy).Contents (Elt Ideal)) (x5 : (⟨S128x512, .f32⟩ : BufTy).Contents (Elt Ideal)) (x6 : (⟨S128x512, .f32⟩ : BufTy).Contents (Elt Ideal)) (x7 : (⟨S512, .f32⟩ : BufTy).Contents (Elt Ideal)) (x8 : (⟨S512x512, .f32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512x512, .f32⟩ : BufTy).Contents (Elt Ideal)) (x13 : (⟨S512, .f32⟩ : BufTy).Contents (Elt Ideal)) (x14 : (⟨S512x128, .f32⟩ : BufTy).Contents (Elt Ideal)) (x15 : (⟨S512x128, .f32⟩ : BufTy).Contents (Elt Ideal)) (x16 : (⟨S128, .f32⟩ : BufTy).Contents (Elt Ideal)) :
    val_main_v110 (F := Ideal) x0 x1 x2 x3 x4 x5 x6 x7 x8 x9 x10 x11 x12 x13 x14 x15 x16 = Cert.Sage.dense (N := 50000) (K := 512) (M := 128) (val_main_v85 (F := Ideal) x0 x1 x2 x3 x4 x5 x6 x7 x8 x9 x10 x11 x12 x13) (val_main_v104 (F := Ideal) x0 x1 x2 x3 x4 x5 x6 x7 x8 x9 x10 x11 x12 x13) x14 x15 x16 := by
  funext i
  obtain ⟨p, q, rfl⟩ : ∃ (p : Fin 50000) (q : Fin 128), i = ix2 p q := ⟨i 0, i 1, eq_ix2 i⟩
  rw [val_main_v110_apply, val_main_v107_apply, val_main_v105_apply, val_main_v106_apply,
    val_main_v109_apply, val_main_v108_apply]
  have e1 : ∀ k : Fin 512, lidx_main_v105 (ix2 p q) k = ix2 p k := fun k => by
    funext a; match a with | ⟨0, _⟩ => rfl | ⟨1, _⟩ => rfl
  have e2 : ∀ k : Fin 512, ridx_main_v105 (ix2 p q) k = ix2 k q := fun k => by
    funext a; match a with | ⟨0, _⟩ => rfl | ⟨1, _⟩ => rfl
  have e3 : ∀ k : Fin 512, lidx_main_v106 (ix2 p q) k = ix2 p k := fun k => by
    funext a; match a with | ⟨0, _⟩ => rfl | ⟨1, _⟩ => rfl
  have e4 : ∀ k : Fin 512, ridx_main_v106 (ix2 p q) k = ix2 k q := fun k => by
    funext a; match a with | ⟨0, _⟩ => rfl | ⟨1, _⟩ => rfl
  have e5 : idx_main_v108 (idx_main_v109 (ix2 p q)) = ix1 q := by
    funext a; match a with | ⟨0, _⟩ => rfl
  simp only [e1, e2, e3, e4, e5, Cert.Sage.dense_apply, Ideal.addf_def]

end Cert.ReferenceIdeal.Layers

end
-- ==== Proof.MeanAgg.lean ====
import proofs.«406791_j57157424775339_1_alg».proof.Proof.Gen.KernelIdeal.Launch
import proofs.«406791_j57157424775339_1_alg».proof.Proof.Gen.ReferenceIdeal.Read
import proofs.«406791_j57157424775339_1_alg».proof.Proof.Agg
import Idealize.ShloMosaic.Lib.StableHlo.Run

/-
  The mean aggregation of a graph layer as one named function, and both programs' aggregation stages read as that function.

  For node features h, edge sources x2 and edge targets x3: gather h's rows at the (wrapped) sources, add each gathered row
  into its target's row, and divide every row by max(deg, 1), where deg counts the edges arriving at the node. One program
  multiplies by the reciprocal 1 / max(deg, 1) and guards the gather by an index-range test; with every source a node index
  the test always passes, and on the extended reals multiplying by that reciprocal is dividing, so it computes the same
  function.
-/

noncomputable section

namespace Cert.KernelIdeal.MeanAgg

open Cert.KernelIdeal Cert.KernelIdeal.Facts₀ Cert.KernelIdeal.Facts
open Cert.KernelIdeal.Gen (hostOps0 hostOps0_1 hostOps0_2 hostOps1 hostOps1_1 hostOps2 hostOps2_1 hostOps3 hostOps3_1)
open Idealize.ShloMosaic Idealize.ShloMosaic.StableHlo

/-- The all-ones vector over the nodes. -/
abbrev ones : FVec Ideal S50000 .f32 :=
  broadcastInDim S50000 ![] bcast_S_S50000 (constant (F := Ideal) S_ .f32 0x3F800000#32)

/-- The in-degree of every node: one added at the target of every edge, from zero. -/
def deg (x3 : IVec S400000 32) : FVec Ideal S50000 .f32 :=
  Host.scatterAdd scatter_S50000_S400000x1_S400000_n_0_0_1
    (broadcastInDim S50000 ![] bcast_S_S50000 (constant (F := Ideal) S_ .f32 0x00000000#32))
    (broadcastInDim S400000x1 ![0] bcast_S400000_S400000x1_0 x3)
    (broadcastInDim S400000 ![] bcast_S_S400000 (constant (F := Ideal) S_ .f32 0x3F800000#32))

/-- The reciprocal of max(deg, 1). -/
def dinv (x3 : IVec S400000 32) : FVec Ideal S50000 .f32 :=
  Host.divf (F := Ideal) ones (maximumf (F := Ideal) (deg x3) ones)

/-- The mean aggregation at width 128. -/
def meanAgg128 (h : FVec Ideal S50000x128 .f32) (x2 x3 : IVec S400000 32) : FVec Ideal S50000x128 .f32 :=
  Host.divf (F := Ideal)
    (Host.scatterAdd scatter_S50000x128_S400000x1_S400000x128_1_0_0_1
      (broadcastInDim S50000x128 ![] bcast_S_S50000x128 (constant (F := Ideal) S_ .f32 0x00000000#32))
      (broadcastInDim S400000x1 ![0] bcast_S400000_S400000x1_0 x3)
      (Host.gather gather_S50000x128_S400000x1_S400000x128_1_0_n_n_0_1_1128 h (Agg.wrapIdx x2)))
    (broadcastInDim S50000x128 ![0, 1] bcast_S50000x1_S50000x128_0_1
      (broadcastInDim S50000x1 ![0] bcast_S50000_S50000x1_0 (maximumf (F := Ideal) (deg x3) ones)))

/-- The mean aggregation at width 512. -/
def meanAgg512 (h : FVec Ideal S50000x512 .f32) (x2 x3 : IVec S400000 32) : FVec Ideal S50000x512 .f32 :=
  Host.divf (F := Ideal)
    (Host.scatterAdd scatter_S50000x512_S400000x1_S400000x512_1_0_0_1
      (broadcastInDim S50000x512 ![] bcast_S_S50000x512 (constant (F := Ideal) S_ .f32 0x00000000#32))
      (broadcastInDim S400000x1 ![0] bcast_S400000_S400000x1_0 x3)
      (Host.gather gather_S50000x512_S400000x1_S400000x512_1_0_n_n_0_1_1512 h (Agg.wrapIdx x2)))
    (broadcastInDim S50000x512 ![0, 1] bcast_S50000x1_S50000x512_0_1
      (broadcastInDim S50000x1 ![0] bcast_S50000_S50000x1_0 (maximumf (F := Ideal) (deg x3) ones)))

set_option maxHeartbeats 4000000

/-- The first host stretch leaves the reciprocal of max(deg, 1) in its last buffer. -/
theorem k_dinv (V : Valuation τ sig (Elt Ideal)) :
    after hostOps0 V (Proc.devRef .tc main_v16) = dinv (V (Proc.devRef .tc main_arg3)) := by
  dsimp only [hostOps0]
  after_results_simp
  unfold dinv deg
  rfl

/-- The guarded gather, the scatter-add and the product with the reciprocal, at width 128, are the mean aggregation of the first layer's input. -/
theorem k0_hn (V : Valuation τ sig (Elt Ideal))
    (hx : ∀ e : S400000.Idx, 0 ≤ (V (Proc.devRef .tc main_arg2) e).toInt ∧ (V (Proc.devRef .tc main_arg2) e).toInt < 50000)
    (hd : V (Proc.devRef .tc main_v16) = dinv (V (Proc.devRef .tc main_arg3))) :
    after hostOps0_2 (after hostOps0_1 V) (Proc.devRef .tc main_v25)
      = truncf (F := Ideal) .bf16 (meanAgg128 (V (Proc.devRef .tc main_v8)) (V (Proc.devRef .tc main_arg2))
          (V (Proc.devRef .tc main_arg3))) bitsLt_bf16_f32 := by
  dsimp only [hostOps0_2, hostOps0_1]
  after_results_simp
  simp only [TRef.ofBuf, TRef.toBuf, cast_eq]
  rw [hd, Agg.take128 (V (Proc.devRef .tc main_arg2)) hx]
  unfold dinv
  rw [Agg.mean128]
  unfold meanAgg128
  rfl

/-- The same at width 512, for the second layer's input. -/
theorem k1_hn (V : Valuation τ sig (Elt Ideal))
    (hx : ∀ e : S400000.Idx, 0 ≤ (V (Proc.devRef .tc main_arg2) e).toInt ∧ (V (Proc.devRef .tc main_arg2) e).toInt < 50000)
    (hd : V (Proc.devRef .tc main_v16) = dinv (V (Proc.devRef .tc main_arg3))) :
    after hostOps1_1 (after hostOps1 V) (Proc.devRef .tc main_v37)
      = truncf (F := Ideal) .bf16 (meanAgg512 (V (Proc.devRef .tc main_v28)) (V (Proc.devRef .tc main_arg2))
          (V (Proc.devRef .tc main_arg3))) bitsLt_bf16_f32 := by
  dsimp only [hostOps1_1, hostOps1]
  after_results_simp
  simp only [TRef.ofBuf, TRef.toBuf, cast_eq]
  rw [hd, Agg.take512 (V (Proc.devRef .tc main_arg2)) hx]
  unfold dinv
  rw [Agg.mean512]
  unfold meanAgg512
  rfl

/-- The same for the third layer's input. -/
theorem k2_hn (V : Valuation τ sig (Elt Ideal))
    (hx : ∀ e : S400000.Idx, 0 ≤ (V (Proc.devRef .tc main_arg2) e).toInt ∧ (V (Proc.devRef .tc main_arg2) e).toInt < 50000)
    (hd : V (Proc.devRef .tc main_v16) = dinv (V (Proc.devRef .tc main_arg3))) :
    after hostOps2_1 (after hostOps2 V) (Proc.devRef .tc main_v49)
      = truncf (F := Ideal) .bf16 (meanAgg512 (V (Proc.devRef .tc main_v40)) (V (Proc.devRef .tc main_arg2))
          (V (Proc.devRef .tc main_arg3))) bitsLt_bf16_f32 := by
  dsimp only [hostOps2_1, hostOps2]
  after_results_simp
  simp only [TRef.ofBuf, TRef.toBuf, cast_eq]
  rw [hd, Agg.take512 (V (Proc.devRef .tc main_arg2)) hx]
  unfold dinv
  rw [Agg.mean512]
  unfold meanAgg512
  rfl

/-- The same for the fourth layer's input. -/
theorem k3_hn (V : Valuation τ sig (Elt Ideal))
    (hx : ∀ e : S400000.Idx, 0 ≤ (V (Proc.devRef .tc main_arg2) e).toInt ∧ (V (Proc.devRef .tc main_arg2) e).toInt < 50000)
    (hd : V (Proc.devRef .tc main_v16) = dinv (V (Proc.devRef .tc main_arg3))) :
    after hostOps3_1 (after hostOps3 V) (Proc.devRef .tc main_v61)
      = truncf (F := Ideal) .bf16 (meanAgg512 (V (Proc.devRef .tc main_v52)) (V (Proc.devRef .tc main_arg2))
          (V (Proc.devRef .tc main_arg3))) bitsLt_bf16_f32 := by
  dsimp only [hostOps3_1, hostOps3]
  after_results_simp
  simp only [TRef.ofBuf, TRef.toBuf, cast_eq]
  rw [hd, Agg.take512 (V (Proc.devRef .tc main_arg2)) hx]
  unfold dinv
  rw [Agg.mean512]
  unfold meanAgg512
  rfl

/-- The reference's first aggregation is the mean aggregation of its patched features. -/
theorem r27 (x0 : (⟨Cert.ReferenceIdeal.S50000x128, .f32⟩ : BufTy).Contents (Elt Ideal)) (x1 : (⟨Cert.ReferenceIdeal.S1x128, .f32⟩ : BufTy).Contents (Elt Ideal)) (x2 : (⟨Cert.ReferenceIdeal.S400000, .i32⟩ : BufTy).Contents (Elt Ideal)) (x3 : (⟨Cert.ReferenceIdeal.S400000, .i32⟩ : BufTy).Contents (Elt Ideal)) (x4 : (⟨Cert.ReferenceIdeal.S15000, .i32⟩ : BufTy).Contents (Elt Ideal)) :
    Cert.ReferenceIdeal.Read.val_main_v27 (F := Ideal) x0 x1 x2 x3 x4 = meanAgg128 (Cert.ReferenceIdeal.Read.val_main_v8 (F := Ideal) x0 x1 x4) x2 x3 := by
  unfold Cert.ReferenceIdeal.Read.val_main_v27 Cert.ReferenceIdeal.Read.val_main_v18 Cert.ReferenceIdeal.Read.val_main_v15
  generalize Cert.ReferenceIdeal.Read.val_main_v8 (F := Ideal) x0 x1 x4 = h
  unfold Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v17 Cert.ReferenceIdeal.Read.val_main_v16 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9
    Cert.ReferenceIdeal.Read.val_main_c_1 Cert.ReferenceIdeal.Read.val_main_c_2 Cert.ReferenceIdeal.Read.val_main_cst Cert.ReferenceIdeal.Read.val_main_cst_3 Cert.ReferenceIdeal.Read.val_main_cst_4 Cert.ReferenceIdeal.Read.val_main_cst_5
  unfold meanAgg128 deg
  rfl

/-- Its second aggregation is the mean aggregation of the first layer's output. -/
theorem r53 (x0 : (⟨Cert.ReferenceIdeal.S50000x128, .f32⟩ : BufTy).Contents (Elt Ideal)) (x1 : (⟨Cert.ReferenceIdeal.S1x128, .f32⟩ : BufTy).Contents (Elt Ideal)) (x2 : (⟨Cert.ReferenceIdeal.S400000, .i32⟩ : BufTy).Contents (Elt Ideal)) (x3 : (⟨Cert.ReferenceIdeal.S400000, .i32⟩ : BufTy).Contents (Elt Ideal)) (x4 : (⟨Cert.ReferenceIdeal.S15000, .i32⟩ : BufTy).Contents (Elt Ideal)) (x5 : (⟨Cert.ReferenceIdeal.S128x512, .f32⟩ : BufTy).Contents (Elt Ideal)) (x6 : (⟨Cert.ReferenceIdeal.S128x512, .f32⟩ : BufTy).Contents (Elt Ideal)) (x7 : (⟨Cert.ReferenceIdeal.S512, .f32⟩ : BufTy).Contents (Elt Ideal)) :
    Cert.ReferenceIdeal.Read.val_main_v53 (F := Ideal) x0 x1 x2 x3 x4 x5 x6 x7 = meanAgg512 (Cert.ReferenceIdeal.Read.val_main_v34 (F := Ideal) x0 x1 x2 x3 x4 x5 x6 x7) x2 x3 := by
  unfold Cert.ReferenceIdeal.Read.val_main_v53 Cert.ReferenceIdeal.Read.val_main_v44 Cert.ReferenceIdeal.Read.val_main_v41
  generalize Cert.ReferenceIdeal.Read.val_main_v34 (F := Ideal) x0 x1 x2 x3 x4 x5 x6 x7 = h
  unfold Cert.ReferenceIdeal.Read.val_main_v52 Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_v46 Cert.ReferenceIdeal.Read.val_main_v45 Cert.ReferenceIdeal.Read.val_main_v43 Cert.ReferenceIdeal.Read.val_main_v42 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_v35
    Cert.ReferenceIdeal.Read.val_main_c_6 Cert.ReferenceIdeal.Read.val_main_c_7 Cert.ReferenceIdeal.Read.val_main_cst_8 Cert.ReferenceIdeal.Read.val_main_cst_9 Cert.ReferenceIdeal.Read.val_main_cst_10 Cert.ReferenceIdeal.Read.val_main_cst_11
  unfold meanAgg512 deg
  rfl

/-- Its third, of the second layer's output. -/
theorem r78 (x0 : (⟨Cert.ReferenceIdeal.S50000x128, .f32⟩ : BufTy).Contents (Elt Ideal)) (x1 : (⟨Cert.ReferenceIdeal.S1x128, .f32⟩ : BufTy).Contents (Elt Ideal)) (x2 : (⟨Cert.ReferenceIdeal.S400000, .i32⟩ : BufTy).Contents (Elt Ideal)) (x3 : (⟨Cert.ReferenceIdeal.S400000, .i32⟩ : BufTy).Contents (Elt Ideal)) (x4 : (⟨Cert.ReferenceIdeal.S15000, .i32⟩ : BufTy).Contents (Elt Ideal)) (x5 : (⟨Cert.ReferenceIdeal.S128x512, .f32⟩ : BufTy).Contents (Elt Ideal)) (x6 : (⟨Cert.ReferenceIdeal.S128x512, .f32⟩ : BufTy).Contents (Elt Ideal)) (x7 : (⟨Cert.ReferenceIdeal.S512, .f32⟩ : BufTy).Contents (Elt Ideal)) (x8 : (⟨Cert.ReferenceIdeal.S512x512, .f32⟩ : BufTy).Contents (Elt Ideal)) (x9 : (⟨Cert.ReferenceIdeal.S512x512, .f32⟩ : BufTy).Contents (Elt Ideal)) (x10 : (⟨Cert.ReferenceIdeal.S512, .f32⟩ : BufTy).Contents (Elt Ideal)) :
    Cert.ReferenceIdeal.Read.val_main_v78 (F := Ideal) x0 x1 x2 x3 x4 x5 x6 x7 x8 x9 x10 = meanAgg512 (Cert.ReferenceIdeal.Read.val_main_v59 (F := Ideal) x0 x1 x2 x3 x4 x5 x6 x7 x8 x9 x10) x2 x3 := by
  unfold Cert.ReferenceIdeal.Read.val_main_v78 Cert.ReferenceIdeal.Read.val_main_v69 Cert.ReferenceIdeal.Read.val_main_v66
  generalize Cert.ReferenceIdeal.Read.val_main_v59 (F := Ideal) x0 x1 x2 x3 x4 x5 x6 x7 x8 x9 x10 = h
  unfold Cert.ReferenceIdeal.Read.val_main_v77 Cert.ReferenceIdeal.Read.val_main_v76 Cert.ReferenceIdeal.Read.val_main_v75 Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_v68 Cert.ReferenceIdeal.Read.val_main_v67 Cert.ReferenceIdeal.Read.val_main_v65 Cert.ReferenceIdeal.Read.val_main_v64 Cert.ReferenceIdeal.Read.val_main_v63 Cert.ReferenceIdeal.Read.val_main_v62 Cert.ReferenceIdeal.Read.val_main_v61 Cert.ReferenceIdeal.Read.val_main_v60
    Cert.ReferenceIdeal.Read.val_main_c_12 Cert.ReferenceIdeal.Read.val_main_c_13 Cert.ReferenceIdeal.Read.val_main_cst_14 Cert.ReferenceIdeal.Read.val_main_cst_15 Cert.ReferenceIdeal.Read.val_main_cst_16 Cert.ReferenceIdeal.Read.val_main_cst_17
  unfold meanAgg512 deg
  rfl

/-- Its fourth, of the third layer's output. -/
theorem r104 (x0 : (⟨Cert.ReferenceIdeal.S50000x128, .f32⟩ : BufTy).Contents (Elt Ideal)) (x1 : (⟨Cert.ReferenceIdeal.S1x128, .f32⟩ : BufTy).Contents (Elt Ideal)) (x2 : (⟨Cert.ReferenceIdeal.S400000, .i32⟩ : BufTy).Contents (Elt Ideal)) (x3 : (⟨Cert.ReferenceIdeal.S400000, .i32⟩ : BufTy).Contents (Elt Ideal)) (x4 : (⟨Cert.ReferenceIdeal.S15000, .i32⟩ : BufTy).Contents (Elt Ideal)) (x5 : (⟨Cert.ReferenceIdeal.S128x512, .f32⟩ : BufTy).Contents (Elt Ideal)) (x6 : (⟨Cert.ReferenceIdeal.S128x512, .f32⟩ : BufTy).Contents (Elt Ideal)) (x7 : (⟨Cert.ReferenceIdeal.S512, .f32⟩ : BufTy).Contents (Elt Ideal)) (x8 : (⟨Cert.ReferenceIdeal.S512x512, .f32⟩ : BufTy).Contents (Elt Ideal)) (x9 : (⟨Cert.ReferenceIdeal.S512x512, .f32⟩ : BufTy).Contents (Elt Ideal)) (x10 : (⟨Cert.ReferenceIdeal.S512, .f32⟩ : BufTy).Contents (Elt Ideal)) (x11 : (⟨Cert.ReferenceIdeal.S512x512, .f32⟩ : BufTy).Contents (Elt Ideal)) (x12 : (⟨Cert.ReferenceIdeal.S512x512, .f32⟩ : BufTy).Contents (Elt Ideal)) (x13 : (⟨Cert.ReferenceIdeal.S512, .f32⟩ : BufTy).Contents (Elt Ideal)) :
    Cert.ReferenceIdeal.Read.val_main_v104 (F := Ideal) x0 x1 x2 x3 x4 x5 x6 x7 x8 x9 x10 x11 x12 x13 = meanAgg512 (Cert.ReferenceIdeal.Read.val_main_v85 (F := Ideal) x0 x1 x2 x3 x4 x5 x6 x7 x8 x9 x10 x11 x12 x13) x2 x3 := by
  unfold Cert.ReferenceIdeal.Read.val_main_v104 Cert.ReferenceIdeal.Read.val_main_v95 Cert.ReferenceIdeal.Read.val_main_v92
  generalize Cert.ReferenceIdeal.Read.val_main_v85 (F := Ideal) x0 x1 x2 x3 x4 x5 x6 x7 x8 x9 x10 x11 x12 x13 = h
  unfold Cert.ReferenceIdeal.Read.val_main_v103 Cert.ReferenceIdeal.Read.val_main_v102 Cert.ReferenceIdeal.Read.val_main_v101 Cert.ReferenceIdeal.Read.val_main_v100 Cert.ReferenceIdeal.Read.val_main_v99 Cert.ReferenceIdeal.Read.val_main_v98 Cert.ReferenceIdeal.Read.val_main_v97 Cert.ReferenceIdeal.Read.val_main_v96 Cert.ReferenceIdeal.Read.val_main_v94 Cert.ReferenceIdeal.Read.val_main_v93 Cert.ReferenceIdeal.Read.val_main_v91 Cert.ReferenceIdeal.Read.val_main_v90 Cert.ReferenceIdeal.Read.val_main_v89 Cert.ReferenceIdeal.Read.val_main_v88 Cert.ReferenceIdeal.Read.val_main_v87 Cert.ReferenceIdeal.Read.val_main_v86
    Cert.ReferenceIdeal.Read.val_main_c_18 Cert.ReferenceIdeal.Read.val_main_c_19 Cert.ReferenceIdeal.Read.val_main_cst_20 Cert.ReferenceIdeal.Read.val_main_cst_21 Cert.ReferenceIdeal.Read.val_main_cst_22 Cert.ReferenceIdeal.Read.val_main_cst_23
  unfold meanAgg512 deg
  rfl

end Cert.KernelIdeal.MeanAgg

end
-- ==== Proof.Tail.lean ====
/-
  The program's last stretch: the mean squared error over the masked nodes.

  From the decoded features d (one row of 128 per node), the node attributes x0 and the 15000 masked node numbers x4, both
  programs take, for each masked node, its number wrapped into range (a negative number has 50000 added), gather that row of d
  and of x0, subtract, square, add up all 15000 × 128 squares starting from zero, and divide by 1920000 = 15000 × 128.
  `T` is that function of whole arrays; the kernel program's closing host operations compute it from what the last kernel
  wrote, and the reference's closing operations compute it from its fourth layer.
-/
import proofs.«406791_j57157424775339_1_alg».proof.Proof.Gen.KernelIdeal.Launch
import proofs.«406791_j57157424775339_1_alg».proof.Proof.Gen.ReferenceIdeal.Read
import Idealize.ShloMosaic.Lib.StableHlo.Run

noncomputable section

namespace Cert.KernelIdeal.Tail

open Cert.KernelIdeal Cert.KernelIdeal.Facts₀ Cert.KernelIdeal.Facts Cert.KernelIdeal.Gen
open Idealize.ShloMosaic Idealize.ShloMosaic.StableHlo

/-- The masked mean squared error: (∑ over masked nodes n and features f of (d[w n, f] − x0[w n, f])²) / 1920000, where
    w n is the masked node's number wrapped into range. -/
noncomputable def T (d : (⟨S50000x128, .f32⟩ : BufTy).Contents (Elt Ideal)) (x0 : (⟨S50000x128, .f32⟩ : BufTy).Contents (Elt Ideal))
    (x4 : (⟨S15000, .i32⟩ : BufTy).Contents (Elt Ideal)) : (⟨S_, .f32⟩ : BufTy).Contents (Elt Ideal) :=
  Host.divf (F := Ideal)
    (Host.reduceAdd (F := Ideal)
      (mulf (F := Ideal)
      (subf (F := Ideal)
        (Host.gather gather_S50000x128_S15000x1_S15000x128_1_0_n_n_0_1_1128 d
          (broadcastInDim S15000x1 ![0] Gen.bcast_S15000_S15000x1_0
            (select
              (cmpi CmpIPredicate.slt x4 (broadcastInDim S15000 ![] Gen.bcast_S_S15000 (constantI S_ 32 0#32)))
              (addi x4 (broadcastInDim S15000 ![] Gen.bcast_S_S15000 (constantI S_ 32 50000#32)))
              x4)))
        (Host.gather gather_S50000x128_S15000x1_S15000x128_1_0_n_n_0_1_1128 x0
          (broadcastInDim S15000x1 ![0] Gen.bcast_S15000_S15000x1_0
            (select
              (cmpi CmpIPredicate.slt x4 (broadcastInDim S15000 ![] Gen.bcast_S_S15000 (constantI S_ 32 0#32)))
              (addi x4 (broadcastInDim S15000 ![] Gen.bcast_S_S15000 (constantI S_ 32 50000#32)))
              x4))))
      (subf (F := Ideal)
        (Host.gather gather_S50000x128_S15000x1_S15000x128_1_0_n_n_0_1_1128 d
          (broadcastInDim S15000x1 ![0] Gen.bcast_S15000_S15000x1_0
            (select
              (cmpi CmpIPredicate.slt x4 (broadcastInDim S15000 ![] Gen.bcast_S_S15000 (constantI S_ 32 0#32)))
              (addi x4 (broadcastInDim S15000 ![] Gen.bcast_S_S15000 (constantI S_ 32 50000#32)))
              x4)))
        (Host.gather gather_S50000x128_S15000x1_S15000x128_1_0_n_n_0_1_1128 x0
          (broadcastInDim S15000x1 ![0] Gen.bcast_S15000_S15000x1_0
            (select
              (cmpi CmpIPredicate.slt x4 (broadcastInDim S15000 ![] Gen.bcast_S_S15000 (constantI S_ 32 0#32)))
              (addi x4 (broadcastInDim S15000 ![] Gen.bcast_S_S15000 (constantI S_ 32 50000#32)))
              x4)))))
      (constant (F := Ideal) S_ .f32 0x00000000#32) Gen.reducesTo_S15000x128_S_d0_1 Gen.h_S_)
    (constant (F := Ideal) S_ .f32 0x49EA6000#32)

set_option maxHeartbeats 2000000 in
/-- The kernel program's closing host operations leave `T` of the decoded features, the attributes and the mask in the
    result buffer. -/
theorem kernel_tail (V : Valuation τ sig (Elt Ideal)) :
    after hostOps4 V (Proc.devRef .tc main_v82)
      = T (V (Proc.devRef .tc main_v64)) (V (Proc.devRef .tc main_arg0)) (V (Proc.devRef .tc main_arg4)) := by
  dsimp only [hostOps4]
  after_results_simp
  rfl

/-- The reference's closing operations compute `T` of its fourth layer, the attributes and the mask. -/
theorem ref_tail (x0 : (⟨Cert.ReferenceIdeal.S50000x128, .f32⟩ : BufTy).Contents (Elt Ideal)) (x1 : (⟨Cert.ReferenceIdeal.S1x128, .f32⟩ : BufTy).Contents (Elt Ideal)) (x2 : (⟨Cert.ReferenceIdeal.S400000, .i32⟩ : BufTy).Contents (Elt Ideal)) (x3 : (⟨Cert.ReferenceIdeal.S400000, .i32⟩ : BufTy).Contents (Elt Ideal)) (x4 : (⟨Cert.ReferenceIdeal.S15000, .i32⟩ : BufTy).Contents (Elt Ideal)) (x5 : (⟨Cert.ReferenceIdeal.S128x512, .f32⟩ : BufTy).Contents (Elt Ideal)) (x6 : (⟨Cert.ReferenceIdeal.S128x512, .f32⟩ : BufTy).Contents (Elt Ideal)) (x7 : (⟨Cert.ReferenceIdeal.S512, .f32⟩ : BufTy).Contents (Elt Ideal)) (x8 : (⟨Cert.ReferenceIdeal.S512x512, .f32⟩ : BufTy).Contents (Elt Ideal)) (x9 : (⟨Cert.ReferenceIdeal.S512x512, .f32⟩ : BufTy).Contents (Elt Ideal)) (x10 : (⟨Cert.ReferenceIdeal.S512, .f32⟩ : BufTy).Contents (Elt Ideal)) (x11 : (⟨Cert.ReferenceIdeal.S512x512, .f32⟩ : BufTy).Contents (Elt Ideal)) (x12 : (⟨Cert.ReferenceIdeal.S512x512, .f32⟩ : BufTy).Contents (Elt Ideal)) (x13 : (⟨Cert.ReferenceIdeal.S512, .f32⟩ : BufTy).Contents (Elt Ideal)) (x14 : (⟨Cert.ReferenceIdeal.S512x128, .f32⟩ : BufTy).Contents (Elt Ideal)) (x15 : (⟨Cert.ReferenceIdeal.S512x128, .f32⟩ : BufTy).Contents (Elt Ideal)) (x16 : (⟨Cert.ReferenceIdeal.S128, .f32⟩ : BufTy).Contents (Elt Ideal)) :
    Cert.ReferenceIdeal.Read.val_main_v128 (F := Ideal) x0 x1 x2 x3 x4 x5 x6 x7 x8 x9 x10 x11 x12 x13 x14 x15 x16
      = T (Cert.ReferenceIdeal.Read.val_main_v110 (F := Ideal) x0 x1 x2 x3 x4 x5 x6 x7 x8 x9 x10 x11 x12 x13 x14 x15 x16) x0 x4 := by
  unfold Cert.ReferenceIdeal.Read.val_main_v128 Cert.ReferenceIdeal.Read.val_main_v127 Cert.ReferenceIdeal.Read.val_main_v126 Cert.ReferenceIdeal.Read.val_main_v125
    Cert.ReferenceIdeal.Read.val_main_v124 Cert.ReferenceIdeal.Read.val_main_v117
  generalize Cert.ReferenceIdeal.Read.val_main_v110 (F := Ideal) x0 x1 x2 x3 x4 x5 x6 x7 x8 x9 x10 x11 x12 x13 x14 x15 x16 = d
  unfold Cert.ReferenceIdeal.Read.val_main_v123 Cert.ReferenceIdeal.Read.val_main_v122 Cert.ReferenceIdeal.Read.val_main_v121 Cert.ReferenceIdeal.Read.val_main_v120 Cert.ReferenceIdeal.Read.val_main_v119 Cert.ReferenceIdeal.Read.val_main_v118
    Cert.ReferenceIdeal.Read.val_main_v116 Cert.ReferenceIdeal.Read.val_main_v115 Cert.ReferenceIdeal.Read.val_main_v114 Cert.ReferenceIdeal.Read.val_main_v113 Cert.ReferenceIdeal.Read.val_main_v112 Cert.ReferenceIdeal.Read.val_main_v111
    Cert.ReferenceIdeal.Read.val_main_c_24 Cert.ReferenceIdeal.Read.val_main_c_25 Cert.ReferenceIdeal.Read.val_main_c_26 Cert.ReferenceIdeal.Read.val_main_c_27 Cert.ReferenceIdeal.Read.val_main_cst_28 Cert.ReferenceIdeal.Read.val_main_cst_29 T
  rfl

end Cert.KernelIdeal.Tail

end
-- ==== Proof.Chain.lean ====
import proofs.«406791_j57157424775339_1_alg».proof.Proof.Gen.KernelIdeal.Frame
import proofs.«406791_j57157424775339_1_alg».proof.Proof.Gen.ReferenceIdeal.Read
import proofs.«406791_j57157424775339_1_alg».proof.Proof.StepB
import proofs.«406791_j57157424775339_1_alg».proof.Proof.Step0
import proofs.«406791_j57157424775339_1_alg».proof.Proof.Step1
import proofs.«406791_j57157424775339_1_alg».proof.Proof.Step2
import proofs.«406791_j57157424775339_1_alg».proof.Proof.Step3
import proofs.«406791_j57157424775339_1_alg».proof.Proof.Region0
import proofs.«406791_j57157424775339_1_alg».proof.Proof.Region1
import proofs.«406791_j57157424775339_1_alg».proof.Proof.Region2
import proofs.«406791_j57157424775339_1_alg».proof.Proof.Region3
import proofs.«406791_j57157424775339_1_alg».proof.Proof.RefLayers
import proofs.«406791_j57157424775339_1_alg».proof.Proof.Agg
import proofs.«406791_j57157424775339_1_alg».proof.Proof.MeanAgg
import proofs.«406791_j57157424775339_1_alg».proof.Proof.Tail

set_option maxRecDepth 16384

noncomputable section

namespace Cert.KernelIdeal.Chain

open Cert.KernelIdeal Cert.KernelIdeal.Facts₀ Cert.KernelIdeal.Facts Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- On the extended reals a change of float format is the identity. -/
theorem truncf_id {s : Shape} (x : FVec Ideal s .f32) (h : FTy.bf16.bits < FTy.f32.bits) : truncf (F := Ideal) .bf16 x h = x := rfl

/-! ## After the first stretch: the masked features, the reciprocal degrees, the arguments -/

theorem w1_v8 : W1 m ρ c (Proc.devRef .tc main_v8) = (Cert.ReferenceIdeal.Read.val_main_v8 (F := Ideal) (m ((c.tc : Thread nD τ).loc main_arg0)) (m ((c.tc : Thread nD τ).loc main_arg1)) (m ((c.tc : Thread nD τ).loc main_arg4))) := StepB.h0 (W0 m ρ c)
theorem w1_v16 : W1 m ρ c (Proc.devRef .tc main_v16) = MeanAgg.dinv (m ((c.tc : Thread nD τ).loc main_arg3)) := MeanAgg.k_dinv (W0 m ρ c)
theorem w1_arg0 : W1 m ρ c (Proc.devRef .tc main_arg0) = (m ((c.tc : Thread nD τ).loc main_arg0)) := StepB.keep_main_arg0 (W0 m ρ c)
theorem w1_arg2 : W1 m ρ c (Proc.devRef .tc main_arg2) = (m ((c.tc : Thread nD τ).loc main_arg2)) := StepB.keep_main_arg2 (W0 m ρ c)
theorem w1_arg3 : W1 m ρ c (Proc.devRef .tc main_arg3) = (m ((c.tc : Thread nD τ).loc main_arg3)) := StepB.keep_main_arg3 (W0 m ρ c)
theorem w1_arg4 : W1 m ρ c (Proc.devRef .tc main_arg4) = (m ((c.tc : Thread nD τ).loc main_arg4)) := StepB.keep_main_arg4 (W0 m ρ c)
theorem w1_arg5 : W1 m ρ c (Proc.devRef .tc main_arg5) = (m ((c.tc : Thread nD τ).loc main_arg5)) := StepB.keep_main_arg5 (W0 m ρ c)
theorem w1_arg6 : W1 m ρ c (Proc.devRef .tc main_arg6) = (m ((c.tc : Thread nD τ).loc main_arg6)) := StepB.keep_main_arg6 (W0 m ρ c)
theorem w1_arg7 : W1 m ρ c (Proc.devRef .tc main_arg7) = (m ((c.tc : Thread nD τ).loc main_arg7)) := StepB.keep_main_arg7 (W0 m ρ c)
theorem w1_arg8 : W1 m ρ c (Proc.devRef .tc main_arg8) = (m ((c.tc : Thread nD τ).loc main_arg8)) := StepB.keep_main_arg8 (W0 m ρ c)
theorem w1_arg9 : W1 m ρ c (Proc.devRef .tc main_arg9) = (m ((c.tc : Thread nD τ).loc main_arg9)) := StepB.keep_main_arg9 (W0 m ρ c)
theorem w1_arg10 : W1 m ρ c (Proc.devRef .tc main_arg10) = (m ((c.tc : Thread nD τ).loc main_arg10)) := StepB.keep_main_arg10 (W0 m ρ c)
theorem w1_arg11 : W1 m ρ c (Proc.devRef .tc main_arg11) = (m ((c.tc : Thread nD τ).loc main_arg11)) := StepB.keep_main_arg11 (W0 m ρ c)
theorem w1_arg12 : W1 m ρ c (Proc.devRef .tc main_arg12) = (m ((c.tc : Thread nD τ).loc main_arg12)) := StepB.keep_main_arg12 (W0 m ρ c)
theorem w1_arg13 : W1 m ρ c (Proc.devRef .tc main_arg13) = (m ((c.tc : Thread nD τ).loc main_arg13)) := StepB.keep_main_arg13 (W0 m ρ c)
theorem w1_arg14 : W1 m ρ c (Proc.devRef .tc main_arg14) = (m ((c.tc : Thread nD τ).loc main_arg14)) := StepB.keep_main_arg14 (W0 m ρ c)
theorem w1_arg15 : W1 m ρ c (Proc.devRef .tc main_arg15) = (m ((c.tc : Thread nD τ).loc main_arg15)) := StepB.keep_main_arg15 (W0 m ρ c)
theorem w1_arg16 : W1 m ρ c (Proc.devRef .tc main_arg16) = (m ((c.tc : Thread nD τ).loc main_arg16)) := StepB.keep_main_arg16 (W0 m ρ c)

/-! ## Layer 1: its inputs as the kernel finds them, then its output -/

theorem w3_x (hx : ∀ e : S400000.Idx, 0 ≤ ((m ((c.tc : Thread nD τ).loc main_arg2)) e).toInt ∧ ((m ((c.tc : Thread nD τ).loc main_arg2)) e).toInt < 50000) : W3 m ρ c (Proc.devRef .tc main_v24) = (Cert.ReferenceIdeal.Read.val_main_v8 (F := Ideal) (m ((c.tc : Thread nD τ).loc main_arg0)) (m ((c.tc : Thread nD τ).loc main_arg1)) (m ((c.tc : Thread nD τ).loc main_arg4))) :=
  (Step0.x (W1 m ρ c)).trans (by rw [w1_v8 m ρ c]; exact truncf_id _ _)
theorem w3_hn (hx : ∀ e : S400000.Idx, 0 ≤ ((m ((c.tc : Thread nD τ).loc main_arg2)) e).toInt ∧ ((m ((c.tc : Thread nD τ).loc main_arg2)) e).toInt < 50000) : W3 m ρ c (Proc.devRef .tc main_v25) = (Cert.ReferenceIdeal.Read.val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (MeanAgg.k0_hn (W1 m ρ c) (by rw [w1_arg2 m ρ c]; exact hx) (by rw [w1_v16 m ρ c, w1_arg3 m ρ c])).trans
    (by rw [w1_v8 m ρ c, w1_arg2 m ρ c, w1_arg3 m ρ c]; exact (truncf_id _ _).trans (MeanAgg.r27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))).symm)
theorem w3_ws (hx : ∀ e : S400000.Idx, 0 ≤ ((m ((c.tc : Thread nD τ).loc main_arg2)) e).toInt ∧ ((m ((c.tc : Thread nD τ).loc main_arg2)) e).toInt < 50000) : W3 m ρ c (Proc.devRef .tc main_v26) = (m ((c.tc : Thread nD τ).loc main_arg5)) :=
  (Step0.ws (W1 m ρ c)).trans (by rw [w1_arg5 m ρ c]; exact truncf_id _ _)
theorem w3_wn (hx : ∀ e : S400000.Idx, 0 ≤ ((m ((c.tc : Thread nD τ).loc main_arg2)) e).toInt ∧ ((m ((c.tc : Thread nD τ).loc main_arg2)) e).toInt < 50000) : W3 m ρ c (Proc.devRef .tc main_v27) = (m ((c.tc : Thread nD τ).loc main_arg6)) :=
  (Step0.wn (W1 m ρ c)).trans (by rw [w1_arg6 m ρ c]; exact truncf_id _ _)
theorem w3_arg0 (hx : ∀ e : S400000.Idx, 0 ≤ ((m ((c.tc : Thread nD τ).loc main_arg2)) e).toInt ∧ ((m ((c.tc : Thread nD τ).loc main_arg2)) e).toInt < 50000) : W3 m ρ c (Proc.devRef .tc main_arg0) = (m ((c.tc : Thread nD τ).loc main_arg0)) :=
  (Step0.keep_main_arg0 (W1 m ρ c)).trans (w1_arg0 m ρ c)
theorem w3_arg2 (hx : ∀ e : S400000.Idx, 0 ≤ ((m ((c.tc : Thread nD τ).loc main_arg2)) e).toInt ∧ ((m ((c.tc : Thread nD τ).loc main_arg2)) e).toInt < 50000) : W3 m ρ c (Proc.devRef .tc main_arg2) = (m ((c.tc : Thread nD τ).loc main_arg2)) :=
  (Step0.keep_main_arg2 (W1 m ρ c)).trans (w1_arg2 m ρ c)
theorem w3_arg3 (hx : ∀ e : S400000.Idx, 0 ≤ ((m ((c.tc : Thread nD τ).loc main_arg2)) e).toInt ∧ ((m ((c.tc : Thread nD τ).loc main_arg2)) e).toInt < 50000) : W3 m ρ c (Proc.devRef .tc main_arg3) = (m ((c.tc : Thread nD τ).loc main_arg3)) :=
  (Step0.keep_main_arg3 (W1 m ρ c)).trans (w1_arg3 m ρ c)
theorem w3_arg4 (hx : ∀ e : S400000.Idx, 0 ≤ ((m ((c.tc : Thread nD τ).loc main_arg2)) e).toInt ∧ ((m ((c.tc : Thread nD τ).loc main_arg2)) e).toInt < 50000) : W3 m ρ c (Proc.devRef .tc main_arg4) = (m ((c.tc : Thread nD τ).loc main_arg4)) :=
  (Step0.keep_main_arg4 (W1 m ρ c)).trans (w1_arg4 m ρ c)
theorem w3_v16 (hx : ∀ e : S400000.Idx, 0 ≤ ((m ((c.tc : Thread nD τ).loc main_arg2)) e).toInt ∧ ((m ((c.tc : Thread nD τ).loc main_arg2)) e).toInt < 50000) : W3 m ρ c (Proc.devRef .tc main_v16) = (MeanAgg.dinv (m ((c.tc : Thread nD τ).loc main_arg3))) :=
  (Step0.keep_main_v16 (W1 m ρ c)).trans (w1_v16 m ρ c)
theorem w3_arg7 (hx : ∀ e : S400000.Idx, 0 ≤ ((m ((c.tc : Thread nD τ).loc main_arg2)) e).toInt ∧ ((m ((c.tc : Thread nD τ).loc main_arg2)) e).toInt < 50000) : W3 m ρ c (Proc.devRef .tc main_arg7) = (m ((c.tc : Thread nD τ).loc main_arg7)) :=
  (Step0.keep_main_arg7 (W1 m ρ c)).trans (w1_arg7 m ρ c)
theorem w3_arg8 (hx : ∀ e : S400000.Idx, 0 ≤ ((m ((c.tc : Thread nD τ).loc main_arg2)) e).toInt ∧ ((m ((c.tc : Thread nD τ).loc main_arg2)) e).toInt < 50000) : W3 m ρ c (Proc.devRef .tc main_arg8) = (m ((c.tc : Thread nD τ).loc main_arg8)) :=
  (Step0.keep_main_arg8 (W1 m ρ c)).trans (w1_arg8 m ρ c)
theorem w3_arg9 (hx : ∀ e : S400000.Idx, 0 ≤ ((m ((c.tc : Thread nD τ).loc main_arg2)) e).toInt ∧ ((m ((c.tc : Thread nD τ).loc main_arg2)) e).toInt < 50000) : W3 m ρ c (Proc.devRef .tc main_arg9) = (m ((c.tc : Thread nD τ).loc main_arg9)) :=
  (Step0.keep_main_arg9 (W1 m ρ c)).trans (w1_arg9 m ρ c)
theorem w3_arg10 (hx : ∀ e : S400000.Idx, 0 ≤ ((m ((c.tc : Thread nD τ).loc main_arg2)) e).toInt ∧ ((m ((c.tc : Thread nD τ).loc main_arg2)) e).toInt < 50000) : W3 m ρ c (Proc.devRef .tc main_arg10) = (m ((c.tc : Thread nD τ).loc main_arg10)) :=
  (Step0.keep_main_arg10 (W1 m ρ c)).trans (w1_arg10 m ρ c)
theorem w3_arg11 (hx : ∀ e : S400000.Idx, 0 ≤ ((m ((c.tc : Thread nD τ).loc main_arg2)) e).toInt ∧ ((m ((c.tc : Thread nD τ).loc main_arg2)) e).toInt < 50000) : W3 m ρ c (Proc.devRef .tc main_arg11) = (m ((c.tc : Thread nD τ).loc main_arg11)) :=
  (Step0.keep_main_arg11 (W1 m ρ c)).trans (w1_arg11 m ρ c)
theorem w3_arg12 (hx : ∀ e : S400000.Idx, 0 ≤ ((m ((c.tc : Thread nD τ).loc main_arg2)) e).toInt ∧ ((m ((c.tc : Thread nD τ).loc main_arg2)) e).toInt < 50000) : W3 m ρ c (Proc.devRef .tc main_arg12) = (m ((c.tc : Thread nD τ).loc main_arg12)) :=
  (Step0.keep_main_arg12 (W1 m ρ c)).trans (w1_arg12 m ρ c)
theorem w3_arg13 (hx : ∀ e : S400000.Idx, 0 ≤ ((m ((c.tc : Thread nD τ).loc main_arg2)) e).toInt ∧ ((m ((c.tc : Thread nD τ).loc main_arg2)) e).toInt < 50000) : W3 m ρ c (Proc.devRef .tc main_arg13) = (m ((c.tc : Thread nD τ).loc main_arg13)) :=
  (Step0.keep_main_arg13 (W1 m ρ c)).trans (w1_arg13 m ρ c)
theorem w3_arg14 (hx : ∀ e : S400000.Idx, 0 ≤ ((m ((c.tc : Thread nD τ).loc main_arg2)) e).toInt ∧ ((m ((c.tc : Thread nD τ).loc main_arg2)) e).toInt < 50000) : W3 m ρ c (Proc.devRef .tc main_arg14) = (m ((c.tc : Thread nD τ).loc main_arg14)) :=
  (Step0.keep_main_arg14 (W1 m ρ c)).trans (w1_arg14 m ρ c)
theorem w3_arg15 (hx : ∀ e : S400000.Idx, 0 ≤ ((m ((c.tc : Thread nD τ).loc main_arg2)) e).toInt ∧ ((m ((c.tc : Thread nD τ).loc main_arg2)) e).toInt < 50000) : W3 m ρ c (Proc.devRef .tc main_arg15) = (m ((c.tc : Thread nD τ).loc main_arg15)) :=
  (Step0.keep_main_arg15 (W1 m ρ c)).trans (w1_arg15 m ρ c)
theorem w3_arg16 (hx : ∀ e : S400000.Idx, 0 ≤ ((m ((c.tc : Thread nD τ).loc main_arg2)) e).toInt ∧ ((m ((c.tc : Thread nD τ).loc main_arg2)) e).toInt < 50000) : W3 m ρ c (Proc.devRef .tc main_arg16) = (m ((c.tc : Thread nD τ).loc main_arg16)) :=
  (Step0.keep_main_arg16 (W1 m ρ c)).trans (w1_arg16 m ρ c)
theorem w4_out (hx : ∀ e : S400000.Idx, 0 ≤ ((m ((c.tc : Thread nD τ).loc main_arg2)) e).toInt ∧ ((m ((c.tc : Thread nD τ).loc main_arg2)) e).toInt < 50000) : W4 m ρ c (Proc.devRef .tc main_v28) = (Cert.ReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (W4_arr m ρ c 5).trans ((Region0.value (V3 m ρ) c).trans (by
    show Cert.Sage.denseRelu (N := 50000) (K := 128) (M := 512) (W3 m ρ c (Proc.devRef .tc main_v24)) (W3 m ρ c (Proc.devRef .tc main_v25)) (W3 m ρ c (Proc.devRef .tc main_v26)) (W3 m ρ c (Proc.devRef .tc main_v27)) (W3 m ρ c (Proc.devRef .tc main_arg7)) = _
    rw [w3_x m ρ c hx, w3_hn m ρ c hx, w3_ws m ρ c hx, w3_wn m ρ c hx, w3_arg7 m ρ c hx]
    exact (Cert.ReferenceIdeal.Layers.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm))
theorem w4_arg0 (hx : ∀ e : S400000.Idx, 0 ≤ ((m ((c.tc : Thread nD τ).loc main_arg2)) e).toInt ∧ ((m ((c.tc : Thread nD τ).loc main_arg2)) e).toInt < 50000) : W4 m ρ c (Proc.devRef .tc main_arg0) = (m ((c.tc : Thread nD τ).loc main_arg0)) :=
  (W4_of_ne m ρ c main_arg0 (by decide)).trans (w3_arg0 m ρ c hx)
theorem w4_arg2 (hx : ∀ e : S400000.Idx, 0 ≤ ((m ((c.tc : Thread nD τ).loc main_arg2)) e).toInt ∧ ((m ((c.tc : Thread nD τ).loc main_arg2)) e).toInt < 50000) : W4 m ρ c (Proc.devRef .tc main_arg2) = (m ((c.tc : Thread nD τ).loc main_arg2)) :=
  (W4_of_ne m ρ c main_arg2 (by decide)).trans (w3_arg2 m ρ c hx)
theorem w4_arg3 (hx : ∀ e : S400000.Idx, 0 ≤ ((m ((c.tc : Thread nD τ).loc main_arg2)) e).toInt ∧ ((m ((c.tc : Thread nD τ).loc main_arg2)) e).toInt < 50000) : W4 m ρ c (Proc.devRef .tc main_arg3) = (m ((c.tc : Thread nD τ).loc main_arg3)) :=
  (W4_of_ne m ρ c main_arg3 (by decide)).trans (w3_arg3 m ρ c hx)
theorem w4_arg4 (hx : ∀ e : S400000.Idx, 0 ≤ ((m ((c.tc : Thread nD τ).loc main_arg2)) e).toInt ∧ ((m ((c.tc : Thread nD τ).loc main_arg2)) e).toInt < 50000) : W4 m ρ c (Proc.devRef .tc main_arg4) = (m ((c.tc : Thread nD τ).loc main_arg4)) :=
  (W4_of_ne m ρ c main_arg4 (by decide)).trans (w3_arg4 m ρ c hx)
theorem w4_v16 (hx : ∀ e : S400000.Idx, 0 ≤ ((m ((c.tc : Thread nD τ).loc main_arg2)) e).toInt ∧ ((m ((c.tc : Thread nD τ).loc main_arg2)) e).toInt < 50000) : W4 m ρ c (Proc.devRef .tc main_v16) = (MeanAgg.dinv (m ((c.tc : Thread nD τ).loc main_arg3))) :=
  (W4_of_ne m ρ c main_v16 (by decide)).trans (w3_v16 m ρ c hx)
theorem w4_arg8 (hx : ∀ e : S400000.Idx, 0 ≤ ((m ((c.tc : Thread nD τ).loc main_arg2)) e).toInt ∧ ((m ((c.tc : Thread nD τ).loc main_arg2)) e).toInt < 50000) : W4 m ρ c (Proc.devRef .tc main_arg8) = (m ((c.tc : Thread nD τ).loc main_arg8)) :=
  (W4_of_ne m ρ c main_arg8 (by decide)).trans (w3_arg8 m ρ c hx)
theorem w4_arg9 (hx : ∀ e : S400000.Idx, 0 ≤ ((m ((c.tc : Thread nD τ).loc main_arg2)) e).toInt ∧ ((m ((c.tc : Thread nD τ).loc main_arg2)) e).toInt < 50000) : W4 m ρ c (Proc.devRef .tc main_arg9) = (m ((c.tc : Thread nD τ).loc main_arg9)) :=
  (W4_of_ne m ρ c main_arg9 (by decide)).trans (w3_arg9 m ρ c hx)
theorem w4_arg10 (hx : ∀ e : S400000.Idx, 0 ≤ ((m ((c.tc : Thread nD τ).loc main_arg2)) e).toInt ∧ ((m ((c.tc : Thread nD τ).loc main_arg2)) e).toInt < 50000) : W4 m ρ c (Proc.devRef .tc main_arg10) = (m ((c.tc : Thread nD τ).loc main_arg10)) :=
  (W4_of_ne m ρ c main_arg10 (by decide)).trans (w3_arg10 m ρ c hx)
theorem w4_arg11 (hx : ∀ e : S400000.Idx, 0 ≤ ((m ((c.tc : Thread nD τ).loc main_arg2)) e).toInt ∧ ((m ((c.tc : Thread nD τ).loc main_arg2)) e).toInt < 50000) : W4 m ρ c (Proc.devRef .tc main_arg11) = (m ((c.tc : Thread nD τ).loc main_arg11)) :=
  (W4_of_ne m ρ c main_arg11 (by decide)).trans (w3_arg11 m ρ c hx)
theorem w4_arg12 (hx : ∀ e : S400000.Idx, 0 ≤ ((m ((c.tc : Thread nD τ).loc main_arg2)) e).toInt ∧ ((m ((c.tc : Thread nD τ).loc main_arg2)) e).toInt < 50000) : W4 m ρ c (Proc.devRef .tc main_arg12) = (m ((c.tc : Thread nD τ).loc main_arg12)) :=
  (W4_of_ne m ρ c main_arg12 (by decide)).trans (w3_arg12 m ρ c hx)
theorem w4_arg13 (hx : ∀ e : S400000.Idx, 0 ≤ ((m ((c.tc : Thread nD τ).loc main_arg2)) e).toInt ∧ ((m ((c.tc : Thread nD τ).loc main_arg2)) e).toInt < 50000) : W4 m ρ c (Proc.devRef .tc main_arg13) = (m ((c.tc : Thread nD τ).loc main_arg13)) :=
  (W4_of_ne m ρ c main_arg13 (by decide)).trans (w3_arg13 m ρ c hx)
theorem w4_arg14 (hx : ∀ e : S400000.Idx, 0 ≤ ((m ((c.tc : Thread nD τ).loc main_arg2)) e).toInt ∧ ((m ((c.tc : Thread nD τ).loc main_arg2)) e).toInt < 50000) : W4 m ρ c (Proc.devRef .tc main_arg14) = (m ((c.tc : Thread nD τ).loc main_arg14)) :=
  (W4_of_ne m ρ c main_arg14 (by decide)).trans (w3_arg14 m ρ c hx)
theorem w4_arg15 (hx : ∀ e : S400000.Idx, 0 ≤ ((m ((c.tc : Thread nD τ).loc main_arg2)) e).toInt ∧ ((m ((c.tc : Thread nD τ).loc main_arg2)) e).toInt < 50000) : W4 m ρ c (Proc.devRef .tc main_arg15) = (m ((c.tc : Thread nD τ).loc main_arg15)) :=
  (W4_of_ne m ρ c main_arg15 (by decide)).trans (w3_arg15 m ρ c hx)
theorem w4_arg16 (hx : ∀ e : S400000.Idx, 0 ≤ ((m ((c.tc : Thread nD τ).loc main_arg2)) e).toInt ∧ ((m ((c.tc : Thread nD τ).loc main_arg2)) e).toInt < 50000) : W4 m ρ c (Proc.devRef .tc main_arg16) = (m ((c.tc : Thread nD τ).loc main_arg16)) :=
  (W4_of_ne m ρ c main_arg16 (by decide)).trans (w3_arg16 m ρ c hx)

/-! ## Layer 2: its inputs as the kernel finds them, then its output -/

theorem w6_x (hx : ∀ e : S400000.Idx, 0 ≤ ((m ((c.tc : Thread nD τ).loc main_arg2)) e).toInt ∧ ((m ((c.tc : Thread nD τ).loc main_arg2)) e).toInt < 50000) : W6 m ρ c (Proc.devRef .tc main_v36) = (Cert.ReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (Step1.x (W4 m ρ c)).trans (by rw [w4_out m ρ c hx]; exact truncf_id _ _)
theorem w6_hn (hx : ∀ e : S400000.Idx, 0 ≤ ((m ((c.tc : Thread nD τ).loc main_arg2)) e).toInt ∧ ((m ((c.tc : Thread nD τ).loc main_arg2)) e).toInt < 50000) : W6 m ρ c (Proc.devRef .tc main_v37) = (Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (MeanAgg.k1_hn (W4 m ρ c) (by rw [w4_arg2 m ρ c hx]; exact hx) (by rw [w4_v16 m ρ c hx, w4_arg3 m ρ c hx])).trans
    (by rw [w4_out m ρ c hx, w4_arg2 m ρ c hx, w4_arg3 m ρ c hx]; exact (truncf_id _ _).trans (MeanAgg.r53 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm)
theorem w6_ws (hx : ∀ e : S400000.Idx, 0 ≤ ((m ((c.tc : Thread nD τ).loc main_arg2)) e).toInt ∧ ((m ((c.tc : Thread nD τ).loc main_arg2)) e).toInt < 50000) : W6 m ρ c (Proc.devRef .tc main_v38) = (m ((c.tc : Thread nD τ).loc main_arg8)) :=
  (Step1.ws (W4 m ρ c)).trans (by rw [w4_arg8 m ρ c hx]; exact truncf_id _ _)
theorem w6_wn (hx : ∀ e : S400000.Idx, 0 ≤ ((m ((c.tc : Thread nD τ).loc main_arg2)) e).toInt ∧ ((m ((c.tc : Thread nD τ).loc main_arg2)) e).toInt < 50000) : W6 m ρ c (Proc.devRef .tc main_v39) = (m ((c.tc : Thread nD τ).loc main_arg9)) :=
  (Step1.wn (W4 m ρ c)).trans (by rw [w4_arg9 m ρ c hx]; exact truncf_id _ _)
theorem w6_arg0 (hx : ∀ e : S400000.Idx, 0 ≤ ((m ((c.tc : Thread nD τ).loc main_arg2)) e).toInt ∧ ((m ((c.tc : Thread nD τ).loc main_arg2)) e).toInt < 50000) : W6 m ρ c (Proc.devRef .tc main_arg0) = (m ((c.tc : Thread nD τ).loc main_arg0)) :=
  (Step1.keep_main_arg0 (W4 m ρ c)).trans (w4_arg0 m ρ c hx)
theorem w6_arg2 (hx : ∀ e : S400000.Idx, 0 ≤ ((m ((c.tc : Thread nD τ).loc main_arg2)) e).toInt ∧ ((m ((c.tc : Thread nD τ).loc main_arg2)) e).toInt < 50000) : W6 m ρ c (Proc.devRef .tc main_arg2) = (m ((c.tc : Thread nD τ).loc main_arg2)) :=
  (Step1.keep_main_arg2 (W4 m ρ c)).trans (w4_arg2 m ρ c hx)
theorem w6_arg3 (hx : ∀ e : S400000.Idx, 0 ≤ ((m ((c.tc : Thread nD τ).loc main_arg2)) e).toInt ∧ ((m ((c.tc : Thread nD τ).loc main_arg2)) e).toInt < 50000) : W6 m ρ c (Proc.devRef .tc main_arg3) = (m ((c.tc : Thread nD τ).loc main_arg3)) :=
  (Step1.keep_main_arg3 (W4 m ρ c)).trans (w4_arg3 m ρ c hx)
theorem w6_arg4 (hx : ∀ e : S400000.Idx, 0 ≤ ((m ((c.tc : Thread nD τ).loc main_arg2)) e).toInt ∧ ((m ((c.tc : Thread nD τ).loc main_arg2)) e).toInt < 50000) : W6 m ρ c (Proc.devRef .tc main_arg4) = (m ((c.tc : Thread nD τ).loc main_arg4)) :=
  (Step1.keep_main_arg4 (W4 m ρ c)).trans (w4_arg4 m ρ c hx)
theorem w6_v16 (hx : ∀ e : S400000.Idx, 0 ≤ ((m ((c.tc : Thread nD τ).loc main_arg2)) e).toInt ∧ ((m ((c.tc : Thread nD τ).loc main_arg2)) e).toInt < 50000) : W6 m ρ c (Proc.devRef .tc main_v16) = (MeanAgg.dinv (m ((c.tc : Thread nD τ).loc main_arg3))) :=
  (Step1.keep_main_v16 (W4 m ρ c)).trans (w4_v16 m ρ c hx)
theorem w6_arg10 (hx : ∀ e : S400000.Idx, 0 ≤ ((m ((c.tc : Thread nD τ).loc main_arg2)) e).toInt ∧ ((m ((c.tc : Thread nD τ).loc main_arg2)) e).toInt < 50000) : W6 m ρ c (Proc.devRef .tc main_arg10) = (m ((c.tc : Thread nD τ).loc main_arg10)) :=
  (Step1.keep_main_arg10 (W4 m ρ c)).trans (w4_arg10 m ρ c hx)
theorem w6_arg11 (hx : ∀ e : S400000.Idx, 0 ≤ ((m ((c.tc : Thread nD τ).loc main_arg2)) e).toInt ∧ ((m ((c.tc : Thread nD τ).loc main_arg2)) e).toInt < 50000) : W6 m ρ c (Proc.devRef .tc main_arg11) = (m ((c.tc : Thread nD τ).loc main_arg11)) :=
  (Step1.keep_main_arg11 (W4 m ρ c)).trans (w4_arg11 m ρ c hx)
theorem w6_arg12 (hx : ∀ e : S400000.Idx, 0 ≤ ((m ((c.tc : Thread nD τ).loc main_arg2)) e).toInt ∧ ((m ((c.tc : Thread nD τ).loc main_arg2)) e).toInt < 50000) : W6 m ρ c (Proc.devRef .tc main_arg12) = (m ((c.tc : Thread nD τ).loc main_arg12)) :=
  (Step1.keep_main_arg12 (W4 m ρ c)).trans (w4_arg12 m ρ c hx)
theorem w6_arg13 (hx : ∀ e : S400000.Idx, 0 ≤ ((m ((c.tc : Thread nD τ).loc main_arg2)) e).toInt ∧ ((m ((c.tc : Thread nD τ).loc main_arg2)) e).toInt < 50000) : W6 m ρ c (Proc.devRef .tc main_arg13) = (m ((c.tc : Thread nD τ).loc main_arg13)) :=
  (Step1.keep_main_arg13 (W4 m ρ c)).trans (w4_arg13 m ρ c hx)
theorem w6_arg14 (hx : ∀ e : S400000.Idx, 0 ≤ ((m ((c.tc : Thread nD τ).loc main_arg2)) e).toInt ∧ ((m ((c.tc : Thread nD τ).loc main_arg2)) e).toInt < 50000) : W6 m ρ c (Proc.devRef .tc main_arg14) = (m ((c.tc : Thread nD τ).loc main_arg14)) :=
  (Step1.keep_main_arg14 (W4 m ρ c)).trans (w4_arg14 m ρ c hx)
theorem w6_arg15 (hx : ∀ e : S400000.Idx, 0 ≤ ((m ((c.tc : Thread nD τ).loc main_arg2)) e).toInt ∧ ((m ((c.tc : Thread nD τ).loc main_arg2)) e).toInt < 50000) : W6 m ρ c (Proc.devRef .tc main_arg15) = (m ((c.tc : Thread nD τ).loc main_arg15)) :=
  (Step1.keep_main_arg15 (W4 m ρ c)).trans (w4_arg15 m ρ c hx)
theorem w6_arg16 (hx : ∀ e : S400000.Idx, 0 ≤ ((m ((c.tc : Thread nD τ).loc main_arg2)) e).toInt ∧ ((m ((c.tc : Thread nD τ).loc main_arg2)) e).toInt < 50000) : W6 m ρ c (Proc.devRef .tc main_arg16) = (m ((c.tc : Thread nD τ).loc main_arg16)) :=
  (Step1.keep_main_arg16 (W4 m ρ c)).trans (w4_arg16 m ρ c hx)
theorem w7_out (hx : ∀ e : S400000.Idx, 0 ≤ ((m ((c.tc : Thread nD τ).loc main_arg2)) e).toInt ∧ ((m ((c.tc : Thread nD τ).loc main_arg2)) e).toInt < 50000) : W7 m ρ c (Proc.devRef .tc main_v40) = (Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  (W7_arr m ρ c 5).trans ((Region1.value (V6 m ρ) c).trans (by
    show Cert.Sage.dense (N := 50000) (K := 512) (M := 512) (W6 m ρ c (Proc.devRef .tc main_v36)) (W6 m ρ c (Proc.devRef .tc main_v37)) (W6 m ρ c (Proc.devRef .tc main_v38)) (W6 m ρ c (Proc.devRef .tc main_v39)) (W6 m ρ c (Proc.devRef .tc main_arg10)) = _
    rw [w6_x m ρ c hx, w6_hn m ρ c hx, w6_ws m ρ c hx, w6_wn m ρ c hx, w6_arg10 m ρ c hx]
    exact (Cert.ReferenceIdeal.Layers.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).symm))
theorem w7_arg0 (hx : ∀ e : S400000.Idx, 0 ≤ ((m ((c.tc : Thread nD τ).loc main_arg2)) e).toInt ∧ ((m ((c.tc : Thread nD τ).loc main_arg2)) e).toInt < 50000) : W7 m ρ c (Proc.devRef .tc main_arg0) = (m ((c.tc : Thread nD τ).loc main_arg0)) :=
  (W7_of_ne m ρ c main_arg0 (by decide)).trans (w6_arg0 m ρ c hx)
theorem w7_arg2 (hx : ∀ e : S400000.Idx, 0 ≤ ((m ((c.tc : Thread nD τ).loc main_arg2)) e).toInt ∧ ((m ((c.tc : Thread nD τ).loc main_arg2)) e).toInt < 50000) : W7 m ρ c (Proc.devRef .tc main_arg2) = (m ((c.tc : Thread nD τ).loc main_arg2)) :=
  (W7_of_ne m ρ c main_arg2 (by decide)).trans (w6_arg2 m ρ c hx)
theorem w7_arg3 (hx : ∀ e : S400000.Idx, 0 ≤ ((m ((c.tc : Thread nD τ).loc main_arg2)) e).toInt ∧ ((m ((c.tc : Thread nD τ).loc main_arg2)) e).toInt < 50000) : W7 m ρ c (Proc.devRef .tc main_arg3) = (m ((c.tc : Thread nD τ).loc main_arg3)) :=
  (W7_of_ne m ρ c main_arg3 (by decide)).trans (w6_arg3 m ρ c hx)
theorem w7_arg4 (hx : ∀ e : S400000.Idx, 0 ≤ ((m ((c.tc : Thread nD τ).loc main_arg2)) e).toInt ∧ ((m ((c.tc : Thread nD τ).loc main_arg2)) e).toInt < 50000) : W7 m ρ c (Proc.devRef .tc main_arg4) = (m ((c.tc : Thread nD τ).loc main_arg4)) :=
  (W7_of_ne m ρ c main_arg4 (by decide)).trans (w6_arg4 m ρ c hx)
theorem w7_v16 (hx : ∀ e : S400000.Idx, 0 ≤ ((m ((c.tc : Thread nD τ).loc main_arg2)) e).toInt ∧ ((m ((c.tc : Thread nD τ).loc main_arg2)) e).toInt < 50000) : W7 m ρ c (Proc.devRef .tc main_v16) = (MeanAgg.dinv (m ((c.tc : Thread nD τ).loc main_arg3))) :=
  (W7_of_ne m ρ c main_v16 (by decide)).trans (w6_v16 m ρ c hx)
theorem w7_arg11 (hx : ∀ e : S400000.Idx, 0 ≤ ((m ((c.tc : Thread nD τ).loc main_arg2)) e).toInt ∧ ((m ((c.tc : Thread nD τ).loc main_arg2)) e).toInt < 50000) : W7 m ρ c (Proc.devRef .tc main_arg11) = (m ((c.tc : Thread nD τ).loc main_arg11)) :=
  (W7_of_ne m ρ c main_arg11 (by decide)).trans (w6_arg11 m ρ c hx)
theorem w7_arg12 (hx : ∀ e : S400000.Idx, 0 ≤ ((m ((c.tc : Thread nD τ).loc main_arg2)) e).toInt ∧ ((m ((c.tc : Thread nD τ).loc main_arg2)) e).toInt < 50000) : W7 m ρ c (Proc.devRef .tc main_arg12) = (m ((c.tc : Thread nD τ).loc main_arg12)) :=
  (W7_of_ne m ρ c main_arg12 (by decide)).trans (w6_arg12 m ρ c hx)
theorem w7_arg13 (hx : ∀ e : S400000.Idx, 0 ≤ ((m ((c.tc : Thread nD τ).loc main_arg2)) e).toInt ∧ ((m ((c.tc : Thread nD τ).loc main_arg2)) e).toInt < 50000) : W7 m ρ c (Proc.devRef .tc main_arg13) = (m ((c.tc : Thread nD τ).loc main_arg13)) :=
  (W7_of_ne m ρ c main_arg13 (by decide)).trans (w6_arg13 m ρ c hx)
theorem w7_arg14 (hx : ∀ e : S400000.Idx, 0 ≤ ((m ((c.tc : Thread nD τ).loc main_arg2)) e).toInt ∧ ((m ((c.tc : Thread nD τ).loc main_arg2)) e).toInt < 50000) : W7 m ρ c (Proc.devRef .tc main_arg14) = (m ((c.tc : Thread nD τ).loc main_arg14)) :=
  (W7_of_ne m ρ c main_arg14 (by decide)).trans (w6_arg14 m ρ c hx)
theorem w7_arg15 (hx : ∀ e : S400000.Idx, 0 ≤ ((m ((c.tc : Thread nD τ).loc main_arg2)) e).toInt ∧ ((m ((c.tc : Thread nD τ).loc main_arg2)) e).toInt < 50000) : W7 m ρ c (Proc.devRef .tc main_arg15) = (m ((c.tc : Thread nD τ).loc main_arg15)) :=
  (W7_of_ne m ρ c main_arg15 (by decide)).trans (w6_arg15 m ρ c hx)
theorem w7_arg16 (hx : ∀ e : S400000.Idx, 0 ≤ ((m ((c.tc : Thread nD τ).loc main_arg2)) e).toInt ∧ ((m ((c.tc : Thread nD τ).loc main_arg2)) e).toInt < 50000) : W7 m ρ c (Proc.devRef .tc main_arg16) = (m ((c.tc : Thread nD τ).loc main_arg16)) :=
  (W7_of_ne m ρ c main_arg16 (by decide)).trans (w6_arg16 m ρ c hx)

/-! ## Layer 3: its inputs as the kernel finds them, then its output -/

theorem w9_x (hx : ∀ e : S400000.Idx, 0 ≤ ((m ((c.tc : Thread nD τ).loc main_arg2)) e).toInt ∧ ((m ((c.tc : Thread nD τ).loc main_arg2)) e).toInt < 50000) : W9 m ρ c (Proc.devRef .tc main_v48) = (Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  (Step2.x (W7 m ρ c)).trans (by rw [w7_out m ρ c hx]; exact truncf_id _ _)
theorem w9_hn (hx : ∀ e : S400000.Idx, 0 ≤ ((m ((c.tc : Thread nD τ).loc main_arg2)) e).toInt ∧ ((m ((c.tc : Thread nD τ).loc main_arg2)) e).toInt < 50000) : W9 m ρ c (Proc.devRef .tc main_v49) = (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  (MeanAgg.k2_hn (W7 m ρ c) (by rw [w7_arg2 m ρ c hx]; exact hx) (by rw [w7_v16 m ρ c hx, w7_arg3 m ρ c hx])).trans
    (by rw [w7_out m ρ c hx, w7_arg2 m ρ c hx, w7_arg3 m ρ c hx]; exact (truncf_id _ _).trans (MeanAgg.r78 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).symm)
theorem w9_ws (hx : ∀ e : S400000.Idx, 0 ≤ ((m ((c.tc : Thread nD τ).loc main_arg2)) e).toInt ∧ ((m ((c.tc : Thread nD τ).loc main_arg2)) e).toInt < 50000) : W9 m ρ c (Proc.devRef .tc main_v50) = (m ((c.tc : Thread nD τ).loc main_arg11)) :=
  (Step2.ws (W7 m ρ c)).trans (by rw [w7_arg11 m ρ c hx]; exact truncf_id _ _)
theorem w9_wn (hx : ∀ e : S400000.Idx, 0 ≤ ((m ((c.tc : Thread nD τ).loc main_arg2)) e).toInt ∧ ((m ((c.tc : Thread nD τ).loc main_arg2)) e).toInt < 50000) : W9 m ρ c (Proc.devRef .tc main_v51) = (m ((c.tc : Thread nD τ).loc main_arg12)) :=
  (Step2.wn (W7 m ρ c)).trans (by rw [w7_arg12 m ρ c hx]; exact truncf_id _ _)
theorem w9_arg0 (hx : ∀ e : S400000.Idx, 0 ≤ ((m ((c.tc : Thread nD τ).loc main_arg2)) e).toInt ∧ ((m ((c.tc : Thread nD τ).loc main_arg2)) e).toInt < 50000) : W9 m ρ c (Proc.devRef .tc main_arg0) = (m ((c.tc : Thread nD τ).loc main_arg0)) :=
  (Step2.keep_main_arg0 (W7 m ρ c)).trans (w7_arg0 m ρ c hx)
theorem w9_arg2 (hx : ∀ e : S400000.Idx, 0 ≤ ((m ((c.tc : Thread nD τ).loc main_arg2)) e).toInt ∧ ((m ((c.tc : Thread nD τ).loc main_arg2)) e).toInt < 50000) : W9 m ρ c (Proc.devRef .tc main_arg2) = (m ((c.tc : Thread nD τ).loc main_arg2)) :=
  (Step2.keep_main_arg2 (W7 m ρ c)).trans (w7_arg2 m ρ c hx)
theorem w9_arg3 (hx : ∀ e : S400000.Idx, 0 ≤ ((m ((c.tc : Thread nD τ).loc main_arg2)) e).toInt ∧ ((m ((c.tc : Thread nD τ).loc main_arg2)) e).toInt < 50000) : W9 m ρ c (Proc.devRef .tc main_arg3) = (m ((c.tc : Thread nD τ).loc main_arg3)) :=
  (Step2.keep_main_arg3 (W7 m ρ c)).trans (w7_arg3 m ρ c hx)
theorem w9_arg4 (hx : ∀ e : S400000.Idx, 0 ≤ ((m ((c.tc : Thread nD τ).loc main_arg2)) e).toInt ∧ ((m ((c.tc : Thread nD τ).loc main_arg2)) e).toInt < 50000) : W9 m ρ c (Proc.devRef .tc main_arg4) = (m ((c.tc : Thread nD τ).loc main_arg4)) :=
  (Step2.keep_main_arg4 (W7 m ρ c)).trans (w7_arg4 m ρ c hx)
theorem w9_v16 (hx : ∀ e : S400000.Idx, 0 ≤ ((m ((c.tc : Thread nD τ).loc main_arg2)) e).toInt ∧ ((m ((c.tc : Thread nD τ).loc main_arg2)) e).toInt < 50000) : W9 m ρ c (Proc.devRef .tc main_v16) = (MeanAgg.dinv (m ((c.tc : Thread nD τ).loc main_arg3))) :=
  (Step2.keep_main_v16 (W7 m ρ c)).trans (w7_v16 m ρ c hx)
theorem w9_arg13 (hx : ∀ e : S400000.Idx, 0 ≤ ((m ((c.tc : Thread nD τ).loc main_arg2)) e).toInt ∧ ((m ((c.tc : Thread nD τ).loc main_arg2)) e).toInt < 50000) : W9 m ρ c (Proc.devRef .tc main_arg13) = (m ((c.tc : Thread nD τ).loc main_arg13)) :=
  (Step2.keep_main_arg13 (W7 m ρ c)).trans (w7_arg13 m ρ c hx)
theorem w9_arg14 (hx : ∀ e : S400000.Idx, 0 ≤ ((m ((c.tc : Thread nD τ).loc main_arg2)) e).toInt ∧ ((m ((c.tc : Thread nD τ).loc main_arg2)) e).toInt < 50000) : W9 m ρ c (Proc.devRef .tc main_arg14) = (m ((c.tc : Thread nD τ).loc main_arg14)) :=
  (Step2.keep_main_arg14 (W7 m ρ c)).trans (w7_arg14 m ρ c hx)
theorem w9_arg15 (hx : ∀ e : S400000.Idx, 0 ≤ ((m ((c.tc : Thread nD τ).loc main_arg2)) e).toInt ∧ ((m ((c.tc : Thread nD τ).loc main_arg2)) e).toInt < 50000) : W9 m ρ c (Proc.devRef .tc main_arg15) = (m ((c.tc : Thread nD τ).loc main_arg15)) :=
  (Step2.keep_main_arg15 (W7 m ρ c)).trans (w7_arg15 m ρ c hx)
theorem w9_arg16 (hx : ∀ e : S400000.Idx, 0 ≤ ((m ((c.tc : Thread nD τ).loc main_arg2)) e).toInt ∧ ((m ((c.tc : Thread nD τ).loc main_arg2)) e).toInt < 50000) : W9 m ρ c (Proc.devRef .tc main_arg16) = (m ((c.tc : Thread nD τ).loc main_arg16)) :=
  (Step2.keep_main_arg16 (W7 m ρ c)).trans (w7_arg16 m ρ c hx)
theorem w10_out (hx : ∀ e : S400000.Idx, 0 ≤ ((m ((c.tc : Thread nD τ).loc main_arg2)) e).toInt ∧ ((m ((c.tc : Thread nD τ).loc main_arg2)) e).toInt < 50000) : W10 m ρ c (Proc.devRef .tc main_v52) = (Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) :=
  (W10_arr m ρ c 5).trans ((Region2.value (V9 m ρ) c).trans (by
    show Cert.Sage.denseRelu (N := 50000) (K := 512) (M := 512) (W9 m ρ c (Proc.devRef .tc main_v48)) (W9 m ρ c (Proc.devRef .tc main_v49)) (W9 m ρ c (Proc.devRef .tc main_v50)) (W9 m ρ c (Proc.devRef .tc main_v51)) (W9 m ρ c (Proc.devRef .tc main_arg13)) = _
    rw [w9_x m ρ c hx, w9_hn m ρ c hx, w9_ws m ρ c hx, w9_wn m ρ c hx, w9_arg13 m ρ c hx]
    exact (Cert.ReferenceIdeal.Layers.layer3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))).symm))
theorem w10_arg0 (hx : ∀ e : S400000.Idx, 0 ≤ ((m ((c.tc : Thread nD τ).loc main_arg2)) e).toInt ∧ ((m ((c.tc : Thread nD τ).loc main_arg2)) e).toInt < 50000) : W10 m ρ c (Proc.devRef .tc main_arg0) = (m ((c.tc : Thread nD τ).loc main_arg0)) :=
  (W10_of_ne m ρ c main_arg0 (by decide)).trans (w9_arg0 m ρ c hx)
theorem w10_arg2 (hx : ∀ e : S400000.Idx, 0 ≤ ((m ((c.tc : Thread nD τ).loc main_arg2)) e).toInt ∧ ((m ((c.tc : Thread nD τ).loc main_arg2)) e).toInt < 50000) : W10 m ρ c (Proc.devRef .tc main_arg2) = (m ((c.tc : Thread nD τ).loc main_arg2)) :=
  (W10_of_ne m ρ c main_arg2 (by decide)).trans (w9_arg2 m ρ c hx)
theorem w10_arg3 (hx : ∀ e : S400000.Idx, 0 ≤ ((m ((c.tc : Thread nD τ).loc main_arg2)) e).toInt ∧ ((m ((c.tc : Thread nD τ).loc main_arg2)) e).toInt < 50000) : W10 m ρ c (Proc.devRef .tc main_arg3) = (m ((c.tc : Thread nD τ).loc main_arg3)) :=
  (W10_of_ne m ρ c main_arg3 (by decide)).trans (w9_arg3 m ρ c hx)
theorem w10_arg4 (hx : ∀ e : S400000.Idx, 0 ≤ ((m ((c.tc : Thread nD τ).loc main_arg2)) e).toInt ∧ ((m ((c.tc : Thread nD τ).loc main_arg2)) e).toInt < 50000) : W10 m ρ c (Proc.devRef .tc main_arg4) = (m ((c.tc : Thread nD τ).loc main_arg4)) :=
  (W10_of_ne m ρ c main_arg4 (by decide)).trans (w9_arg4 m ρ c hx)
theorem w10_v16 (hx : ∀ e : S400000.Idx, 0 ≤ ((m ((c.tc : Thread nD τ).loc main_arg2)) e).toInt ∧ ((m ((c.tc : Thread nD τ).loc main_arg2)) e).toInt < 50000) : W10 m ρ c (Proc.devRef .tc main_v16) = (MeanAgg.dinv (m ((c.tc : Thread nD τ).loc main_arg3))) :=
  (W10_of_ne m ρ c main_v16 (by decide)).trans (w9_v16 m ρ c hx)
theorem w10_arg14 (hx : ∀ e : S400000.Idx, 0 ≤ ((m ((c.tc : Thread nD τ).loc main_arg2)) e).toInt ∧ ((m ((c.tc : Thread nD τ).loc main_arg2)) e).toInt < 50000) : W10 m ρ c (Proc.devRef .tc main_arg14) = (m ((c.tc : Thread nD τ).loc main_arg14)) :=
  (W10_of_ne m ρ c main_arg14 (by decide)).trans (w9_arg14 m ρ c hx)
theorem w10_arg15 (hx : ∀ e : S400000.Idx, 0 ≤ ((m ((c.tc : Thread nD τ).loc main_arg2)) e).toInt ∧ ((m ((c.tc : Thread nD τ).loc main_arg2)) e).toInt < 50000) : W10 m ρ c (Proc.devRef .tc main_arg15) = (m ((c.tc : Thread nD τ).loc main_arg15)) :=
  (W10_of_ne m ρ c main_arg15 (by decide)).trans (w9_arg15 m ρ c hx)
theorem w10_arg16 (hx : ∀ e : S400000.Idx, 0 ≤ ((m ((c.tc : Thread nD τ).loc main_arg2)) e).toInt ∧ ((m ((c.tc : Thread nD τ).loc main_arg2)) e).toInt < 50000) : W10 m ρ c (Proc.devRef .tc main_arg16) = (m ((c.tc : Thread nD τ).loc main_arg16)) :=
  (W10_of_ne m ρ c main_arg16 (by decide)).trans (w9_arg16 m ρ c hx)

/-! ## Layer 4: its inputs as the kernel finds them, then its output -/

theorem w12_x (hx : ∀ e : S400000.Idx, 0 ≤ ((m ((c.tc : Thread nD τ).loc main_arg2)) e).toInt ∧ ((m ((c.tc : Thread nD τ).loc main_arg2)) e).toInt < 50000) : W12 m ρ c (Proc.devRef .tc main_v60) = (Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) :=
  (Step3.x (W10 m ρ c)).trans (by rw [w10_out m ρ c hx]; exact truncf_id _ _)
theorem w12_hn (hx : ∀ e : S400000.Idx, 0 ≤ ((m ((c.tc : Thread nD τ).loc main_arg2)) e).toInt ∧ ((m ((c.tc : Thread nD τ).loc main_arg2)) e).toInt < 50000) : W12 m ρ c (Proc.devRef .tc main_v61) = (Cert.ReferenceIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) :=
  (MeanAgg.k3_hn (W10 m ρ c) (by rw [w10_arg2 m ρ c hx]; exact hx) (by rw [w10_v16 m ρ c hx, w10_arg3 m ρ c hx])).trans
    (by rw [w10_out m ρ c hx, w10_arg2 m ρ c hx, w10_arg3 m ρ c hx]; exact (truncf_id _ _).trans (MeanAgg.r104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))).symm)
theorem w12_ws (hx : ∀ e : S400000.Idx, 0 ≤ ((m ((c.tc : Thread nD τ).loc main_arg2)) e).toInt ∧ ((m ((c.tc : Thread nD τ).loc main_arg2)) e).toInt < 50000) : W12 m ρ c (Proc.devRef .tc main_v62) = (m ((c.tc : Thread nD τ).loc main_arg14)) :=
  (Step3.ws (W10 m ρ c)).trans (by rw [w10_arg14 m ρ c hx]; exact truncf_id _ _)
theorem w12_wn (hx : ∀ e : S400000.Idx, 0 ≤ ((m ((c.tc : Thread nD τ).loc main_arg2)) e).toInt ∧ ((m ((c.tc : Thread nD τ).loc main_arg2)) e).toInt < 50000) : W12 m ρ c (Proc.devRef .tc main_v63) = (m ((c.tc : Thread nD τ).loc main_arg15)) :=
  (Step3.wn (W10 m ρ c)).trans (by rw [w10_arg15 m ρ c hx]; exact truncf_id _ _)
theorem w12_arg0 (hx : ∀ e : S400000.Idx, 0 ≤ ((m ((c.tc : Thread nD τ).loc main_arg2)) e).toInt ∧ ((m ((c.tc : Thread nD τ).loc main_arg2)) e).toInt < 50000) : W12 m ρ c (Proc.devRef .tc main_arg0) = (m ((c.tc : Thread nD τ).loc main_arg0)) :=
  (Step3.keep_main_arg0 (W10 m ρ c)).trans (w10_arg0 m ρ c hx)
theorem w12_arg4 (hx : ∀ e : S400000.Idx, 0 ≤ ((m ((c.tc : Thread nD τ).loc main_arg2)) e).toInt ∧ ((m ((c.tc : Thread nD τ).loc main_arg2)) e).toInt < 50000) : W12 m ρ c (Proc.devRef .tc main_arg4) = (m ((c.tc : Thread nD τ).loc main_arg4)) :=
  (Step3.keep_main_arg4 (W10 m ρ c)).trans (w10_arg4 m ρ c hx)
theorem w12_arg16 (hx : ∀ e : S400000.Idx, 0 ≤ ((m ((c.tc : Thread nD τ).loc main_arg2)) e).toInt ∧ ((m ((c.tc : Thread nD τ).loc main_arg2)) e).toInt < 50000) : W12 m ρ c (Proc.devRef .tc main_arg16) = (m ((c.tc : Thread nD τ).loc main_arg16)) :=
  (Step3.keep_main_arg16 (W10 m ρ c)).trans (w10_arg16 m ρ c hx)
theorem w13_out (hx : ∀ e : S400000.Idx, 0 ≤ ((m ((c.tc : Thread nD τ).loc main_arg2)) e).toInt ∧ ((m ((c.tc : Thread nD τ).loc main_arg2)) e).toInt < 50000) : W13 m ρ c (Proc.devRef .tc main_v64) = (Cert.ReferenceIdeal.Read.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :=
  (W13_arr m ρ c 5).trans ((Region3.value (V12 m ρ) c).trans (by
    show Cert.Sage.dense (N := 50000) (K := 512) (M := 128) (W12 m ρ c (Proc.devRef .tc main_v60)) (W12 m ρ c (Proc.devRef .tc main_v61)) (W12 m ρ c (Proc.devRef .tc main_v62)) (W12 m ρ c (Proc.devRef .tc main_v63)) (W12 m ρ c (Proc.devRef .tc main_arg16)) = _
    rw [w12_x m ρ c hx, w12_hn m ρ c hx, w12_ws m ρ c hx, w12_wn m ρ c hx, w12_arg16 m ρ c hx]
    exact (Cert.ReferenceIdeal.Layers.layer4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))).symm))
theorem w13_arg0 (hx : ∀ e : S400000.Idx, 0 ≤ ((m ((c.tc : Thread nD τ).loc main_arg2)) e).toInt ∧ ((m ((c.tc : Thread nD τ).loc main_arg2)) e).toInt < 50000) : W13 m ρ c (Proc.devRef .tc main_arg0) = (m ((c.tc : Thread nD τ).loc main_arg0)) :=
  (W13_of_ne m ρ c main_arg0 (by decide)).trans (w12_arg0 m ρ c hx)
theorem w13_arg4 (hx : ∀ e : S400000.Idx, 0 ≤ ((m ((c.tc : Thread nD τ).loc main_arg2)) e).toInt ∧ ((m ((c.tc : Thread nD τ).loc main_arg2)) e).toInt < 50000) : W13 m ρ c (Proc.devRef .tc main_arg4) = (m ((c.tc : Thread nD τ).loc main_arg4)) :=
  (W13_of_ne m ρ c main_arg4 (by decide)).trans (w12_arg4 m ρ c hx)

/-! ## The last stretch -/

/-- What the result buffer holds at the end is the reference's result, as a function of the launch contents of the arguments. -/
theorem result (hx : ∀ e : S400000.Idx, 0 ≤ ((m ((c.tc : Thread nD τ).loc main_arg2)) e).toInt ∧ ((m ((c.tc : Thread nD τ).loc main_arg2)) e).toInt < 50000) : W14 m ρ c (Proc.devRef .tc main_v82) = (Cert.ReferenceIdeal.Read.val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :=
  (Tail.kernel_tail (W13 m ρ c)).trans (by
    rw [w13_out m ρ c hx, w13_arg0 m ρ c hx, w13_arg4 m ρ c hx]
    exact (Tail.ref_tail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))).symm)

end Cert.KernelIdeal.Chain

end
-- ==== Proof.lean ====
/-
  A four-layer GraphSAGE auto-encoder with a masked reconstruction loss: the tiled kernel program against its jnp reference, as
  extended reals.

  Both programs mask the rows named by `mask_nodes` with the mask token, then four times replace the node features `h` by
  `h · w_self + mean_in_neighbours(h) · w_neigh + b` (rectified after the first and third layer), and return the mean over the masked
  rows of the squared difference between the decoded and the original features. They differ in three places, none of which changes a
  value on the extended reals:
  * the kernel computes the dense part of a layer in a pallas_call over 25 blocks of 2000 rows, two matrix products into zero
    accumulators per block, after a change of float format of its operands (the identity here); the reference in two whole
    `dot_general`s. Entry by entry both are the sum over the contracted index of the products, plus the bias (Spec.lean; Region0–3
    for the kernel's four calls, RefLayers for the reference's);
  * the kernel multiplies the summed neighbour features by `1 / max(deg, 1)`, the reference divides them by `max(deg, 1)`: the divisor
    is at least one, hence not zero, and its reciprocal is its inverse (Agg.mean128 / mean512);
  * the kernel gathers the source rows with jnp.take's fill mode, which replaces a row whose (wrapped) index is outside [0, 49999] by a
    NaN row, the reference with a plain gather: under the precondition every source is a node index, the test passes on every edge and
    the two gathers are one (Agg.take128 / take512, Agg.src_range).
  The kernel program's run is followed boundary by boundary (Chain.lean): at each region's entry its five arrays are the reference's
  stages of the same layer, so its exit array is the reference's next stage, and the last stretch is the reference's own.
-/
import proofs.«406791_j57157424775339_1_alg».proof.Defs
import proofs.«406791_j57157424775339_1_alg».proof.Proof.Gen.Kernel
import proofs.«406791_j57157424775339_1_alg».proof.Proof.Gen.Kernel.Frame
import proofs.«406791_j57157424775339_1_alg».proof.Proof.Gen.KernelIdeal
import proofs.«406791_j57157424775339_1_alg».proof.Proof.Gen.KernelIdeal.Frame
import proofs.«406791_j57157424775339_1_alg».proof.Proof.Gen.ReferenceIdeal
import proofs.«406791_j57157424775339_1_alg».proof.Proof.Gen.ReferenceIdeal.Run
import proofs.«406791_j57157424775339_1_alg».proof.Proof.Gen.ReferenceIdeal.Read
import proofs.«406791_j57157424775339_1_alg».proof.Proof.Gen.Pre_finite_inputs
import proofs.«406791_j57157424775339_1_alg».proof.Proof.KRun
import proofs.«406791_j57157424775339_1_alg».proof.Proof.Agg
import proofs.«406791_j57157424775339_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result buffer at the reference's function of the arguments' launch contents. -/
theorem algebraic : Cert.algebraic_KernelIdeal_ReferenceIdeal := by
  intro m ρ m' ρ' hpre hagree
  have hx : ∀ c : Dev Cert.KernelIdeal.nD, ∀ e : Cert.KernelIdeal.S400000.Idx,
      0 ≤ (m ((c.tc : Thread Cert.KernelIdeal.nD Cert.KernelIdeal.τ).loc Cert.KernelIdeal.main_arg2) e).toInt
      ∧ (m ((c.tc : Thread Cert.KernelIdeal.nD Cert.KernelIdeal.τ).loc Cert.KernelIdeal.main_arg2) e).toInt < 50000 :=
    fun c => Cert.KernelIdeal.Agg.src_range _ _ _ _ _ _ _ _ _ _ _ _ _ _ _ _ _ (hpre c)
  refine ⟨_, (θ_run Cert.KernelIdeal.defs _ _).mono
    (fun _ h c => ⟨(h c).1.trans (Cert.KernelIdeal.Chain.result m ρ c (hx c)), (h c).2⟩)
    (Cert.KernelIdeal.GenV.run_value (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  rw [Cert.ReferenceIdeal.Read.val_main_v128_eq, e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
